-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v48)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v48) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v47) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1000000x128 : Shape := ⟨2, ![1000000, 128]⟩
abbrev S1000000 : Shape := ⟨1, ![1000000]⟩
abbrev S128 : Shape := ⟨1, ![128]⟩
abbrev S_ : Shape := ⟨0, ![]⟩

class Facts : Prop where
  bcast_S_S1000000x128 : S_.BroadcastsInDim S1000000x128 (![] : Fin 0 → Fin S1000000x128.rank)
  reducesTo_S1000000x128_S_d0_1 : S1000000x128.ReducesTo [0, 1] S_
  h_S_ : 0 < S_.numel
  bcast_S_S128 : S_.BroadcastsInDim S128 (![] : Fin 0 → Fin S128.rank)
  reducesTo_S128_S_d0 : S128.ReducesTo [0] S_
  bcast_S_S1000000 : S_.BroadcastsInDim S1000000 (![] : Fin 0 → Fin S1000000.rank)
  reducesTo_S1000000_S_d0 : S1000000.ReducesTo [0] S_

variable [Facts]

def fn_part1 {F : FTy → Type} [FloatOps F] (main_arg1 : IVec S1000000 32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_c_6 : IVec S_ 32 := constantI S_ 32 0#32
  let main_v19 : IVec S1000000 32 := broadcastInDim S1000000 ![] bcast_S_S1000000 main_c_6
  let main_v20 : IVec S1000000 1 := cmpi .sge main_arg1 main_v19
  let main_c_7 : IVec S_ 32 := constantI S_ 32 256#32
  let main_v21 : IVec S1000000 32 := broadcastInDim S1000000 ![] bcast_S_S1000000 main_c_7
  let main_v22 : IVec S1000000 1 := cmpi .slt main_arg1 main_v21
  let main_v23 : IVec S1000000 1 := andi main_v20 main_v22
  let main_c_8 : IVec S_ 1 := constantI S_ 1 1#1
  let main_v24 : IVec S_ 1 := (fun x v => Host.reduce IntOp.andi x v reducesTo_S1000000_S_d0 h_S_) main_v23 main_c_8
  let main_v25 : IVec S_ 1 := andi main_v18 main_v24
  main_v25

def fn {F : FTy → Type} [FloatOps F] (main_arg0 : FVec F S1000000x128 .f32) (main_arg1 : IVec S1000000 32) (main_arg2 : FVec F S128 .f32) (main_arg3 : FVec F S128 .f32) (main_arg4 : FVec F S128 .f32) : IVec S_ 1 :=
  let main_v0 : FVec F S1000000x128 .f32 := Host.absf main_arg0
  let main_cst : FVec F S_ .f32 := constant S_ .f32 0x7F800000#32
  let main_v1 : FVec F S1000000x128 .f32 := broadcastInDim S1000000x128 ![] bcast_S_S1000000x128 main_cst
  let main_v2 : IVec S1000000x128 1 := cmpf .olt main_v0 main_v1
  let main_c : IVec S_ 1 := constantI S_ 1 1#1
  let main_v3 : IVec S_ 1 := (fun x v => Host.reduce IntOp.andi x v reducesTo_S1000000x128_S_d0_1 h_S_) main_v2 main_c
  let main_v4 : FVec F S128 .f32 := Host.absf main_arg2
  let main_cst_0 : FVec F S_ .f32 := constant S_ .f32 0x7F800000#32
  let main_v5 : FVec F S128 .f32 := broadcastInDim S128 ![] bcast_S_S128 main_cst_0
  let main_v6 : IVec S128 1 := cmpf .olt main_v4 main_v5
  let main_c_1 : IVec S_ 1 := constantI S_ 1 1#1
  let main_v7 : IVec S_ 1 := (fun x v => Host.reduce IntOp.andi x v reducesTo_S128_S_d0 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg1 main_v13 main_v16
-- ==== Kernel.lean ====
abbrev S1000000x128 : Shape := ⟨2, ![1000000, 128]⟩
abbrev S1000000 : Shape := ⟨1, ![1000000]⟩
abbrev S128 : Shape := ⟨1, ![128]⟩
abbrev S1000000x1 : Shape := ⟨2, ![1000000, 1]⟩
abbrev S2x256x128 : Shape := ⟨3, ![2, 256, 128]⟩
abbrev S5000x128 : Shape := ⟨2, ![5000, 128]⟩
abbrev S5000x1 : Shape := ⟨2, ![5000, 1]⟩
abbrev S1x256x128 : Shape := ⟨3, ![1, 256, 128]⟩
abbrev S256x128 : Shape := ⟨2, ![256, 128]⟩
abbrev S5000x256 : Shape := ⟨2, ![5000, 256]⟩
abbrev S256x256 : Shape := ⟨2, ![256, 256]⟩
abbrev S_ : Shape := ⟨0, ![]⟩
abbrev S256 : Shape := ⟨1, ![256]⟩
abbrev S256x1 : Shape := ⟨2, ![256, 1]⟩
abbrev S1x128 : Shape := ⟨2, ![1, 128]⟩
abbrev S256x512 : Shape := ⟨2, ![256, 512]⟩
abbrev S4000x128 : Shape := ⟨2, ![4000, 128]⟩
abbrev S4000x1 : Shape := ⟨2, ![4000, 1]⟩
abbrev S4000x256 : Shape := ⟨2, ![4000, 256]⟩
abbrev S4000x512 : Shape := ⟨2, ![4000, 512]⟩

abbrev nBuf : Space → Nat
  | .hbm => 64
  | .vmem => 15
  | .smem => 0
  | _ => 0

abbrev bufTy : (tb : Table) → Fin (tcTables nBuf tb) → BufTy
  | .hbm, ⟨0, _⟩ => ⟨S1000000x128, .f32⟩
  | .hbm, ⟨1, _⟩ => ⟨S1000000, .i32⟩
  | .hbm, ⟨2, _⟩ => ⟨S128, .f32⟩
  | .hbm, ⟨3, _⟩ => ⟨S128, .f32⟩
  | .hbm, ⟨4, _⟩ => ⟨S128, .f32⟩
  | .hbm, ⟨5, _⟩ => ⟨S1000000x1, .i32⟩
  | .hbm, ⟨6, _⟩ => ⟨S2x256x128, .f32⟩
  | .hbm, ⟨7, _⟩ => ⟨S2x256x128, .f32⟩
  | .hbm, ⟨8, _⟩ => ⟨S_, .f32⟩
  | .hbm, ⟨9, _⟩ => ⟨S256x128, .f32⟩
  | .hbm, ⟨10, _⟩ => ⟨S_, .f32⟩
  | .hbm, ⟨11, _⟩ => ⟨S256x128, .f32⟩
  | .hbm, ⟨12, _⟩ => ⟨S_, .f32⟩
  | .hbm, ⟨13, _⟩ => ⟨S1000000, .f32⟩
  | .hbm, ⟨14, _⟩ => ⟨S_, .f32⟩
  | .hbm, ⟨15, _⟩ => ⟨S256, .f32⟩
  | .hbm, ⟨16, _⟩ => ⟨S1000000x1, .i32⟩
  | .hbm, ⟨17, _⟩ => ⟨S256, .f32⟩
  | .hbm, ⟨18, _⟩ => ⟨S_, .f32⟩
  | .hbm, ⟨19, _⟩ => ⟨S256, .f32⟩
  | .hbm, ⟨20, _⟩ => ⟨S256, .f32⟩
  | .hbm, ⟨21, _⟩ => ⟨S256x1, .f32⟩
  | .hbm, ⟨22, _⟩ => ⟨S256x128, .f32⟩
  | .hbm, ⟨23, _⟩ => ⟨S256x128, .f32⟩
  | .hbm, ⟨24, _⟩ => ⟨S256x128, .f32⟩
  | .hbm, ⟨25, _⟩ => ⟨S256x128, .f32⟩
  | .hbm, ⟨26, _⟩ => ⟨S1x128, .f32⟩
  | .hbm, ⟨27, _⟩ => ⟨S256x128, .f32⟩
  | .hbm, ⟨28, _⟩ => ⟨S1x128, .f32⟩
  | .hbm, ⟨29, _⟩ => ⟨S_, .f32⟩
  | .hbm, ⟨30, _⟩ => ⟨S1x128, .f32⟩
  | .hbm, ⟨31, _⟩ => ⟨S1x128, .f32⟩
  | .hbm, ⟨32, _⟩ => ⟨S1x128, .f32⟩
  | .hbm, ⟨33, _⟩ => ⟨S256x128, .f32⟩
  | .hbm, ⟨34, _⟩ => ⟨S256x128, .f32⟩
  | .hbm, ⟨35, _⟩ => ⟨S256x128, .f32⟩
  | .hbm, ⟨36, _⟩ => ⟨S_, .f32⟩
  | .hbm, ⟨37, _⟩ => ⟨S256x128, .f32⟩
  | .hbm, ⟨38, _⟩ => ⟨S256x128, .f32⟩
  | .hbm, ⟨39, _⟩ => ⟨S_, .f32⟩
  | .hbm, ⟨40, _⟩ => ⟨S256x128, .f32⟩
  | .hbm, ⟨41, _⟩ => ⟨S256x128, .f32⟩
  | .hbm, ⟨42, _⟩ => ⟨S256x128, .f32⟩
  | .hbm, ⟨43, _⟩ => ⟨S_, .f32⟩
  | .hbm, ⟨44, _⟩ => ⟨S256x128, .f32⟩
  | .hbm, ⟨45, _⟩ => ⟨S256x128, .f32⟩
  | .hbm, ⟨46, _⟩ => ⟨S256x128, .f32⟩
  | .hbm, ⟨47, _⟩ => ⟨S256x128, .f32⟩
  | .hbm, ⟨48, _⟩ => ⟨S1x128, .f32⟩
  | .hbm, ⟨49, _⟩ => ⟨S1x128, .f32⟩
  | .hbm, ⟨50, _⟩ => ⟨S256x128, .f32⟩
  | .hbm, ⟨51, _⟩ => ⟨S256x128, .f32⟩
  | .hbm, ⟨52, _⟩ => ⟨S256x128, .f32⟩
  | .hbm, ⟨53, _⟩ => ⟨S256x128, .f32⟩
  | .hbm, ⟨54, _⟩ => ⟨S256x128, .f32⟩
  | .hbm, ⟨55, _⟩ => ⟨S256x128, .f32⟩
  | .hbm, ⟨56, _⟩ => ⟨S256x128, .f32⟩
  | .hbm, ⟨57, _⟩ => ⟨S256x256, .f32⟩
  | .hbm, ⟨58, _⟩ => ⟨S256x256, .bf16⟩
  | .hbm, ⟨59, _⟩ => ⟨S256x256, .f32⟩
  | .hbm, ⟨60, _⟩ => ⟨S256x256, .f32⟩
  | .hbm, ⟨61, _⟩ => ⟨S256x256, .bf16⟩
  | .hbm, ⟨62, _⟩ => ⟨S256x512, .bf16⟩
  | .hbm, ⟨63, _⟩ => ⟨S1000000x128, .f32⟩
  | .local _ .vmem, ⟨0, _⟩ => ⟨S5000x128, .f32⟩
  | .local _ .vmem, ⟨1, _⟩ => ⟨S5000x128, .f32⟩
  | .local _ .vmem, ⟨2, _⟩ => ⟨S5000x1, .i32⟩
  | .local _ .vmem, ⟨3, _⟩ => ⟨S5000x1, .i32⟩
  | .local _ .vmem, ⟨4, _⟩ => ⟨S1x256x128, .f32⟩
  | .local _ .vmem, ⟨5, _⟩ => ⟨S1x256x128, .f32⟩
  | .local _ .vmem, ⟨6, _⟩ => ⟨S1x256x128, .f32⟩
  | .local _ .vmem, ⟨7, _⟩ => ⟨S1x256x128, .f32⟩
  | .local _ .vmem, ⟨8, _⟩ => ⟨S4000x128, .f32⟩
  | .local _ .vmem, ⟨9, _⟩ => ⟨S4000x128, .f32⟩
  | .local _ .vmem, ⟨10, _⟩ => ⟨S4000x1, .i32⟩
  | .local _ .vmem, ⟨11, _⟩ => ⟨S4000x1, .i32⟩
  | .local _ .vmem, ⟨12, _⟩ => ⟨S256x512, .bf16⟩
  | .local _ .vmem, ⟨13, _⟩ => ⟨S4000x128, .f32⟩
  | .local _ .vmem, ⟨14, _⟩ => ⟨S4000x128, .f32⟩
  | _, _ => ⟨S1000000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev main_cst : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_cst_1 : Ref sig .tc := ⟨.hbm, 12, rfl⟩
abbrev main_v4 : Ref sig .tc := ⟨.hbm, 13, rfl⟩
abbrev main_cst_2 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_3 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_4 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_5 : Ref sig .tc := ⟨.hbm, 36, rfl⟩
abbrev main_v24 : Ref sig .tc := ⟨.hbm, 37, rfl⟩
abbrev main_v25 : Ref sig .tc := ⟨.hbm, 38, rfl⟩
abbrev main_cst_6 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_cst_7 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg3_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem3_0 : DmaSem sig := 13
abbrev cc1_sem3_1 : DmaSem sig := 14

abbrev nD : Nat := 1
abbrev τ : Topo := Topo.v7x

variable {F : FTy → Type} [FloatOps F]

abbrev grid0 : Pipeline.Grid := ⟨2, ![2, 100], ![false, false]⟩

def cc0_transform_0 (i : grid0.Coords) : Fin 2 → Nat :=
  let arg0 : BitVec 32 := BitVec.ofNat 32 (i 0).val
  let arg1 : BitVec 32 := BitVec.ofNat 32 (i 1).val
  let c100_i32 : BitVec 32 := 100#32
  let v0 : BitVec 32 := Scalar.muli arg0 c100_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c100_i32 : BitVec 32 := 100#32
  let v0 : BitVec 32 := Scalar.muli arg0 c100_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S5000x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev grid1 : Pipeline.Grid := ⟨1, ![250], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x1 .i32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S256x512 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S4000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  shapeCasts_S1000000_S1000000x1 : S1000000.ShapeCasts S1000000x1
  inb_S1x256x128_S1x256x128_0_0_0 : ∀ a, (![0, 0, 0] : Fin 3 → Nat) a + S1x256x128.size a ≤ S1x256x128.size a
  h_S1x256x128 : 0 < S1x256x128.numel
  shapeCasts_S1x256x128_S256x128 : S1x256x128.ShapeCasts S256x128
  shapeCasts_S256x128_S1x256x128 : S256x128.ShapeCasts S1x256x128
  inb_S5000x128_S5000x128_0_0 : ∀ a, (![0, 0] : Fin 2 → Nat) a + S5000x128.size a ≤ S5000x128.size a
  h_S5000x128 : 0 < S5000x128.numel
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  iota_S5000x256_d1_w32 : S5000x256.Iotas .tc 32 [1]
  broadcasts_S5000x1_S5000x256 : S5000x1.Broadcasts S5000x256
  natLt_1_32 : 1 < 32
  bitsLt_bf16_f32 : FTy.bits .bf16 < FTy.bits .f32
  concatenates_S5000x128_S5000x128_S5000x256_d1 : Shape.Concatenates [S5000x128, S5000x128] S5000x256 1
  slices_S256x256_o0_0_S256x128 : S256x256.Slices ![0, 0] S256x128
  slices_S256x256_o0_128_S256x128 : S256x256.Slices ![0, 128] S256x128
  reducesTo_S2x256x128_S256x128_d0 : S2x256x128.ReducesTo [0] S256x128
  h_S_ : 0 < S_.numel
  bcast_S_S1000000 : S_.BroadcastsInDim S1000000 (![] : Fin 0 → Fin S1000000.rank)
  bcast_S_S256 : S_.BroadcastsInDim S256 (![] : Fin 0 → Fin S256.rank)
  bcast_S1000000_S1000000x1_0 : S1000000.BroadcastsInDim S1000000x1 (![0] : Fin 1 → Fin S1000000x1.rank)
  shapeCasts_S256_S256x1 : S256.ShapeCasts S256x1
  bcast_S256x1_S256x128_0_1 : S256x1.BroadcastsInDim S256x128 (![0, 1] : Fin 2 → Fin S256x128.rank)
  shapeCasts_S128_S1x128 : S128.ShapeCasts S1x128
  bcast_S_S1x128 : S_.BroadcastsInDim S1x128 (![] : Fin 0 → Fin S1x128.rank)
  bcast_S1x128_S256x128_0_1 : S1x128.BroadcastsInDim S256x128 (![0, 1] : Fin 2 → Fin S256x128.rank)
  bcast_S_S256x128 : S_.BroadcastsInDim S256x128 (![] : Fin 0 → Fin S256x128.rank)
  concatenates_S256x128_S256x128_S256x256_d1 : Shape.Concatenates [S256x128, S256x128] S256x256 1
  concatenates_S256x256_S256x256_S256x512_d1 : Shape.Concatenates [S256x256, S256x256] S256x512 1
  inb_S4000x128_S4000x128_0_0 : ∀ a, (![0, 0] : Fin 2 → Nat) a + S4000x128.size a ≤ S4000x128.size a
  h_S4000x128 : 0 < S4000x128.numel
  inb_S4000x1_S4000x1_0_0 : ∀ a, (![0, 0] : Fin 2 → Nat) a + S4000x1.size a ≤ S4000x1.size a
  h_S4000x1 : 0 < S4000x1.numel
  shapeCasts_S4000x1_S4000x1 : S4000x1.ShapeCasts S4000x1
  iota_S4000x256_d1_w32 : S4000x256.Iotas .tc 32 [1]
  broadcasts_S4000x1_S4000x256 : S4000x1.Broadcasts S4000x256
  inb_S256x512_S256x512_0_0 : ∀ a, (![0, 0] : Fin 2 → Nat) a + S256x512.size a ≤ S256x512.size a
  h_S256x512 : 0 < S256x512.numel
  shapeCasts_S256x512_S256x512 : S256x512.ShapeCasts S256x512
  slices_S4000x512_o0_0_S4000x256 : S4000x512.Slices ![0, 0] S4000x256
  slices_S4000x512_o0_256_S4000x256 : S4000x512.Slices ![0, 256] S4000x256
  slices_S4000x256_o0_0_S4000x128 : S4000x256.Slices ![0, 0] S4000x128
  slices_S4000x256_o0_128_S4000x128 : S4000x256.Slices ![0, 128] S4000x128
  dot_S5000x256_S5000x256_S256x256_0_0_1_1_n_n_wf : DotDims.WF S5000x256 S5000x256 S256x256 [0] [0] [1] [1] [] []
  scatter_S256_S1000000x1_S1000000_n_0_0_1_wf : ScatterDims.WF S256 S1000000x1 S1000000 [] [0] [0] 1
  dot_S4000x256_S256x512_S4000x512_1_0_0_1_n_n_wf : DotDims.WF S4000x256 S256x512 S4000x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S1000000x128.size a
  hwx0_0 : ∀ i : grid0.Coords, EltTy.bits .f32 = 32 ∨ (Rect.block (s := S1000000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x1.size a ≤ S1000000x1.size a
  hwx0_1 : ∀ i : grid0.Coords, EltTy.bits .i32 = 32 ∨ (Rect.block (s := S1000000x1) S5000x1.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x256x128.size a ≤ S2x256x128.size a
  hwx0_2 : ∀ i : grid0.Coords, EltTy.bits .f32 = 32 ∨ (Rect.block (s := S2x256x128) S1x256x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x256x128.size a ≤ S2x256x128.size a
  hwx0_3 : ∀ i : grid0.Coords, EltTy.bits .f32 = 32 ∨ (Rect.block (s := S2x256x128) S1x256x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x128.size a ≤ S1000000x128.size a
  hwx1_0 : ∀ i : grid1.Coords, EltTy.bits .f32 = 32 ∨ (Rect.block (s := S1000000x128) S4000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4000x1.size a ≤ S1000000x1.size a
  hwx1_1 : ∀ i : grid1.Coords, EltTy.bits .i32 = 32 ∨ (Rect.block (s := S1000000x1) S4000x1.size (cc1_transform_1 i) (hinb1_1 i)).WholeWords (EltTy.packing .i32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256x512.size a ≤ S256x512.size a
  hwx1_2 : ∀ i : grid1.Coords, EltTy.bits .bf16 = 32 ∨ (Rect.block (s := S256x512) S256x512.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S4000x128.size a ≤ S1000000x128.size a
  hwx1_3 : ∀ i : grid1.Coords, EltTy.bits .f32 = 32 ∨ (Rect.block (s := S1000000x128) S4000x128.size (cc1_transform_3 i) (hinb1_3 i)).WholeWords (EltTy.packing .f32)

variable [Facts₀]

def dot_S5000x256_S5000x256_S256x256_0_0_1_1_n_n : DotDims S5000x256 S5000x256 S256x256 where
  lhsContracting := [0]
  rhsContracting := [0]
  lhsNonContracting := [1]
  rhsNonContracting := [1]
  lhsBatch := []
  rhsBatch := []
  wf := dot_S5000x256_S5000x256_S256x256_0_0_1_1_n_n_wf
def scatter_S256_S1000000x1_S1000000_n_0_0_1 : ScatterDims S256 S1000000x1 S1000000 where
  updateWindowDims := []
  insertedWindowDims := [0]
  scatterDimsToOperandDims := [0]
  indexVectorDim := 1
  wf := scatter_S256_S1000000x1_S1000000_n_0_0_1_wf
def dot_S4000x256_S256x512_S4000x512_1_0_0_1_n_n : DotDims S4000x256 S256x512 S4000x512 where
  lhsContracting := [1]
  rhsContracting := [0]
  lhsNonContracting := [0]
  rhsNonContracting := [1]
  lhsBatch := []
  rhsBatch := []
  wf := dot_S4000x256_S256x512_S4000x512_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S5000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1_0) S1x256x128.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1_1) S1x256x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg0) S4000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S4000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v47) S256x512.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v48) S4000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S1000000x128 : Shape := ⟨2, ![1000000, 128]⟩
abbrev S1000000 : Shape := ⟨1, ![1000000]⟩
abbrev S128 : Shape := ⟨1, ![128]⟩
abbrev S1000000x1 : Shape := ⟨2, ![1000000, 1]⟩
abbrev S_ : Shape := ⟨0, ![]⟩
abbrev S256 : Shape := ⟨1, ![256]⟩
abbrev S256x1 : Shape := ⟨2, ![256, 1]⟩
abbrev S256x128 : Shape := ⟨2, ![256, 128]⟩
abbrev S1x128 : Shape := ⟨2, ![1, 128]⟩

abbrev nBuf : Space → Nat
  | .hbm => 63
  | .vmem => 0
  | .smem => 0
  | _ => 0

abbrev bufTy : (tb : Table) → Fin (tcTables nBuf tb) → BufTy
  | .hbm, ⟨0, _⟩ => ⟨S1000000x128, .f32⟩
  | .hbm, ⟨1, _⟩ => ⟨S1000000, .i32⟩
  | .hbm, ⟨2, _⟩ => ⟨S128, .f32⟩
  | .hbm, ⟨3, _⟩ => ⟨S128, .f32⟩
  | .hbm, ⟨4, _⟩ => ⟨S128, .f32⟩
  | .hbm, ⟨5, _⟩ => ⟨S1000000x1, .f32⟩
  | .hbm, ⟨6, _⟩ => ⟨S1000000, .f32⟩
  | .hbm, ⟨7, _⟩ => ⟨S_, .f32⟩
  | .hbm, ⟨8, _⟩ => ⟨S1000000, .f32⟩
  | .hbm, ⟨9, _⟩ => ⟨S_, .f32⟩
  | .hbm, ⟨10, _⟩ => ⟨S256, .f32⟩
  | .hbm, ⟨11, _⟩ => ⟨S1000000x1, .i32⟩
  | .hbm, ⟨12, _⟩ => ⟨S256, .f32⟩
  | .hbm, ⟨13, _⟩ => ⟨S_, .f32⟩
  | .hbm, ⟨14, _⟩ => ⟨S256, .f32⟩
  | .hbm, ⟨15, _⟩ => ⟨S256, .f32⟩
  | .hbm, ⟨16, _⟩ => ⟨S256x1, .f32⟩
  | .hbm, ⟨17, _⟩ => ⟨S_, .f32⟩
  | .hbm, ⟨18, _⟩ => ⟨S256x128, .f32⟩
  | .hbm, ⟨19, _⟩ => ⟨S1000000x1, .i32⟩
  | .hbm, ⟨20, _⟩ => ⟨S256x128, .f32⟩
  | .hbm, ⟨21, _⟩ => ⟨S256x128, .f32⟩
  | .hbm, ⟨22, _⟩ => ⟨S256x128, .f32⟩
  | .hbm, ⟨23, _⟩ => ⟨S_, .i32⟩
  | .hbm, ⟨24, _⟩ => ⟨S1000000, .i32⟩
  | .hbm, ⟨25, _⟩ => ⟨S1000000, .i1⟩
  | .hbm, ⟨26, _⟩ => ⟨S_, .i32⟩
  | .hbm, ⟨27, _⟩ => ⟨S1000000, .i32⟩
  | .hbm, ⟨28, _⟩ => ⟨S1000000, .i32⟩
  | .hbm, ⟨29, _⟩ => ⟨S1000000, .i32⟩
  | .hbm, ⟨30, _⟩ => ⟨S1000000x1, .i32⟩
  | .hbm, ⟨31, _⟩ => ⟨S1000000x128, .f32⟩
  | .hbm, ⟨32, _⟩ => ⟨S1x128, .f32⟩
  | .hbm, ⟨33, _⟩ => ⟨S1000000x128, .f32⟩
  | .hbm, ⟨34, _⟩ => ⟨S1000000x128, .f32⟩
  | .hbm, ⟨35, _⟩ => ⟨S1000000x128, .f32⟩
  | .hbm, ⟨36, _⟩ => ⟨S1000000x128, .f32⟩
  | .hbm, ⟨37, _⟩ => ⟨S_, .f32⟩
  | .hbm, ⟨38, _⟩ => ⟨S256x128, .f32⟩
  | .hbm, ⟨39, _⟩ => ⟨S1000000x1, .i32⟩
  | .hbm, ⟨40, _⟩ => ⟨S256x128, .f32⟩
  | .hbm, ⟨41, _⟩ => ⟨S256x128, .f32⟩
  | .hbm, ⟨42, _⟩ => ⟨S256x128, .f32⟩
  | .hbm, ⟨43, _⟩ => ⟨S_, .f32⟩
  | .hbm, ⟨44, _⟩ => ⟨S256x128, .f32⟩
  | .hbm, ⟨45, _⟩ => ⟨S256x128, .f32⟩
  | .hbm, ⟨46, _⟩ => ⟨S256x128, .f32⟩
  | .hbm, ⟨47, _⟩ => ⟨S1x128, .f32⟩
  | .hbm, ⟨48, _⟩ => ⟨S1000000x128, .f32⟩
  | .hbm, ⟨49, _⟩ => ⟨S1000000x128, .f32⟩
  | .hbm, ⟨50, _⟩ => ⟨S_, .i32⟩
  | .hbm, ⟨51, _⟩ => ⟨S1000000, .i32⟩
  | .hbm, ⟨52, _⟩ => ⟨S1000000, .i1⟩
  | .hbm, ⟨53, _⟩ => ⟨S_, .i32⟩
  | .hbm, ⟨54, _⟩ => ⟨S1000000, .i32⟩
  | .hbm, ⟨55, _⟩ => ⟨S1000000, .i32⟩
  | .hbm, ⟨56, _⟩ => ⟨S1000000, .i32⟩
  | .hbm, ⟨57, _⟩ => ⟨S1000000x1, .i32⟩
  | .hbm, ⟨58, _⟩ => ⟨S1000000x128, .f32⟩
  | .hbm, ⟨59, _⟩ => ⟨S1000000x128, .f32⟩
  | .hbm, ⟨60, _⟩ => ⟨S1x128, .f32⟩
  | .hbm, ⟨61, _⟩ => ⟨S1000000x128, .f32⟩
  | .hbm, ⟨62, _⟩ => ⟨S1000000x128, .f32⟩
  | _, _ => ⟨S1000000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_c : Ref sig .tc := ⟨.hbm, 23, rfl⟩
abbrev main_v14 : Ref sig .tc := ⟨.hbm, 24, rfl⟩
abbrev main_v15 : Ref sig .tc := ⟨.hbm, 25, rfl⟩
abbrev main_c_3 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_4 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_5 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_c_6 : Ref sig .tc := ⟨.hbm, 50, rfl⟩
abbrev main_v37 : Ref sig .tc := ⟨.hbm, 51, rfl⟩
abbrev main_v38 : Ref sig .tc := ⟨.hbm, 52, rfl⟩
abbrev main_c_7 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩

abbrev nD : Nat := 1
abbrev τ : Topo := Topo.v7x

variable {F : FTy → Type} [FloatOps F]

class Facts₀ : Prop where
  slices_S1000000x128_S1000000x1_0_0 : S1000000x128.Slices ![0, 0] S1000000x1
  shapeCasts_S1000000x1_S1000000 : S1000000x1.ShapeCasts S1000000
  bcast_S_S1000000 : S_.BroadcastsInDim S1000000 (![] : Fin 0 → Fin S1000000.rank)
  bcast_S_S256 : S_.BroadcastsInDim S256 (![] : Fin 0 → Fin S256.rank)
  bcast_S1000000_S1000000x1_0 : S1000000.BroadcastsInDim S1000000x1 (![0] : Fin 1 → Fin S1000000x1.rank)
  bcast_S256_S256x1_0 : S256.BroadcastsInDim S256x1 (![0] : Fin 1 → Fin S256x1.rank)
  bcast_S_S256x128 : S_.BroadcastsInDim S256x128 (![] : Fin 0 → Fin S256x128.rank)
  bcast_S256x1_S256x128_0_1 : S256x1.BroadcastsInDim S256x128 (![0, 1] : Fin 2 → Fin S256x128.rank)
  bcast_S128_S1x128_1 : S128.BroadcastsInDim S1x128 (![1] : Fin 1 → Fin S1x128.rank)
  bcast_S1x128_S1000000x128_0_1 : S1x128.BroadcastsInDim S1000000x128 (![0, 1] : Fin 2 → Fin S1000000x128.rank)
  scatter_S256_S1000000x1_S1000000_n_0_0_1_wf : ScatterDims.WF S256 S1000000x1 S1000000 [] [0] [0] 1
  scatter_S256x128_S1000000x1_S1000000x128_1_0_0_1_wf : ScatterDims.WF S256x128 S1000000x1 S1000000x128 [1] [0] [0] 1
  gather_S256x128_S1000000x1_S1000000x128_1_0_n_n_0_1_1128_wf : GatherDims.WF S256x128 S1000000x1 S1000000x128 [1] [0] [] [0] [] 1 ![1, 128]

variable [Facts₀]

def scatter_S256_S1000000x1_S1000000_n_0_0_1 : ScatterDims S256 S1000000x1 S1000000 where
  updateWindowDims := []
  insertedWindowDims := [0]
  scatterDimsToOperandDims := [0]
  indexVectorDim := 1
  wf := scatter_S256_S1000000x1_S1000000_n_0_0_1_wf
def scatter_S256x128_S1000000x1_S1000000x128_1_0_0_1 : ScatterDims S256x128 S1000000x1 S1000000x128 where
  updateWindowDims := [1]
  insertedWindowDims := [0]
  scatterDimsToOperandDims := [0]
  indexVectorDim := 1
  wf := scatter_S256x128_S1000000x1_S1000000x128_1_0_0_1_wf
def gather_S256x128_S1000000x1_S1000000x128_1_0_n_n_0_1_1128 : GatherDims S256x128 S1000000x1 S1000000x128 where
  offsetDims := [1]
  collapsedSliceDims := [0]
  operandBatchingDims := []
  startIndicesBatchingDims := []
  startIndexMap := [0]
  indexVectorDim := 1
  sliceSizes := ![1, 128]
  wf := gather_S256x128_S1000000x1_S1000000x128_1_0_n_n_0_1_1128_wf

class Facts : Prop extends Facts₀ where

variable [Facts]
-- ==== Proof.Spec.lean ====
/-
  The mathematics both programs are read against, stated once and over no program.

  Rows are numbered by `Fin 1000000`, features by `Fin 128`, graphs by `Fin 256`. A row's graph is given by a
  function `γ` from rows to graphs (the index input, once it is known to lie in range, is `γ` read as 32-bit words).
  `segSum γ f g` adds `f` over the rows of graph `g`. On it are built the two-pass normalisation (mean, centred
  features, variance of the centred features, standard deviation, output) and the one-pass form (sum and sum of
  squares, variance by `E[x²] + mean² (c² − 2c)` clamped at zero, an affine pair `(a, b)` per graph and feature,
  split into a leading part and a remainder `t − t`, gathered by a one-hot product and applied as `x · a + b`).
  All values are extended reals; the operations are the exact ones (`Ideal.div`, `Ideal.sqrt`).
-/
import Idealize.ShloMosaic.PureOps.Ideal
import Idealize.ShloMosaic.Lib.ValueIdx

noncomputable section

namespace GraphNorm

open Idealize.ShloMosaic Idealize.ShloMosaic.ValueIdx

/-! ## Index shapes -/

abbrev SN : Shape := ⟨1, ![1000000]⟩
abbrev SN1 : Shape := ⟨2, ![1000000, 1]⟩
abbrev SND : Shape := ⟨2, ![1000000, 128]⟩
abbrev SD : Shape := ⟨1, ![128]⟩
abbrev SG : Shape := ⟨1, ![256]⟩
abbrev SGD : Shape := ⟨2, ![256, 128]⟩
abbrev SKGD : Shape := ⟨3, ![2, 256, 128]⟩
abbrev ST : Shape := ⟨2, ![256, 512]⟩

/-- The 32-bit word of graph number `g`. -/
abbrev gw (g : Fin 256) : BitVec 32 := BitVec.ofNat 32 g.val

/-! ## The four float literals, as the words both programs carry -/

def zero : EReal := Ideal.ofBits .f32 0x00000000#32
def one : EReal := Ideal.ofBits .f32 0x3F800000#32
def two : EReal := Ideal.ofBits .f32 0x40000000#32
def eps : EReal := Ideal.ofBits .f32 0x358637BD#32

/-! ## Sums over a graph's rows -/

/-- The sum of `f` over the rows whose graph is `g`. -/
def segSum (γ : Fin 1000000 → Fin 256) (f : Fin 1000000 → EReal) (g : Fin 256) : EReal :=
  ∑ r : Fin 1000000, if γ r = g then f r else 0

/-- Row number `n` (reduced into range, so that it is total on the naturals). -/
def rowN (n : ℕ) : Fin 1000000 := ⟨n % 1000000, Nat.mod_lt _ (by decide)⟩

/-- The part of `segSum` contributed by tile `t` of 5000 consecutive rows. -/
def tileSum (γ : Fin 1000000 → Fin 256) (f : Fin 1000000 → EReal) (t : ℕ) (g : Fin 256) : EReal :=
  ∑ r : Fin 5000, if γ (rowN (t * 5000 + r.val)) = g then f (rowN (t * 5000 + r.val)) else 0

/-- Half `k` of the rows (100 tiles of 5000): what one of the two accumulating passes adds up. -/
def slab (γ : Fin 1000000 → Fin 256) (f : Fin 1000000 → EReal) (k : Fin 2) (g : Fin 256) : EReal :=
  ∑ i ∈ Finset.range 100, tileSum γ f (k.val * 100 + i) g

/-! ## The two-pass form (the reference) -/

/-- Rows per graph, from zero. -/
def cnt (γ : Fin 1000000 → Fin 256) (g : Fin 256) : EReal := zero + segSum γ (fun _ => one) g
/-- The divisor: the count, at least one. -/
def nOf (γ : Fin 1000000 → Fin 256) (g : Fin 256) : EReal := max (cnt γ g) one
/-- Per-graph sum of feature `d`. -/
def sumX (X : SND.Idx → EReal) (γ : Fin 1000000 → Fin 256) (g : Fin 256) (d : Fin 128) : EReal :=
  zero + segSum γ (fun r => X (ix2 r d)) g
/-- Per-graph sum of squares of feature `d`. -/
def sumXX (X : SND.Idx → EReal) (γ : Fin 1000000 → Fin 256) (g : Fin 256) (d : Fin 128) : EReal :=
  zero + segSum γ (fun r => X (ix2 r d) * X (ix2 r d)) g
def meanR (X : SND.Idx → EReal) (γ : Fin 1000000 → Fin 256) (g : Fin 256) (d : Fin 128) : EReal :=
  Ideal.div (sumX X γ g d) (nOf γ g)
/-- The centred feature of row `r`: the row's own graph's mean, scaled, taken off. -/
def subR (X : SND.Idx → EReal) (γ : Fin 1000000 → Fin 256) (C : SD.Idx → EReal) (r : Fin 1000000) (d : Fin 128) : EReal :=
  X (ix2 r d) - meanR X γ (γ r) d * C (ix1 d)
def sqR (X : SND.Idx → EReal) (γ : Fin 1000000 → Fin 256) (C : SD.Idx → EReal) (g : Fin 256) (d : Fin 128) : EReal :=
  zero + segSum γ (fun r => subR X γ C r d * subR X γ C r d) g
def varR (X : SND.Idx → EReal) (γ : Fin 1000000 → Fin 256) (C : SD.Idx → EReal) (g : Fin 256) (d : Fin 128) : EReal :=
  Ideal.div (sqR X γ C g d) (nOf γ g)
def stdR (X : SND.Idx → EReal) (γ : Fin 1000000 → Fin 256) (C : SD.Idx → EReal) (g : Fin 256) (d : Fin 128) : EReal :=
  Ideal.sqrt (varR X γ C g d + eps)
/-- The reference's result at row `r`, feature `d`. -/
def refOut (X : SND.Idx → EReal) (γ : Fin 1000000 → Fin 256) (W Bi C : SD.Idx → EReal) (r : Fin 1000000) (d : Fin 128) : EReal :=
  Ideal.div (W (ix1 d) * subR X γ C r d) (stdR X γ C (γ r) d) + Bi (ix1 d)

/-! ## The one-pass form (the kernel) -/

/-- The two halves' accumulated values added, from zero. -/
def sumK (S : SKGD.Idx → EReal) (g : Fin 256) (d : Fin 128) : EReal := zero + (S (ix3 0 g d) + S (ix3 1 g d))
def meanK (s n : EReal) : EReal := Ideal.div s n
def varK (s q n c : EReal) : EReal := max (Ideal.div q n + (meanK s n * meanK s n) * (c * c - two * c)) zero
def istdK (s q n c : EReal) : EReal := Ideal.div one (Ideal.sqrt (varK s q n c + eps))
def aK (s q n w c : EReal) : EReal := w * istdK s q n c
def bK (s q n w bi c : EReal) : EReal := bi - (w * (meanK s n * c)) * istdK s q n c

/-- The one-hot product that picks row `b` of the table: `∑_g [b = g] · T[g, col]`. -/
def gat (T : ST.Idx → EReal) (b : BitVec 32) (col : Fin 512) : EReal :=
  ∑ g : Fin 256, (if b = gw g then (1 : EReal) else 0) * T (ix2 g col)

/-- What the normalising pass stores at a row with feature value `x`, index word `b`, feature `d`. -/
def norm1 (x : EReal) (b : BitVec 32) (T : ST.Idx → EReal) (d : Fin 128) : EReal :=
  x * (gat T b ⟨d.val, by omega⟩ + gat T b ⟨256 + d.val, by omega⟩)
    + (gat T b ⟨128 + d.val, by omega⟩ + gat T b ⟨384 + d.val, by omega⟩)

/-- The kernel's result at row `r`, feature `d`, over the whole-array statistics. -/
def kernOut (X : SND.Idx → EReal) (γ : Fin 1000000 → Fin 256) (W Bi C : SD.Idx → EReal) (r : Fin 1000000) (d : Fin 128) : EReal :=
  let s := sumX X γ (γ r) d
  let q := sumXX X γ (γ r) d
  let n := nOf γ (γ r)
  let a := aK s q n (W (ix1 d)) (C (ix1 d))
  let b := bK s q n (W (ix1 d)) (Bi (ix1 d)) (C (ix1 d))
  X (ix2 r d) * (a + (a - a)) + (b + (b - b))

end GraphNorm

end
-- ==== Proof.AlgBasics.lean ====
/-
  Small facts the main identity and the assembly lean on: the four literals as real numbers, the one-hot product
  against a table at a graph's own word, and the two halves of the rows adding up, tile by tile, to all rows.
-/
import proofs.«418891_j10033043604048_3_alg».proof.Proof.Spec
import Idealize.ShloMosaic.PureOps.Ideal.Laws

noncomputable section

namespace GraphNorm

open Idealize.ShloMosaic Idealize.ShloMosaic.ValueIdx

/-! ## The literals as real numbers -/

theorem zero_eq : zero = 0 := by
  unfold zero
  exact Ideal.ofBits_zero_f32
theorem one_eq : one = ((1 : ℝ) : EReal) := by
  unfold one
  simp [Ideal.ofBits, Ideal.ieee, -EReal.coe_mul]; norm_num
theorem two_eq : two = ((2 : ℝ) : EReal) := by
  unfold two
  simp [Ideal.ofBits, Ideal.ieee, -EReal.coe_mul]; norm_num
/-- The variance's additive constant is a positive real number (its exact value is never needed). -/
theorem eps_pos : ∃ e : ℝ, 0 < e ∧ eps = (e : EReal) := by
  unfold eps
  simp [Ideal.ofBits, Ideal.ieee, -EReal.coe_mul]

/-! ## The one-hot product picks a row -/

/-- Distinct graph numbers have distinct words. -/
theorem gw_injective : Function.Injective gw := by
  intro a b h
  have h' := congrArg BitVec.toNat h
  simp only [gw, BitVec.toNat_ofNat] at h'
  have ha : a.val % 2 ^ 32 = a.val := Nat.mod_eq_of_lt (by omega)
  have hb : b.val % 2 ^ 32 = b.val := Nat.mod_eq_of_lt (by omega)
  rw [ha, hb] at h'
  exact Fin.ext h'

theorem gat_gw (T : ST.Idx → EReal) (g0 : Fin 256) (col : Fin 512) : gat T (gw g0) col = T (ix2 g0 col) := by
  unfold gat
  rw [Finset.sum_eq_single g0]
  · rw [if_pos rfl, one_mul]
  · intro g _ hg
    have hne : gw g0 ≠ gw g := fun h => hg (gw_injective h).symm
    rw [if_neg hne, zero_mul]
  · intro h
    exact absurd (Finset.mem_univ g0) h

/-! ## The two halves make the whole -/

/-- Adding block by block (blocks of `b` consecutive numbers) is adding over the whole initial segment. -/
private theorem sum_blocks (F : ℕ → EReal) (b : ℕ) (a : ℕ) :
    ∑ t ∈ Finset.range a, ∑ r ∈ Finset.range b, F (t * b + r) = ∑ n ∈ Finset.range (a * b), F n := by
  induction a with
  | zero => simp
  | succ a ih =>
    rw [Finset.sum_range_succ, ih, add_one_mul, Finset.sum_range_add]

/-- A row number below the row count is its own reduction. -/
private theorem rowN_val (r : Fin 1000000) : rowN r.val = r :=
  Fin.ext (Nat.mod_eq_of_lt r.isLt)

theorem slab_add (γ : Fin 1000000 → Fin 256) (f : Fin 1000000 → EReal) (g : Fin 256) :
    slab γ f 0 g + slab γ f 1 g = segSum γ f g := by
  -- the summand as a function of the natural row number
  let F : ℕ → EReal := fun n => if γ (rowN n) = g then f (rowN n) else 0
  have htile : ∀ t, tileSum γ f t g = ∑ r ∈ Finset.range 5000, F (t * 5000 + r) := by
    intro t
    exact Fin.sum_univ_eq_sum_range (fun r => F (t * 5000 + r)) 5000
  have e0 : (0 : Fin 2).val = 0 := rfl
  have e1 : (1 : Fin 2).val = 1 := rfl
  -- the two halves are tiles 0..99 and 100..199
  have hsplit : slab γ f 0 g + slab γ f 1 g = ∑ t ∈ Finset.range 200, tileSum γ f t g := by
    have h := Finset.sum_range_add (fun t => tileSum γ f t g) 100 100
    unfold slab
    simp only [e0, e1, Nat.zero_mul, Nat.zero_add, Nat.one_mul]
    exact h.symm
  -- 200 tiles of 5000 rows are the 1000000 rows
  have hall : ∑ t ∈ Finset.range 200, tileSum γ f t g = ∑ n ∈ Finset.range 1000000, F n := by
    have h := sum_blocks F 5000 200
    rw [Finset.sum_congr rfl (fun t _ => htile t)]
    exact h
  have hseg : segSum γ f g = ∑ n ∈ Finset.range 1000000, F n := by
    unfold segSum
    rw [← Fin.sum_univ_eq_sum_range F 1000000]
    refine Finset.sum_congr rfl (fun r _ => ?_)
    show _ = (if γ (rowN r.val) = g then f (rowN r.val) else 0)
    rw [rowN_val]
  rw [hsplit, hall, hseg]

end GraphNorm

end
-- ==== Proof.Algebra.lean ====
/-
  The law that joins the two sides: over finite (real) inputs the one-pass form is the two-pass form.

  For a graph with `n ≥ 1` rows, mean `m = (∑ x)/n` and scale `c`:
    (1/n) ∑ (x − m c)² = (1/n) ∑ x² − 2 m c (∑ x)/n + m² c² = (1/n) ∑ x² + m² (c² − 2 c),
  which is non-negative, so clamping it at zero changes nothing; a graph with no rows has every sum zero on both sides.
  With `σ = √(var + ε) > 0`:  w (x − m c) / σ + β = x · (w / σ) + (β − w m c / σ),
  and a table entry `t` split as `t + (t − t)` is `t` when `t` is finite.
-/
import proofs.«418891_j10033043604048_3_alg».proof.Proof.Spec
import proofs.«418891_j10033043604048_3_alg».proof.Proof.AlgBasics
import Idealize.ShloMosaic.PureOps.Ideal.Laws

noncomputable section

namespace GraphNorm

open Idealize.ShloMosaic Idealize.ShloMosaic.ValueIdx

/-! ## Real sums over a graph's rows -/

/-- A finite sum of real numbers, read in the extended reals, is the sum of the readings. -/
private theorem coe_sum_real {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The real sum of `f` over the rows whose graph is `g`. -/
private def segR (γ : Fin 1000000 → Fin 256) (f : Fin 1000000 → ℝ) (g : Fin 256) : ℝ :=
  ∑ r : Fin 1000000, if γ r = g then f r else 0

private theorem segSum_coe (γ : Fin 1000000 → Fin 256) (f : Fin 1000000 → ℝ) (g : Fin 256) :
    segSum γ (fun r => ((f r : ℝ) : EReal)) g = ((segR γ f g : ℝ) : EReal) := by
  unfold segSum segR
  rw [coe_sum_real]
  refine Finset.sum_congr rfl (fun r _ => ?_)
  by_cases h : γ r = g
  · rw [if_pos h, if_pos h]
  · rw [if_neg h, if_neg h, EReal.coe_zero]

/-- Inside the sum over a graph's rows, the summand may be changed on that graph's rows only. -/
private theorem segR_congr (γ : Fin 1000000 → Fin 256) (f f' : Fin 1000000 → ℝ) (g : Fin 256)
    (h : ∀ r, γ r = g → f r = f' r) : segR γ f g = segR γ f' g := by
  unfold segR
  refine Finset.sum_congr rfl (fun r _ => ?_)
  by_cases hr : γ r = g
  · rw [if_pos hr, if_pos hr, h r hr]
  · rw [if_neg hr, if_neg hr]

/-- Expanding the square: `∑ (x − t)² = ∑ x² − 2 t ∑ x + N t²` over a graph's rows. -/
private theorem segR_sq (γ : Fin 1000000 → Fin 256) (f : Fin 1000000 → ℝ) (g : Fin 256) (t : ℝ) :
    segR γ (fun r => (f r - t) * (f r - t)) g
      = segR γ (fun r => f r * f r) g - 2 * t * segR γ f g + segR γ (fun _ => 1) g * (t * t) := by
  unfold segR
  rw [Finset.mul_sum, Finset.sum_mul, ← Finset.sum_sub_distrib, ← Finset.sum_add_distrib]
  refine Finset.sum_congr rfl (fun r _ => ?_)
  by_cases hr : γ r = g
  · simp only [if_pos hr]; ring
  · simp only [if_neg hr]; ring

/-- A sum of squares over a graph's rows is not negative. -/
private theorem segR_sq_nonneg (γ : Fin 1000000 → Fin 256) (f : Fin 1000000 → ℝ) (g : Fin 256) :
    0 ≤ segR γ (fun r => f r * f r) g := by
  unfold segR
  refine Finset.sum_nonneg (fun r _ => ?_)
  by_cases hr : γ r = g
  · rw [if_pos hr]; exact mul_self_nonneg _
  · rw [if_neg hr]

/-- A graph that has a row has at least one row. -/
private theorem one_le_count (γ : Fin 1000000 → Fin 256) (r : Fin 1000000) :
    1 ≤ segR γ (fun _ => 1) (γ r) := by
  unfold segR
  have h0 : ∀ i ∈ (Finset.univ : Finset (Fin 1000000)), (0 : ℝ) ≤ (if γ i = γ r then (1 : ℝ) else 0) := by
    intro i _
    by_cases hi : γ i = γ r
    · rw [if_pos hi]; exact zero_le_one
    · rw [if_neg hi]
  have h : (if γ r = γ r then (1 : ℝ) else 0) ≤ ∑ r' : Fin 1000000, if γ r' = γ r then (1 : ℝ) else 0 :=
    Finset.single_le_sum (f := fun r' : Fin 1000000 => if γ r' = γ r then (1 : ℝ) else 0) h0 (Finset.mem_univ r)
  rwa [if_pos rfl] at h

/-! ## Exact division, square root and maximum at real numbers -/

private theorem div_real (a b : ℝ) (hb : b ≠ 0) :
    Ideal.div (a : EReal) (b : EReal) = ((a * (1 / b) : ℝ) : EReal) := by
  rw [Ideal.div_coe hb, ← EReal.coe_mul]

private theorem sqrt_real (a : ℝ) (ha : 0 ≤ a) : Ideal.sqrt (a : EReal) = ((Real.sqrt a : ℝ) : EReal) := by
  rw [Ideal.sqrt_coe, if_neg (not_lt.mpr ha)]

private theorem max_real (a b : ℝ) : max (a : EReal) (b : EReal) = ((max a b : ℝ) : EReal) :=
  (EReal.coe_strictMono.monotone.map_max).symm

/-! ## The reference's quantities as real numbers -/

private def cntR (γ : Fin 1000000 → Fin 256) (g : Fin 256) : ℝ := segR γ (fun _ => 1) g
private def nR (γ : Fin 1000000 → Fin 256) (g : Fin 256) : ℝ := max (cntR γ g) 1
private def sR (x : SND.Idx → ℝ) (γ : Fin 1000000 → Fin 256) (g : Fin 256) (d : Fin 128) : ℝ :=
  segR γ (fun r => x (ix2 r d)) g
private def qR (x : SND.Idx → ℝ) (γ : Fin 1000000 → Fin 256) (g : Fin 256) (d : Fin 128) : ℝ :=
  segR γ (fun r => x (ix2 r d) * x (ix2 r d)) g
private def mR (x : SND.Idx → ℝ) (γ : Fin 1000000 → Fin 256) (g : Fin 256) (d : Fin 128) : ℝ :=
  sR x γ g d * (1 / nR γ g)
private def subRR (x : SND.Idx → ℝ) (γ : Fin 1000000 → Fin 256) (c : SD.Idx → ℝ) (r : Fin 1000000) (d : Fin 128) : ℝ :=
  x (ix2 r d) - mR x γ (γ r) d * c (ix1 d)
private def sqRR (x : SND.Idx → ℝ) (γ : Fin 1000000 → Fin 256) (c : SD.Idx → ℝ) (g : Fin 256) (d : Fin 128) : ℝ :=
  segR γ (fun r => subRR x γ c r d * subRR x γ c r d) g
private def varRR (x : SND.Idx → ℝ) (γ : Fin 1000000 → Fin 256) (c : SD.Idx → ℝ) (g : Fin 256) (d : Fin 128) : ℝ :=
  sqRR x γ c g d * (1 / nR γ g)

private theorem nR_pos (γ : Fin 1000000 → Fin 256) (g : Fin 256) : 0 < nR γ g :=
  lt_of_lt_of_le zero_lt_one (le_max_right _ _)

private theorem nR_ne (γ : Fin 1000000 → Fin 256) (g : Fin 256) : nR γ g ≠ 0 := ne_of_gt (nR_pos γ g)

private theorem varRR_nonneg (x : SND.Idx → ℝ) (γ : Fin 1000000 → Fin 256) (c : SD.Idx → ℝ) (g : Fin 256) (d : Fin 128) :
    0 ≤ varRR x γ c g d :=
  mul_nonneg (segR_sq_nonneg γ _ g) (le_of_lt (one_div_pos.mpr (nR_pos γ g)))

private theorem cnt_coe (γ : Fin 1000000 → Fin 256) (g : Fin 256) : cnt γ g = ((cntR γ g : ℝ) : EReal) := by
  unfold cnt cntR
  rw [zero_eq, zero_add, one_eq]
  exact segSum_coe γ (fun _ => 1) g

private theorem nOf_coe (γ : Fin 1000000 → Fin 256) (g : Fin 256) : nOf γ g = ((nR γ g : ℝ) : EReal) := by
  unfold nOf nR
  rw [cnt_coe, one_eq, max_real]

section
variable {X : SND.Idx → EReal} {x : SND.Idx → ℝ} (hx : ∀ i, X i = ((x i : ℝ) : EReal))
  (γ : Fin 1000000 → Fin 256)
include hx

private theorem sumX_coe (g : Fin 256) (d : Fin 128) : sumX X γ g d = ((sR x γ g d : ℝ) : EReal) := by
  unfold sumX sR
  rw [zero_eq, zero_add,
    show (fun r => X (ix2 r d)) = fun r => ((x (ix2 r d) : ℝ) : EReal) from funext fun r => hx _]
  exact segSum_coe γ (fun r => x (ix2 r d)) g

private theorem sumXX_coe (g : Fin 256) (d : Fin 128) : sumXX X γ g d = ((qR x γ g d : ℝ) : EReal) := by
  unfold sumXX qR
  rw [zero_eq, zero_add,
    show (fun r => X (ix2 r d) * X (ix2 r d)) = fun r => ((x (ix2 r d) * x (ix2 r d) : ℝ) : EReal) from
      funext fun r => by rw [hx, EReal.coe_mul]]
  exact segSum_coe γ (fun r => x (ix2 r d) * x (ix2 r d)) g

private theorem meanR_coe (g : Fin 256) (d : Fin 128) : meanR X γ g d = ((mR x γ g d : ℝ) : EReal) := by
  unfold meanR mR
  rw [sumX_coe hx, nOf_coe, div_real _ _ (nR_ne γ g)]

variable {C : SD.Idx → EReal} {c : SD.Idx → ℝ} (hc : ∀ i, C i = ((c i : ℝ) : EReal))
include hc

private theorem subR_coe (r : Fin 1000000) (d : Fin 128) : subR X γ C r d = ((subRR x γ c r d : ℝ) : EReal) := by
  unfold subR subRR
  rw [meanR_coe hx, hx, hc, ← EReal.coe_mul, ← EReal.coe_sub]

private theorem sqR_coe (g : Fin 256) (d : Fin 128) : sqR X γ C g d = ((sqRR x γ c g d : ℝ) : EReal) := by
  unfold sqR sqRR
  rw [zero_eq, zero_add,
    show (fun r => subR X γ C r d * subR X γ C r d) = fun r => ((subRR x γ c r d * subRR x γ c r d : ℝ) : EReal) from
      funext fun r => by rw [subR_coe hx γ hc, EReal.coe_mul]]
  exact segSum_coe γ (fun r => subRR x γ c r d * subRR x γ c r d) g

private theorem varR_coe (g : Fin 256) (d : Fin 128) : varR X γ C g d = ((varRR x γ c g d : ℝ) : EReal) := by
  unfold varR varRR
  rw [sqR_coe hx γ hc, nOf_coe, div_real _ _ (nR_ne γ g)]

private theorem stdR_coe {e : ℝ} (he0 : 0 < e) (he : eps = ((e : ℝ) : EReal)) (g : Fin 256) (d : Fin 128) :
    stdR X γ C g d = ((Real.sqrt (varRR x γ c g d + e) : ℝ) : EReal) := by
  unfold stdR
  rw [varR_coe hx γ hc, he, ← EReal.coe_add,
    sqrt_real _ (add_nonneg (varRR_nonneg x γ c g d) (le_of_lt he0))]

end

/-! ## The kernel's quantities as real numbers -/

private def varKR (s q n c : ℝ) : ℝ := max (q * (1 / n) + (s * (1 / n)) * (s * (1 / n)) * (c * c - 2 * c)) 0
private def aKR (s q n w c e : ℝ) : ℝ := w * (1 * (1 / Real.sqrt (varKR s q n c + e)))
private def bKR (s q n w b c e : ℝ) : ℝ :=
  b - w * (s * (1 / n) * c) * (1 * (1 / Real.sqrt (varKR s q n c + e)))

private theorem varKR_nonneg (s q n c : ℝ) : 0 ≤ varKR s q n c := le_max_right _ _

private theorem meanK_coe (s n : ℝ) (hn : n ≠ 0) :
    meanK (s : EReal) (n : EReal) = ((s * (1 / n) : ℝ) : EReal) :=
  div_real s n hn

private theorem varK_coe (s q n c : ℝ) (hn : n ≠ 0) :
    varK (s : EReal) (q : EReal) (n : EReal) (c : EReal) = ((varKR s q n c : ℝ) : EReal) := by
  unfold varK varKR
  rw [meanK_coe s n hn, div_real q n hn, two_eq, zero_eq, ← EReal.coe_zero]
  simp only [← EReal.coe_mul, ← EReal.coe_sub, ← EReal.coe_add, max_real]

private theorem istdK_coe (s q n c : ℝ) (hn : n ≠ 0) {e : ℝ} (he0 : 0 < e) (he : eps = ((e : ℝ) : EReal)) :
    istdK (s : EReal) (q : EReal) (n : EReal) (c : EReal)
      = ((1 * (1 / Real.sqrt (varKR s q n c + e)) : ℝ) : EReal) := by
  have hpos : 0 < varKR s q n c + e := add_pos_of_nonneg_of_pos (varKR_nonneg s q n c) he0
  unfold istdK
  rw [varK_coe s q n c hn, he, ← EReal.coe_add, sqrt_real _ (le_of_lt hpos), one_eq,
    div_real _ _ (ne_of_gt (Real.sqrt_pos.mpr hpos))]

private theorem aK_coe (s q n w c : ℝ) (hn : n ≠ 0) {e : ℝ} (he0 : 0 < e) (he : eps = ((e : ℝ) : EReal)) :
    aK (s : EReal) (q : EReal) (n : EReal) (w : EReal) (c : EReal) = ((aKR s q n w c e : ℝ) : EReal) := by
  unfold aK aKR
  rw [istdK_coe s q n c hn he0 he, ← EReal.coe_mul]

private theorem bK_coe (s q n w b c : ℝ) (hn : n ≠ 0) {e : ℝ} (he0 : 0 < e) (he : eps = ((e : ℝ) : EReal)) :
    bK (s : EReal) (q : EReal) (n : EReal) (w : EReal) (b : EReal) (c : EReal)
      = ((bKR s q n w b c e : ℝ) : EReal) := by
  unfold bK bKR
  rw [istdK_coe s q n c hn he0 he, meanK_coe s n hn]
  simp only [← EReal.coe_mul, ← EReal.coe_sub]

/-! ## The two variances agree -/

/-- On a graph that has a row, the one-pass variance `E[x²] + m² (c² − 2c)`, clamped at zero, is the
    two-pass variance of the centred features. -/
private theorem varKR_eq (x : SND.Idx → ℝ) (γ : Fin 1000000 → Fin 256) (c : SD.Idx → ℝ) (r : Fin 1000000)
    (d : Fin 128) :
    varKR (sR x γ (γ r) d) (qR x γ (γ r) d) (nR γ (γ r)) (c (ix1 d)) = varRR x γ c (γ r) d := by
  have hN : 1 ≤ cntR γ (γ r) := one_le_count γ r
  have hn : nR γ (γ r) = cntR γ (γ r) := max_eq_left hN
  have hN0 : cntR γ (γ r) ≠ 0 := ne_of_gt (lt_of_lt_of_le zero_lt_one hN)
  have hsq : sqRR x γ c (γ r) d
      = qR x γ (γ r) d - 2 * (mR x γ (γ r) d * c (ix1 d)) * sR x γ (γ r) d
        + cntR γ (γ r) * ((mR x γ (γ r) d * c (ix1 d)) * (mR x γ (γ r) d * c (ix1 d))) := by
    unfold sqRR
    rw [segR_congr γ _ (fun r' => (x (ix2 r' d) - mR x γ (γ r) d * c (ix1 d))
        * (x (ix2 r' d) - mR x γ (γ r) d * c (ix1 d))) (γ r)
      (fun r' h => by unfold subRR; rw [h])]
    exact segR_sq γ (fun r' => x (ix2 r' d)) (γ r) _
  have hE : qR x γ (γ r) d * (1 / nR γ (γ r))
      + (sR x γ (γ r) d * (1 / nR γ (γ r))) * (sR x γ (γ r) d * (1 / nR γ (γ r)))
        * (c (ix1 d) * c (ix1 d) - 2 * c (ix1 d)) = varRR x γ c (γ r) d := by
    unfold varRR
    rw [hsq]
    unfold mR
    rw [hn]
    field_simp
    ring
  unfold varKR
  rw [hE]
  exact max_eq_left (varRR_nonneg x γ c (γ r) d)

/-! ## The main identity -/

theorem kernOut_eq_refOut (X : SND.Idx → EReal) (γ : Fin 1000000 → Fin 256) (W Bi C : SD.Idx → EReal)
    (hX : ∀ i, ∃ v : ℝ, X i = (v : EReal)) (hW : ∀ i, ∃ v : ℝ, W i = (v : EReal))
    (hBi : ∀ i, ∃ v : ℝ, Bi i = (v : EReal)) (hC : ∀ i, ∃ v : ℝ, C i = (v : EReal))
    (r : Fin 1000000) (d : Fin 128) :
    kernOut X γ W Bi C r d = refOut X γ W Bi C r d := by
  choose x hx using hX
  choose w hw using hW
  choose β hβ using hBi
  choose c hc using hC
  obtain ⟨e, he0, he⟩ := eps_pos
  have hn : nR γ (γ r) ≠ 0 := nR_ne γ (γ r)
  have hσ : 0 < varRR x γ c (γ r) d + e := add_pos_of_nonneg_of_pos (varRR_nonneg x γ c (γ r) d) he0
  have hσ' : Real.sqrt (varRR x γ c (γ r) d + e) ≠ 0 := ne_of_gt (Real.sqrt_pos.mpr hσ)
  -- the reference, as a real number
  have href : refOut X γ W Bi C r d
      = ((w (ix1 d) * subRR x γ c r d * (1 / Real.sqrt (varRR x γ c (γ r) d + e)) + β (ix1 d) : ℝ) : EReal) := by
    unfold refOut
    rw [subR_coe hx γ hc, stdR_coe hx γ hc he0 he, hw, hβ, ← EReal.coe_mul, div_real _ _ hσ', ← EReal.coe_add]
  -- the kernel, as a real number
  have hker : kernOut X γ W Bi C r d
      = ((x (ix2 r d)
            * (aKR (sR x γ (γ r) d) (qR x γ (γ r) d) (nR γ (γ r)) (w (ix1 d)) (c (ix1 d)) e
              + (aKR (sR x γ (γ r) d) (qR x γ (γ r) d) (nR γ (γ r)) (w (ix1 d)) (c (ix1 d)) e
                - aKR (sR x γ (γ r) d) (qR x γ (γ r) d) (nR γ (γ r)) (w (ix1 d)) (c (ix1 d)) e))
          + (bKR (sR x γ (γ r) d) (qR x γ (γ r) d) (nR γ (γ r)) (w (ix1 d)) (β (ix1 d)) (c (ix1 d)) e
              + (bKR (sR x γ (γ r) d) (qR x γ (γ r) d) (nR γ (γ r)) (w (ix1 d)) (β (ix1 d)) (c (ix1 d)) e
                - bKR (sR x γ (γ r) d) (qR x γ (γ r) d) (nR γ (γ r)) (w (ix1 d)) (β (ix1 d)) (c (ix1 d)) e)) : ℝ)
          : EReal) := by
    unfold kernOut
    dsimp only
    rw [sumX_coe hx γ, sumXX_coe hx γ, nOf_coe, hx, hw, hβ, hc, aK_coe _ _ _ _ _ hn he0 he,
      bK_coe _ _ _ _ _ _ hn he0 he]
    simp only [← EReal.coe_mul, ← EReal.coe_sub, ← EReal.coe_add]
  rw [hker, href, EReal.coe_eq_coe_iff]
  unfold aKR bKR
  rw [varKR_eq x γ c r d]
  unfold subRR mR
  ring

end GraphNorm

end
-- ==== Proof.LibColumns.lean ====
/-
  A column kept by a row reduction: the two layout operations a sum over the last axis with the axis kept
  (`keepdims`) goes through before it meets the array it was taken from again, read at an index.

  An `[a]` vector of row values is cast to an `[a, 1]` column (row-major order is unchanged: entry `i` of the
  vector is entry `(i, 0)` of the column), and the column is broadcast along the second axis to `[a, b]`
  (every entry of row `p` reads the column at `p`). Both over any element type and any extents.
-/
import Idealize.ShloMosaic.Lib.Pipeline.Value
import Idealize.ShloMosaic.Lib.ValueIdx

namespace Cert.Columns

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else c.val
    rw [if_pos rfl]

end Cert.Columns
-- ==== Proof.KPay0.lean ====
import proofs.«418891_j10033043604048_3_alg».proof.Proof.Gen.KernelIdeal.Skeleton
import proofs.«418891_j10033043604048_3_alg».proof.Proof.Spec
import proofs.«418891_j10033043604048_3_alg».proof.Proof.LibColumns
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Pay0

open Cert.KernelIdeal Cert.KernelIdeal.Gen Idealize.ShloMosaic Idealize.ShloMosaic.ValueIdx

/-- The block the reset stores is zero everywhere. -/
theorem pay1_apply (j : S1x256x128.Idx) : k0_pay1 (F := Ideal) j = GraphNorm.zero := by
  obtain ⟨u, g, d, rfl⟩ : ∃ (u : Fin 1) (g : Fin 256) (d : Fin 128), j = ix3 u g d := ⟨j 0, j 1, j 2, eq_ix3 j⟩
  unfold k0_pay1 GraphNorm.zero
  exact (shapeCast_ab_1ab_apply _ _ u g d).trans rfl
theorem pay2_apply (j : S1x256x128.Idx) : k0_pay2 (F := Ideal) j = GraphNorm.zero := by
  obtain ⟨u, g, d, rfl⟩ : ∃ (u : Fin 1) (g : Fin 256) (d : Fin 128), j = ix3 u g d := ⟨j 0, j 1, j 2, eq_ix3 j⟩
  unfold k0_pay2 GraphNorm.zero
  exact (shapeCast_ab_1ab_apply _ _ u g d).trans rfl

/-! ## The one-hot product read at an index -/

/-- A comparison bit widened to a word and converted signed is `1` where the words are equal and `0` elsewhere. -/
private theorem onehot_scalar (a c : BitVec 32) :
    (FloatOps.sitofp (F := Ideal) .f32 ((IntOp.cmpi .eq a c).setWidth 32) : EReal) = if a = c then 1 else 0 := by
  show (((((IntOp.cmpi .eq a c).setWidth 32).toInt : ℤ) : ℝ) : EReal) = _
  by_cases h : a = c
  · subst h
    have hb : IntOp.cmpi .eq a a = 1#1 := by simp [IntOp.cmpi]
    rw [hb, if_pos rfl]
    have : ((1#1 : BitVec 1).setWidth 32).toInt = 1 := by decide
    rw [this]; norm_num
  · have hb : IntOp.cmpi .eq a c = 0#1 := by
      have hf : (a == c) = false := beq_eq_false_iff_ne.mpr h
      show BitVec.ofBool (a == c) = 0#1
      rw [hf]; rfl
    rw [hb, if_neg h]
    have : ((0#1 : BitVec 1).setWidth 32).toInt = 0 := by decide
    rw [this]; norm_num

/-- The left operand of the product: the one-hot matrix of the tile's index column against the column numbers. -/
private def onehot (v4 : S5000x1.Idx → BitVec 32) : FVec Ideal S5000x256 .bf16 :=
  truncf .bf16 (sitofp .f32 (extui 32 (cmpi .eq
    (broadcastTo S5000x256 (shapeCast S5000x1 (shapeCast S5000x1 v4 shapeCasts_S5000x1_S5000x1) shapeCasts_S5000x1_S5000x1)
      broadcasts_S5000x1_S5000x256)
    (iota .tc S5000x256 32 [1] iota_S5000x256_d1_w32)) natLt_1_32)) bitsLt_bf16_f32

/-- The right operand: the tile's features with their squares laid beside them. -/
private def x2 (v3 : S5000x128.Idx → EReal) : FVec Ideal S5000x256 .bf16 :=
  concatenate S5000x256 1 [⟨S5000x128, truncf (F := Ideal) (φ := .f32) .bf16 v3 bitsLt_bf16_f32⟩,
    ⟨S5000x128, truncf (F := Ideal) (φ := .f32) .bf16 (mulf (F := Ideal) (φ := .f32) v3 v3) bitsLt_bf16_f32⟩]
    concatenates_S5000x128_S5000x128_S5000x256_d1

private theorem pay3_eq (x : S5000x128.Idx → EReal) (b : S5000x1.Idx → BitVec 32) :
    k0_pay3 (F := Ideal) x b
      = FloatOps.matmul dot_S5000x256_S5000x256_S256x256_0_0_1_1_n_n none (onehot b) (x2 x)
          (constant (F := Ideal) S256x256 .f32 0x00000000#32) := rfl

/-- Row `r`, column `g` of the one-hot matrix. -/
private theorem onehot_apply (b : S5000x1.Idx → BitVec 32) (r : Fin 5000) (g : Fin 256) :
    onehot b (ix2 r g) = if b (ix2 r (0 : Fin 1)) = GraphNorm.gw g then (1 : EReal) else 0 := by
  unfold onehot
  show FloatOps.sitofp (F := Ideal) .f32 ((IntOp.cmpi .eq
    (broadcastTo S5000x256 (shapeCast S5000x1 (shapeCast S5000x1 b shapeCasts_S5000x1_S5000x1) shapeCasts_S5000x1_S5000x1)
      broadcasts_S5000x1_S5000x256 (ix2 r g))
    (iota .tc S5000x256 32 [1] iota_S5000x256_d1_w32 (ix2 r g))).setWidth 32) = _
  rw [shapeCast_self, shapeCast_self, Cert.Columns.broadcastTo_a1_ab_apply, iota_single_apply]
  exact onehot_scalar _ _

/-- A column in the left half of the right operand is the feature itself. -/
private theorem x2_left (x : S5000x128.Idx → EReal) (r : Fin 5000) (d : Fin 128) (c : Fin 256) (hc : c.val = d.val) :
    x2 x (ix2 r c) = x (ix2 r d) := by
  unfold x2
  refine (concatenate_pair_apply_left 1 _ _ concatenates_S5000x128_S5000x128_S5000x256_d1 (ix2 r c) rfl (ix2 r d)
    (fun a => ?_)).trans rfl
  match a with
  | ⟨0, _⟩ => rfl
  | ⟨1, _⟩ => exact hc.symm

/-- A column in the right half is the feature's square. -/
private theorem x2_right (x : S5000x128.Idx → EReal) (r : Fin 5000) (d : Fin 128) (c : Fin 256) (hc : c.val = 128 + d.val) :
    x2 x (ix2 r c) = x (ix2 r d) * x (ix2 r d) := by
  unfold x2
  refine (concatenate_pair_apply_right 1 _ _ concatenates_S5000x128_S5000x128_S5000x256_d1 (ix2 r c) rfl rfl (ix2 r d)
    (fun a ha => ?_) ?_).trans rfl
  · match a with
    | ⟨0, _⟩ => rfl
    | ⟨1, _⟩ => exact absurd rfl ha
  · show d.val + 128 = c.val
    omega

/-! The operand indices of the product: output `(g, c)` at contraction position `k` reads `(k, g)` on the left and
    `(k, c)` on the right. -/

private theorem lhs_ax0 (j : S256x256.Idx) (k : dot_S5000x256_S5000x256_S256x256_0_0_1_1_n_n.contr.Idx) :
    ((dot_S5000x256_S5000x256_S256x256_0_0_1_1_n_n.lhsIdx j k) 0).val = (k ⟨0, by decide⟩).val :=
  DotDims.lhsIdx_val_of_single _ rfl j k

private theorem lhs_ax1 (j : S256x256.Idx) (k : dot_S5000x256_S5000x256_S256x256_0_0_1_1_n_n.contr.Idx) :
    ((dot_S5000x256_S5000x256_S256x256_0_0_1_1_n_n.lhsIdx j k) 1).val = (j 0).val := by
  unfold DotDims.lhsIdx
  rw [dif_neg (show ¬(1 : Fin S5000x256.rank) ∈ dot_S5000x256_S5000x256_S256x256_0_0_1_1_n_n.lhsBatch by decide),
    dif_pos (show (1 : Fin S5000x256.rank) ∈ dot_S5000x256_S5000x256_S256x256_0_0_1_1_n_n.lhsNonContracting by decide)]
  rfl

private theorem rhs_ax0 (j : S256x256.Idx) (k : dot_S5000x256_S5000x256_S256x256_0_0_1_1_n_n.contr.Idx) :
    ((dot_S5000x256_S5000x256_S256x256_0_0_1_1_n_n.rhsIdx j k) 0).val = (k ⟨0, by decide⟩).val :=
  DotDims.rhsIdx_val_of_single _ rfl j k

private theorem rhs_ax1 (j : S256x256.Idx) (k : dot_S5000x256_S5000x256_S256x256_0_0_1_1_n_n.contr.Idx) :
    ((dot_S5000x256_S5000x256_S256x256_0_0_1_1_n_n.rhsIdx j k) 1).val = (j 1).val := by
  unfold DotDims.rhsIdx
  rw [dif_neg (show ¬(1 : Fin S5000x256.rank) ∈ dot_S5000x256_S5000x256_S256x256_0_0_1_1_n_n.rhsBatch by decide),
    dif_pos (show (1 : Fin S5000x256.rank) ∈ dot_S5000x256_S5000x256_S256x256_0_0_1_1_n_n.rhsNonContracting by decide)]
  rfl

/-- The product at `(g, c)`: the rows of graph `g` picked out of column `c` of the right operand and added. -/
private theorem pay3_apply (x : S5000x128.Idx → EReal) (b : S5000x1.Idx → BitVec 32) (g c : Fin 256) :
    k0_pay3 (F := Ideal) x b (ix2 g c)
      = ∑ r : Fin 5000, if b (ix2 r (0 : Fin 1)) = GraphNorm.gw g then x2 x (ix2 r c) else 0 := by
  rw [pay3_eq]
  refine (Ideal.matmul_constant_zero_apply dot_S5000x256_S5000x256_S256x256_0_0_1_1_n_n none (onehot b) (x2 x) (ix2 g c)).trans ?_
  refine (Equiv.sum_comp (contrEquiv1 dot_S5000x256_S5000x256_S256x256_0_0_1_1_n_n 5000 rfl rfl).symm _).symm.trans ?_
  refine Finset.sum_congr rfl fun r _ => ?_
  have c2 := contrEquiv1_symm_val dot_S5000x256_S5000x256_S256x256_0_0_1_1_n_n 5000 rfl rfl r
  have l2 : dot_S5000x256_S5000x256_S256x256_0_0_1_1_n_n.lhsIdx (ix2 g c)
      ((contrEquiv1 dot_S5000x256_S5000x256_S256x256_0_0_1_1_n_n 5000 rfl rfl).symm r) = ix2 r g := by
    funext ax; apply Fin.ext
    match ax with
    | ⟨0, _⟩ => exact (lhs_ax0 _ _).trans c2
    | ⟨1, _⟩ => exact lhs_ax1 _ _
  have r2 : dot_S5000x256_S5000x256_S256x256_0_0_1_1_n_n.rhsIdx (ix2 g c)
      ((contrEquiv1 dot_S5000x256_S5000x256_S256x256_0_0_1_1_n_n 5000 rfl rfl).symm r) = ix2 r c := by
    funext ax; apply Fin.ext
    match ax with
    | ⟨0, _⟩ => exact (rhs_ax0 _ _).trans c2
    | ⟨1, _⟩ => exact rhs_ax1 _ _
  rw [l2, r2, onehot_apply, ite_mul, one_mul, zero_mul]

/-- One tile's update of the running sums: entry `(0, g, d)` gains the tile's rows of graph `g` at feature `d`
    (the one-hot product's left half). -/
theorem pay4_apply (x : S5000x128.Idx → EReal) (b : S5000x1.Idx → BitVec 32) (acc : S1x256x128.Idx → EReal)
    (g : Fin 256) (d : Fin 128) :
    k0_pay4 (F := Ideal) x b acc (ix3 (0 : Fin 1) g d)
      = acc (ix3 (0 : Fin 1) g d) + ∑ r : Fin 5000, if b (ix2 r (0 : Fin 1)) = GraphNorm.gw g then x (ix2 r d) else 0 := by
  unfold k0_pay4
  refine (shapeCast_ab_1ab_apply _ _ (0 : Fin 1) g d).trans ?_
  refine (addf_apply _ _ (ix2 g d)).trans ?_
  refine congrArg₂ (· + ·) (shapeCast_1ab_ab_apply acc _ g d) ?_
  refine (slice2_axis1_apply 0 (k0_pay3 (F := Ideal) x b) slices_S256x256_o0_0_S256x128 g d ⟨d.val, by omega⟩
    (Nat.zero_add _).symm).trans ?_
  rw [pay3_apply]
  exact Finset.sum_congr rfl fun r _ => by rw [x2_left x r d _ rfl]

/-- The same for the running sums of squares (the product's right half). -/
theorem pay5_apply (x : S5000x128.Idx → EReal) (b : S5000x1.Idx → BitVec 32) (acc : S1x256x128.Idx → EReal)
    (g : Fin 256) (d : Fin 128) :
    k0_pay5 (F := Ideal) x b acc (ix3 (0 : Fin 1) g d)
      = acc (ix3 (0 : Fin 1) g d)
        + ∑ r : Fin 5000, if b (ix2 r (0 : Fin 1)) = GraphNorm.gw g then x (ix2 r d) * x (ix2 r d) else 0 := by
  unfold k0_pay5
  refine (shapeCast_ab_1ab_apply _ _ (0 : Fin 1) g d).trans ?_
  refine (addf_apply _ _ (ix2 g d)).trans ?_
  refine congrArg₂ (· + ·) (shapeCast_1ab_ab_apply acc _ g d) ?_
  refine (slice2_axis1_apply 128 (k0_pay3 (F := Ideal) x b) slices_S256x256_o0_128_S256x128 g d ⟨128 + d.val, by omega⟩
    rfl).trans ?_
  rw [pay3_apply]
  exact Finset.sum_congr rfl fun r _ => by rw [x2_right x r d _ rfl]

end Cert.KernelIdeal.Pay0

end
-- ==== Proof.KRegion0.lean ====
import proofs.«418891_j10033043604048_3_alg».proof.Proof.Gen.KernelIdeal.Frame
import proofs.«418891_j10033043604048_3_alg».proof.Proof.Spec
import proofs.«418891_j10033043604048_3_alg».proof.Proof.LibColumns
import proofs.«418891_j10033043604048_3_alg».proof.Proof.KPay0
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.R0

open Cert.KernelIdeal Cert.KernelIdeal.Gen Idealize.ShloMosaic Idealize.ShloMosaic.TcCoe Idealize.SL.Sem
open Idealize.ShloMosaic.ValueIdx
open Idealize.ShloMosaic.Pipeline (Dat)

/-! ## What each control case of the body leaves in the two running buffers

The body's stores into a running buffer are whole-block stores at the origin, so what the buffer holds afterwards is
the last store's payload; the payload's operands are whole-block loads of the two input blocks and of the buffer. -/

namespace Pieces0
variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- First tile of a half: the buffer is reset to the zero block, read back, and the tile's update of it stored. -/
theorem out_A_2 (c : Dev nD) (i : grid0.Coords) (arg2 : Memref sig .tc .vmem S5000x128 .f32) (harg2 : arg2.IsWhole) (arg3 : Memref sig .tc .vmem S5000x1 .i32) (harg3 : arg3.IsWhole) (arg4 : Memref sig .tc .vmem S1x256x128 .f32) (harg4 : arg4.IsWhole) (arg5 : Memref sig .tc .vmem S1x256x128 .f32) (harg5 : arg5.IsWhole) (hc0 : cond0_0 i)
    (x0 : Vec F S5000x128 .f32) (x1 : Vec F S5000x1 .i32) :
    out0_A_2 c i arg2 harg2 arg3 harg3 arg4 harg4 arg5 harg5 hc0 x0 x1 = k0_pay4 x0 x1 (k0_pay1 (F := F)) := by
  unfold out0_A_2
  rw [View.read_writes_eq_canon _ _ _ (cover0_A_2 c i arg2 harg2 arg3 harg3 arg4 harg4 arg5 harg5 hc0 x0 x1)]
  unfold kernelRun0_A
  dsimp only
  sl_unfold_words
  rw [View.canon_cons_unit_zero (S := S1x256x128) hz3, View.readCov_unit_zero (S := S1x256x128) _ hz3]
  simp only [View.readAt_eq_ld, harg2.read_unread, harg3.read_unread,
    View.ld_unit_zero (S := S5000x128) hz2, View.ld_unit_zero (S := S5000x1) hz2]
theorem out_A_3 (c : Dev nD) (i : grid0.Coords) (arg2 : Memref sig .tc .vmem S5000x128 .f32) (harg2 : arg2.IsWhole) (arg3 : Memref sig .tc .vmem S5000x1 .i32) (harg3 : arg3.IsWhole) (arg4 : Memref sig .tc .vmem S1x256x128 .f32) (harg4 : arg4.IsWhole) (arg5 : Memref sig .tc .vmem S1x256x128 .f32) (harg5 : arg5.IsWhole) (hc0 : cond0_0 i)
    (x0 : Vec F S5000x128 .f32) (x1 : Vec F S5000x1 .i32) :
    out0_A_3 c i arg2 harg2 arg3 harg3 arg4 harg4 arg5 harg5 hc0 x0 x1 = k0_pay5 x0 x1 (k0_pay2 (F := F)) := by
  unfold out0_A_3
  rw [View.read_writes_eq_canon _ _ _ (cover0_A_3 c i arg2 harg2 arg3 harg3 arg4 harg4 arg5 harg5 hc0 x0 x1)]
  unfold kernelRun0_A
  dsimp only
  sl_unfold_words
  rw [View.canon_cons_unit_zero (S := S1x256x128) hz3, View.readCov_unit_zero (S := S1x256x128) _ hz3]
  simp only [View.readAt_eq_ld, harg2.read_unread, harg3.read_unread,
    View.ld_unit_zero (S := S5000x128) hz2, View.ld_unit_zero (S := S5000x1) hz2]
/-- Later tiles: the tile's update of what the buffer carried. -/
theorem out_B_2 (c : Dev nD) (i : grid0.Coords) (arg2 : Memref sig .tc .vmem S5000x128 .f32) (harg2 : arg2.IsWhole) (arg3 : Memref sig .tc .vmem S5000x1 .i32) (harg3 : arg3.IsWhole) (arg4 : Memref sig .tc .vmem S1x256x128 .f32) (harg4 : arg4.IsWhole) (arg5 : Memref sig .tc .vmem S1x256x128 .f32) (harg5 : arg5.IsWhole) (hc0 : ¬cond0_0 i)
    (x0 : Vec F S5000x128 .f32) (x1 : Vec F S5000x1 .i32) (xo2 xo3 : Vec F S1x256x128 .f32) :
    out0_B_2 c i arg2 harg2 arg3 harg3 arg4 harg4 arg5 harg5 hc0 x0 x1 xo2 xo3 = k0_pay4 x0 x1 xo2 := by
  unfold out0_B_2
  rw [View.read_writes_eq_canon _ _ _ (cover0_B_2 c i arg2 harg2 arg3 harg3 arg4 harg4 arg5 harg5 hc0 x0 x1 xo2 xo3)]
  unfold kernelRun0_B
  dsimp only
  sl_unfold_words
  rw [View.canon_unit_zero hz3]
  simp only [View.readAt_eq_ld, harg2.read_unread, harg3.read_unread, harg4.read_unread, harg5.read_unread,
    View.ld_unit_zero (S := S5000x128) hz2, View.ld_unit_zero (S := S5000x1) hz2, View.ld_unit_zero (S := S1x256x128) hz3]
theorem out_B_3 (c : Dev nD) (i : grid0.Coords) (arg2 : Memref sig .tc .vmem S5000x128 .f32) (harg2 : arg2.IsWhole) (arg3 : Memref sig .tc .vmem S5000x1 .i32) (harg3 : arg3.IsWhole) (arg4 : Memref sig .tc .vmem S1x256x128 .f32) (harg4 : arg4.IsWhole) (arg5 : Memref sig .tc .vmem S1x256x128 .f32) (harg5 : arg5.IsWhole) (hc0 : ¬cond0_0 i)
    (x0 : Vec F S5000x128 .f32) (x1 : Vec F S5000x1 .i32) (xo2 xo3 : Vec F S1x256x128 .f32) :
    out0_B_3 c i arg2 harg2 arg3 harg3 arg4 harg4 arg5 harg5 hc0 x0 x1 xo2 xo3 = k0_pay5 x0 x1 xo3 := by
  unfold out0_B_3
  rw [View.read_writes_eq_canon _ _ _ (cover0_B_3 c i arg2 harg2 arg3 harg3 arg4 harg4 arg5 harg5 hc0 x0 x1 xo2 xo3)]
  unfold kernelRun0_B
  dsimp only
  sl_unfold_words
  rw [View.canon_unit_zero hz3]
  simp only [View.readAt_eq_ld, harg2.read_unread, harg3.read_unread, harg4.read_unread, harg5.read_unread,
    View.ld_unit_zero (S := S5000x128) hz2, View.ld_unit_zero (S := S5000x1) hz2, View.ld_unit_zero (S := S1x256x128) hz3]
end Pieces0

variable (V : (c : Dev nD) → (b : Ref sig .tc) → Buf (Elt Ideal) ((c : Thread nD τ).loc b))

/-- The feature array and the index column as the pass finds them, at their literal types. -/
abbrev XV (c : Dev nD) : S1000000x128.Idx → EReal := V c main_arg0
abbrev BV (c : Dev nD) : S1000000x1.Idx → BitVec 32 := V c main_v0

/-! ## The grid, the blocks and the running buffers at their literal types -/

/-- The pass has two hundred points: two halves of a hundred tiles. -/
theorem N200 : cfg0.N = 200 := N_0

/-- Tile `t`'s block of features, of index words, and the two running buffers after point `n`. -/
abbrev xblk (c : Dev nD) (t : Fin cfg0.N) : S5000x128.Idx → EReal := iblk0 (F := Ideal) V c 0 t
abbrev bblk (c : Dev nD) (t : Fin cfg0.N) : S5000x1.Idx → BitVec 32 := iblk0 (F := Ideal) V c 1 t
abbrev acc2 (c : Dev nD) (n : ℕ) (h : n < cfg0.N) : S1x256x128.Idx → EReal := (outsAt0 (F := Ideal) V c n h).1
abbrev acc3 (c : Dev nD) (n : ℕ) (h : n < cfg0.N) : S1x256x128.Idx → EReal := (outsAt0 (F := Ideal) V c n h).2

/-- Graph numbers below 256 are told apart by their 32-bit words. -/
theorem gw_inj (a b : Fin 256) : GraphNorm.gw a = GraphNorm.gw b ↔ a = b := by
  constructor
  · intro h
    have e : (BitVec.ofNat 32 a.val).toNat = (BitVec.ofNat 32 b.val).toNat := congrArg BitVec.toNat h
    rw [BitVec.toNat_ofNat, BitVec.toNat_ofNat] at e
    have ha := a.isLt
    have hb := b.isLt
    apply Fin.ext
    omega
  · rintro rfl; rfl

/-- Result windows 2 and 3 sit on slab `t / 100` of their arrays, at its origin. -/
theorem index2 : ∀ t : Fin cfg0.N, win0_2.index t 0 = t.val / 100 ∧ win0_2.index t 1 = 0 ∧ win0_2.index t 2 = 0 :=
  (by decide +kernel : ∀ t : Fin grid0.N, win0_2.index t 0 = t.val / 100 ∧ win0_2.index t 1 = 0 ∧ win0_2.index t 2 = 0)
theorem index3 : ∀ t : Fin cfg0.N, win0_3.index t 0 = t.val / 100 ∧ win0_3.index t 1 = 0 ∧ win0_3.index t 2 = 0 :=
  (by decide +kernel : ∀ t : Fin grid0.N, win0_3.index t 0 = t.val / 100 ∧ win0_3.index t 1 = 0 ∧ win0_3.index t 2 = 0)

/-- The two input windows sit on tile `t` of their arrays. -/
theorem index0 : ∀ t : Fin cfg0.N, win0_0.index t 0 = t.val ∧ win0_0.index t 1 = 0 :=
  (by decide +kernel : ∀ t : Fin grid0.N, win0_0.index t 0 = t.val ∧ win0_0.index t 1 = 0)
theorem index1 : ∀ t : Fin cfg0.N, win0_1.index t 0 = t.val ∧ win0_1.index t 1 = 0 :=
  (by decide +kernel : ∀ t : Fin grid0.N, win0_1.index t 0 = t.val ∧ win0_1.index t 1 = 0)

/-- Entry `(r, d)` of the feature block at point `t` is row `5000 t + r` of the feature array. -/
theorem xblk_apply (c : Dev nD) (t : Fin cfg0.N) (r : Fin 5000) (d : Fin 128) (h : t.val * 5000 + r.val < 1000000) :
    xblk V c t (ix2 r d) = XV V c (ix2 (⟨t.val * 5000 + r.val, h⟩ : Fin 1000000) d) := by
  have hi := index0 t
  unfold xblk iblk0
  rw [View.read_apply]
  show V c main_arg0 _ = V c main_arg0 _
  congr 1
  funext a
  apply Fin.ext
  match a with
  | ⟨0, _⟩ => show win0_0.index t 0 * 5000 + 1 * r.val = t.val * 5000 + r.val; rw [hi.1]; omega
  | ⟨1, _⟩ => show win0_0.index t 1 * 128 + 1 * d.val = d.val; rw [hi.2]; omega
/-- Entry `(r, 0)` of the index block at point `t` is row `5000 t + r` of the index column. -/
theorem bblk_apply (c : Dev nD) (t : Fin cfg0.N) (r : Fin 5000) (h : t.val * 5000 + r.val < 1000000) :
    bblk V c t (ix2 r (0 : Fin 1)) = BV V c (ix2 (⟨t.val * 5000 + r.val, h⟩ : Fin 1000000) (0 : Fin 1)) := by
  have hi := index1 t
  unfold bblk iblk0
  rw [View.read_apply]
  show V c main_v0 _ = V c main_v0 _
  congr 1
  funext a
  apply Fin.ext
  match a with
  | ⟨0, _⟩ => show win0_1.index t 0 * 5000 + 1 * r.val = t.val * 5000 + r.val; rw [hi.1]; omega
  | ⟨1, _⟩ => show win0_1.index t 1 * 1 + 1 * 0 = 0; rw [hi.2]

/-! ## Window 2: the sums of the feature -/

/-- One tile's contribution read off the two input blocks is the specification's tile sum: row `r` of tile `t` is
    row `5000 t + r` of the arrays, and the row's word is its graph's. -/
theorem tile2 (c : Dev nD) (γ : Fin 1000000 → Fin 256)
    (hγ : ∀ r : Fin 1000000, BV V c (ix2 r (0 : Fin 1)) = GraphNorm.gw (γ r))
    (g : Fin 256) (d : Fin 128) (t : Fin cfg0.N) :
    (∑ r : Fin 5000, if bblk V c t (ix2 r (0 : Fin 1)) = GraphNorm.gw g then xblk V c t (ix2 r d) else 0)
      = GraphNorm.tileSum γ (fun r => XV V c (ix2 r d)) t.val g := by
  have hN : t.val < 200 := lt_of_lt_of_eq t.isLt N200
  unfold GraphNorm.tileSum
  refine Finset.sum_congr rfl fun r _ => ?_
  have hlt : t.val * 5000 + r.val < 1000000 := by have := r.isLt; omega
  have hrow : GraphNorm.rowN (t.val * 5000 + r.val) = (⟨t.val * 5000 + r.val, hlt⟩ : Fin 1000000) :=
    Fin.ext (Nat.mod_eq_of_lt hlt)
  have hb : bblk V c t (ix2 r (0 : Fin 1)) = GraphNorm.gw (γ ⟨t.val * 5000 + r.val, hlt⟩) :=
    (bblk_apply V c t r hlt).trans (hγ _)
  have hx : xblk V c t (ix2 r d) = XV V c (ix2 (⟨t.val * 5000 + r.val, hlt⟩ : Fin 1000000) d) :=
    xblk_apply V c t r d hlt
  rw [hrow, hb, hx]
  by_cases hq : γ ⟨t.val * 5000 + r.val, hlt⟩ = g
  · rw [if_pos hq, if_pos (congrArg GraphNorm.gw hq)]
  · rw [if_neg hq, if_neg (fun h => hq ((gw_inj _ _).mp h))]

/-- At the first tile of a half the buffer is the zero block updated by the tile. -/
theorem stepA2 (c : Dev nD) (γ : Fin 1000000 → Fin 256)
    (hγ : ∀ r : Fin 1000000, BV V c (ix2 r (0 : Fin 1)) = GraphNorm.gw (γ r))
    (g : Fin 256) (d : Fin 128) (t : Fin cfg0.N) (h0 : t.val % 100 = 0) :
    acc2 V c t.val t.isLt (ix3 (0 : Fin 1) g d)
      = GraphNorm.zero + GraphNorm.tileSum γ (fun r => XV V c (ix2 r d)) t.val g := by
  show (outsAt0 (F := Ideal) V c t.val t.isLt).1 (ix3 (0 : Fin 1) g d) = _
  rw [outsAt0_A V c t h0]
  dsimp only
  refine (congrFun (Pieces0.out_A_2 (F := Ideal) c (grid0.coords t) (ms0_0 t) (hs0_0 t) (ms0_1 t) (hs0_1 t) (ms0_2 t) (hs0_2 t)
    (ms0_3 t) (hs0_3 t) ((hcond0_0 t).mpr h0) (xblk V c t) (bblk V c t)) (ix3 (0 : Fin 1) g d)).trans ?_
  refine (Pay0.pay4_apply (xblk V c t) (bblk V c t) (k0_pay1 (F := Ideal)) g d).trans ?_
  rw [Pay0.pay1_apply, tile2 V c γ hγ g d t]

/-- At every later tile it is what the tile before left, updated by the tile. -/
theorem stepB2 (c : Dev nD) (γ : Fin 1000000 → Fin 256)
    (hγ : ∀ r : Fin 1000000, BV V c (ix2 r (0 : Fin 1)) = GraphNorm.gw (γ r))
    (g : Fin 256) (d : Fin 128) (t : Fin cfg0.N) (h0 : ¬t.val % 100 = 0) :
    acc2 V c t.val t.isLt (ix3 (0 : Fin 1) g d)
      = acc2 V c (t.val - 1) (Nat.lt_of_le_of_lt (Nat.sub_le _ _) t.isLt) (ix3 (0 : Fin 1) g d)
        + GraphNorm.tileSum γ (fun r => XV V c (ix2 r d)) t.val g := by
  show (outsAt0 (F := Ideal) V c t.val t.isLt).1 (ix3 (0 : Fin 1) g d) = _
  rw [outsAt0_B V c t h0]
  dsimp only
  refine (congrFun (Pieces0.out_B_2 (F := Ideal) c (grid0.coords t) (ms0_0 t) (hs0_0 t) (ms0_1 t) (hs0_1 t) (ms0_2 t) (hs0_2 t)
    (ms0_3 t) (hs0_3 t) (fun h => h0 ((hcond0_0 t).mp h)) (xblk V c t) (bblk V c t)
    (acc2 V c (t.val - 1) (Nat.lt_of_le_of_lt (Nat.sub_le _ _) t.isLt))
    (acc3 V c (t.val - 1) (Nat.lt_of_le_of_lt (Nat.sub_le _ _) t.isLt))) (ix3 (0 : Fin 1) g d)).trans ?_
  refine (Pay0.pay4_apply (xblk V c t) (bblk V c t)
    (acc2 V c (t.val - 1) (Nat.lt_of_le_of_lt (Nat.sub_le _ _) t.isLt)) g d).trans ?_
  rw [tile2 V c γ hγ g d t]

/-- THE RUNNING SUM. After point `n`, tile `n % 100` of half `n / 100`, the buffer holds, from zero, the tile sums of
    the half's tiles so far — by induction on the point. -/
theorem inv2 (c : Dev nD) (γ : Fin 1000000 → Fin 256)
    (hγ : ∀ r : Fin 1000000, BV V c (ix2 r (0 : Fin 1)) = GraphNorm.gw (γ r))
    (g : Fin 256) (d : Fin 128) : ∀ (n : ℕ) (h : n < cfg0.N),
    acc2 V c n h (ix3 (0 : Fin 1) g d)
      = GraphNorm.zero + ∑ j ∈ Finset.range (n % 100 + 1),
          GraphNorm.tileSum γ (fun r => XV V c (ix2 r d)) (n / 100 * 100 + j) g := by
  intro n
  induction n with
  | zero =>
    intro h
    refine (stepA2 V c γ hγ g d ⟨0, h⟩ rfl).trans ?_
    show GraphNorm.zero + GraphNorm.tileSum γ (fun r => XV V c (ix2 r d)) 0 g = _
    rw [Finset.sum_range_one]
  | succ n ih =>
    intro h
    by_cases h0 : (n + 1) % 100 = 0
    · refine (stepA2 V c γ hγ g d ⟨n + 1, h⟩ h0).trans ?_
      show GraphNorm.zero + GraphNorm.tileSum γ (fun r => XV V c (ix2 r d)) (n + 1) g = _
      have e : (n + 1) / 100 * 100 + 0 = n + 1 := by omega
      rw [h0, Finset.sum_range_one, e]
    · refine (stepB2 V c γ hγ g d ⟨n + 1, h⟩ h0).trans ?_
      show acc2 V c n (Nat.lt_of_succ_lt h) (ix3 (0 : Fin 1) g d)
        + GraphNorm.tileSum γ (fun r => XV V c (ix2 r d)) (n + 1) g = _
      rw [ih (Nat.lt_of_succ_lt h)]
      have e1 : (n + 1) % 100 = n % 100 + 1 := by omega
      have e2 : (n + 1) / 100 = n / 100 := by omega
      have e3 : n / 100 * 100 + (n % 100 + 1) = n + 1 := by omega
      rw [e1, e2, Finset.sum_range_succ _ (n % 100 + 1), e3, add_assoc]

/-- Entry `(k, g, d)` of the whole result array: from zero, half `k`'s sum. -/
def tot2 (c : Dev nD) (γ : Fin 1000000 → Fin 256) (k : Fin 2) (g : Fin 256) (d : Fin 128) : EReal :=
  GraphNorm.zero + GraphNorm.slab γ (fun r => XV V c (ix2 r d)) k g
def G2 (c : Dev nD) (γ : Fin 1000000 → Fin 256) : S2x256x128.Idx → EReal :=
  fun i => tot2 V c γ (i 0) (i 1) (i 2)

/-- Entry `(0, y₁, y₂)` of the block written back at point `t` is entry `(t / 100, y₁, y₂)` of the array. -/
theorem emb2 (t : Fin cfg0.N) (hk : t.val / 100 < 2) (y1 : Fin 256) (y2 : Fin 128) :
    (((cfg0.win 2).blk t).view.emb (ix3 (0 : Fin 1) y1 y2) : S2x256x128.Idx) = ix3 (⟨t.val / 100, hk⟩ : Fin 2) y1 y2 := by
  have hi := index2 t
  funext a
  apply Fin.ext
  match a with
  | ⟨0, _⟩ => show win0_2.index t 0 * 1 + 1 * 0 = t.val / 100; rw [hi.1]; omega
  | ⟨1, _⟩ => show win0_2.index t 1 * 256 + 1 * y1.val = y1.val; rw [hi.2.1]; omega
  | ⟨2, _⟩ => show win0_2.index t 2 * 128 + 1 * y2.val = y2.val; rw [hi.2.2]; omega

/-- The two write-backs, after the last tile of each half, write that half's slab of the array. -/
theorem flushed2 (c : Dev nD) (γ : Fin 1000000 → Fin 256)
    (hγ : ∀ r : Fin 1000000, BV V c (ix2 r (0 : Fin 1)) = GraphNorm.gw (γ r))
    (t : Fin cfg0.N) (hf : (cfg0.win 2).flush t = true) :
    (dat0 (F := Ideal) V c).flushed 2 t = ((cfg0.win 2).blk t).view.read (Elt Ideal) (G2 V c γ) := by
  have h99 : t.val % 100 = 99 := (flush0_2 t).mp hf
  have hN : t.val < 200 := lt_of_lt_of_eq t.isLt N200
  have hk : t.val / 100 < 2 := by omega
  show (cfg0.win 2).cut (grid0.coords t) ((dat0 (F := Ideal) V c).after 2 t) = _
  rw [after0_2]
  refine funext fun (y : S1x256x128.Idx) => ?_
  rw [View.read_apply]
  obtain ⟨y0, y1, y2, rfl⟩ : ∃ (y0 : Fin 1) (y1 : Fin 256) (y2 : Fin 128), y = ix3 y0 y1 y2 :=
    ⟨y 0, y 1, y 2, eq_ix3 y⟩
  obtain rfl : y0 = 0 := Subsingleton.elim _ _
  show acc2 V c t.val t.isLt (ix3 (0 : Fin 1) y1 y2)
    = G2 V c γ (((cfg0.win 2).blk t).view.emb (ix3 (0 : Fin 1) y1 y2) : S2x256x128.Idx)
  rw [emb2 t hk y1 y2]
  refine (inv2 V c γ hγ y1 y2 t.val t.isLt).trans ?_
  show GraphNorm.zero + _ = GraphNorm.zero + GraphNorm.slab γ (fun r => XV V c (ix2 r y2)) (⟨t.val / 100, hk⟩ : Fin 2) y1
  unfold GraphNorm.slab
  rw [h99]

/-- Every entry of the array lies in the slab written back after the last tile of its half. -/
theorem cover2 (i : S2x256x128.Idx) :
    ∃ t : Fin cfg0.N, (cfg0.win 2).flush t = true ∧ i ∈ ((cfg0.win 2).blk t).view.set := by
  have h0 : (i 0 : ℕ) < 2 := (i 0).isLt
  have h1 : (i 1 : ℕ) < 256 := (i 1).isLt
  have h2 : (i 2 : ℕ) < 128 := (i 2).isLt
  obtain ⟨t, ht⟩ : ∃ t : Fin cfg0.N, t.val = (i 0 : ℕ) * 100 + 99 :=
    ⟨⟨(i 0 : ℕ) * 100 + 99, lt_of_lt_of_eq (by omega) N200.symm⟩, rfl⟩
  have hi := index2 t
  refine ⟨t, (flush0_2 t).mpr (by omega), ?_⟩
  show i ∈ ((View.whole main_v1_0).slice (win0_2.rect t)).set
  rw [View.set_slice_whole, Rect.mem_set_unit]
  intro a
  match a with
  | ⟨0, _⟩ =>
    show win0_2.index t 0 * 1 ≤ (i 0 : ℕ) ∧ (i 0 : ℕ) < win0_2.index t 0 * 1 + 1
    rw [hi.1]; omega
  | ⟨1, _⟩ =>
    show win0_2.index t 1 * 256 ≤ (i 1 : ℕ) ∧ (i 1 : ℕ) < win0_2.index t 1 * 256 + 256
    rw [hi.2.1]; omega
  | ⟨2, _⟩ =>
    show win0_2.index t 2 * 128 ≤ (i 2 : ℕ) ∧ (i 2 : ℕ) < win0_2.index t 2 * 128 + 128
    rw [hi.2.2]; omega

/-- So the array ends holding, slab by slab, each half's sums from zero. -/
theorem final2 (c : Dev nD) (γ : Fin 1000000 → Fin 256)
    (hγ : ∀ r : Fin 1000000, BV V c (ix2 r (0 : Fin 1)) = GraphNorm.gw (γ r)) :
    (dat0 (F := Ideal) V c).arrAt 2 cfg0.N = G2 V c γ :=
  (dat0 (F := Ideal) V c).arrAt_eq_of_cover 2 (G2 V c γ) (flushed2 V c γ hγ) (fun i => cover2 i)

/-! ## Window 3: the sums of the feature's square -/

/-- One tile's contribution read off the two input blocks is the specification's tile sum: row `r` of tile `t` is
    row `5000 t + r` of the arrays, and the row's word is its graph's. -/
theorem tile3 (c : Dev nD) (γ : Fin 1000000 → Fin 256)
    (hγ : ∀ r : Fin 1000000, BV V c (ix2 r (0 : Fin 1)) = GraphNorm.gw (γ r))
    (g : Fin 256) (d : Fin 128) (t : Fin cfg0.N) :
    (∑ r : Fin 5000, if bblk V c t (ix2 r (0 : Fin 1)) = GraphNorm.gw g then xblk V c t (ix2 r d) * xblk V c t (ix2 r d) else 0)
      = GraphNorm.tileSum γ (fun r => XV V c (ix2 r d) * XV V c (ix2 r d)) t.val g := by
  have hN : t.val < 200 := lt_of_lt_of_eq t.isLt N200
  unfold GraphNorm.tileSum
  refine Finset.sum_congr rfl fun r _ => ?_
  have hlt : t.val * 5000 + r.val < 1000000 := by have := r.isLt; omega
  have hrow : GraphNorm.rowN (t.val * 5000 + r.val) = (⟨t.val * 5000 + r.val, hlt⟩ : Fin 1000000) :=
    Fin.ext (Nat.mod_eq_of_lt hlt)
  have hb : bblk V c t (ix2 r (0 : Fin 1)) = GraphNorm.gw (γ ⟨t.val * 5000 + r.val, hlt⟩) :=
    (bblk_apply V c t r hlt).trans (hγ _)
  have hx : xblk V c t (ix2 r d) = XV V c (ix2 (⟨t.val * 5000 + r.val, hlt⟩ : Fin 1000000) d) :=
    xblk_apply V c t r d hlt
  rw [hrow, hb, hx]
  by_cases hq : γ ⟨t.val * 5000 + r.val, hlt⟩ = g
  · rw [if_pos hq, if_pos (congrArg GraphNorm.gw hq)]
  · rw [if_neg hq, if_neg (fun h => hq ((gw_inj _ _).mp h))]

/-- At the first tile of a half the buffer is the zero block updated by the tile. -/
theorem stepA3 (c : Dev nD) (γ : Fin 1000000 → Fin 256)
    (hγ : ∀ r : Fin 1000000, BV V c (ix2 r (0 : Fin 1)) = GraphNorm.gw (γ r))
    (g : Fin 256) (d : Fin 128) (t : Fin cfg0.N) (h0 : t.val % 100 = 0) :
    acc3 V c t.val t.isLt (ix3 (0 : Fin 1) g d)
      = GraphNorm.zero + GraphNorm.tileSum γ (fun r => XV V c (ix2 r d) * XV V c (ix2 r d)) t.val g := by
  show (outsAt0 (F := Ideal) V c t.val t.isLt).2 (ix3 (0 : Fin 1) g d) = _
  rw [outsAt0_A V c t h0]
  dsimp only
  refine (congrFun (Pieces0.out_A_3 (F := Ideal) c (grid0.coords t) (ms0_0 t) (hs0_0 t) (ms0_1 t) (hs0_1 t) (ms0_2 t) (hs0_2 t)
    (ms0_3 t) (hs0_3 t) ((hcond0_0 t).mpr h0) (xblk V c t) (bblk V c t)) (ix3 (0 : Fin 1) g d)).trans ?_
  refine (Pay0.pay5_apply (xblk V c t) (bblk V c t) (k0_pay2 (F := Ideal)) g d).trans ?_
  rw [Pay0.pay2_apply, tile3 V c γ hγ g d t]

/-- At every later tile it is what the tile before left, updated by the tile. -/
theorem stepB3 (c : Dev nD) (γ : Fin 1000000 → Fin 256)
    (hγ : ∀ r : Fin 1000000, BV V c (ix2 r (0 : Fin 1)) = GraphNorm.gw (γ r))
    (g : Fin 256) (d : Fin 128) (t : Fin cfg0.N) (h0 : ¬t.val % 100 = 0) :
    acc3 V c t.val t.isLt (ix3 (0 : Fin 1) g d)
      = acc3 V c (t.val - 1) (Nat.lt_of_le_of_lt (Nat.sub_le _ _) t.isLt) (ix3 (0 : Fin 1) g d)
        + GraphNorm.tileSum γ (fun r => XV V c (ix2 r d) * XV V c (ix2 r d)) t.val g := by
  show (outsAt0 (F := Ideal) V c t.val t.isLt).2 (ix3 (0 : Fin 1) g d) = _
  rw [outsAt0_B V c t h0]
  dsimp only
  refine (congrFun (Pieces0.out_B_3 (F := Ideal) c (grid0.coords t) (ms0_0 t) (hs0_0 t) (ms0_1 t) (hs0_1 t) (ms0_2 t) (hs0_2 t)
    (ms0_3 t) (hs0_3 t) (fun h => h0 ((hcond0_0 t).mp h)) (xblk V c t) (bblk V c t)
    (acc2 V c (t.val - 1) (Nat.lt_of_le_of_lt (Nat.sub_le _ _) t.isLt))
    (acc3 V c (t.val - 1) (Nat.lt_of_le_of_lt (Nat.sub_le _ _) t.isLt))) (ix3 (0 : Fin 1) g d)).trans ?_
  refine (Pay0.pay5_apply (xblk V c t) (bblk V c t)
    (acc3 V c (t.val - 1) (Nat.lt_of_le_of_lt (Nat.sub_le _ _) t.isLt)) g d).trans ?_
  rw [tile3 V c γ hγ g d t]

/-- THE RUNNING SUM. After point `n`, tile `n % 100` of half `n / 100`, the buffer holds, from zero, the tile sums of
    the half's tiles so far — by induction on the point. -/
theorem inv3 (c : Dev nD) (γ : Fin 1000000 → Fin 256)
    (hγ : ∀ r : Fin 1000000, BV V c (ix2 r (0 : Fin 1)) = GraphNorm.gw (γ r))
    (g : Fin 256) (d : Fin 128) : ∀ (n : ℕ) (h : n < cfg0.N),
    acc3 V c n h (ix3 (0 : Fin 1) g d)
      = GraphNorm.zero + ∑ j ∈ Finset.range (n % 100 + 1),
          GraphNorm.tileSum γ (fun r => XV V c (ix2 r d) * XV V c (ix2 r d)) (n / 100 * 100 + j) g := by
  intro n
  induction n with
  | zero =>
    intro h
    refine (stepA3 V c γ hγ g d ⟨0, h⟩ rfl).trans ?_
    show GraphNorm.zero + GraphNorm.tileSum γ (fun r => XV V c (ix2 r d) * XV V c (ix2 r d)) 0 g = _
    rw [Finset.sum_range_one]
  | succ n ih =>
    intro h
    by_cases h0 : (n + 1) % 100 = 0
    · refine (stepA3 V c γ hγ g d ⟨n + 1, h⟩ h0).trans ?_
      show GraphNorm.zero + GraphNorm.tileSum γ (fun r => XV V c (ix2 r d) * XV V c (ix2 r d)) (n + 1) g = _
      have e : (n + 1) / 100 * 100 + 0 = n + 1 := by omega
      rw [h0, Finset.sum_range_one, e]
    · refine (stepB3 V c γ hγ g d ⟨n + 1, h⟩ h0).trans ?_
      show acc3 V c n (Nat.lt_of_succ_lt h) (ix3 (0 : Fin 1) g d)
        + GraphNorm.tileSum γ (fun r => XV V c (ix2 r d) * XV V c (ix2 r d)) (n + 1) g = _
      rw [ih (Nat.lt_of_succ_lt h)]
      have e1 : (n + 1) % 100 = n % 100 + 1 := by omega
      have e2 : (n + 1) / 100 = n / 100 := by omega
      have e3 : n / 100 * 100 + (n % 100 + 1) = n + 1 := by omega
      rw [e1, e2, Finset.sum_range_succ _ (n % 100 + 1), e3, add_assoc]

/-- Entry `(k, g, d)` of the whole result array: from zero, half `k`'s sum. -/
def tot3 (c : Dev nD) (γ : Fin 1000000 → Fin 256) (k : Fin 2) (g : Fin 256) (d : Fin 128) : EReal :=
  GraphNorm.zero + GraphNorm.slab γ (fun r => XV V c (ix2 r d) * XV V c (ix2 r d)) k g
def G3 (c : Dev nD) (γ : Fin 1000000 → Fin 256) : S2x256x128.Idx → EReal :=
  fun i => tot3 V c γ (i 0) (i 1) (i 2)

/-- Entry `(0, y₁, y₂)` of the block written back at point `t` is entry `(t / 100, y₁, y₂)` of the array. -/
theorem emb3 (t : Fin cfg0.N) (hk : t.val / 100 < 2) (y1 : Fin 256) (y2 : Fin 128) :
    (((cfg0.win 3).blk t).view.emb (ix3 (0 : Fin 1) y1 y2) : S2x256x128.Idx) = ix3 (⟨t.val / 100, hk⟩ : Fin 2) y1 y2 := by
  have hi := index3 t
  funext a
  apply Fin.ext
  match a with
  | ⟨0, _⟩ => show win0_3.index t 0 * 1 + 1 * 0 = t.val / 100; rw [hi.1]; omega
  | ⟨1, _⟩ => show win0_3.index t 1 * 256 + 1 * y1.val = y1.val; rw [hi.2.1]; omega
  | ⟨2, _⟩ => show win0_3.index t 2 * 128 + 1 * y2.val = y2.val; rw [hi.2.2]; omega

/-- The two write-backs, after the last tile of each half, write that half's slab of the array. -/
theorem flushed3 (c : Dev nD) (γ : Fin 1000000 → Fin 256)
    (hγ : ∀ r : Fin 1000000, BV V c (ix2 r (0 : Fin 1)) = GraphNorm.gw (γ r))
    (t : Fin cfg0.N) (hf : (cfg0.win 3).flush t = true) :
    (dat0 (F := Ideal) V c).flushed 3 t = ((cfg0.win 3).blk t).view.read (Elt Ideal) (G3 V c γ) := by
  have h99 : t.val % 100 = 99 := (flush0_3 t).mp hf
  have hN : t.val < 200 := lt_of_lt_of_eq t.isLt N200
  have hk : t.val / 100 < 2 := by omega
  show (cfg0.win 3).cut (grid0.coords t) ((dat0 (F := Ideal) V c).after 3 t) = _
  rw [after0_3]
  refine funext fun (y : S1x256x128.Idx) => ?_
  rw [View.read_apply]
  obtain ⟨y0, y1, y2, rfl⟩ : ∃ (y0 : Fin 1) (y1 : Fin 256) (y2 : Fin 128), y = ix3 y0 y1 y2 :=
    ⟨y 0, y 1, y 2, eq_ix3 y⟩
  obtain rfl : y0 = 0 := Subsingleton.elim _ _
  show acc3 V c t.val t.isLt (ix3 (0 : Fin 1) y1 y2)
    = G3 V c γ (((cfg0.win 3).blk t).view.emb (ix3 (0 : Fin 1) y1 y2) : S2x256x128.Idx)
  rw [emb3 t hk y1 y2]
  refine (inv3 V c γ hγ y1 y2 t.val t.isLt).trans ?_
  show GraphNorm.zero + _ = GraphNorm.zero + GraphNorm.slab γ (fun r => XV V c (ix2 r y2) * XV V c (ix2 r y2)) (⟨t.val / 100, hk⟩ : Fin 2) y1
  unfold GraphNorm.slab
  rw [h99]

/-- Every entry of the array lies in the slab written back after the last tile of its half. -/
theorem cover3 (i : S2x256x128.Idx) :
    ∃ t : Fin cfg0.N, (cfg0.win 3).flush t = true ∧ i ∈ ((cfg0.win 3).blk t).view.set := by
  have h0 : (i 0 : ℕ) < 2 := (i 0).isLt
  have h1 : (i 1 : ℕ) < 256 := (i 1).isLt
  have h2 : (i 2 : ℕ) < 128 := (i 2).isLt
  obtain ⟨t, ht⟩ : ∃ t : Fin cfg0.N, t.val = (i 0 : ℕ) * 100 + 99 :=
    ⟨⟨(i 0 : ℕ) * 100 + 99, lt_of_lt_of_eq (by omega) N200.symm⟩, rfl⟩
  have hi := index3 t
  refine ⟨t, (flush0_3 t).mpr (by omega), ?_⟩
  show i ∈ ((View.whole main_v1_1).slice (win0_3.rect t)).set
  rw [View.set_slice_whole, Rect.mem_set_unit]
  intro a
  match a with
  | ⟨0, _⟩ =>
    show win0_3.index t 0 * 1 ≤ (i 0 : ℕ) ∧ (i 0 : ℕ) < win0_3.index t 0 * 1 + 1
    rw [hi.1]; omega
  | ⟨1, _⟩ =>
    show win0_3.index t 1 * 256 ≤ (i 1 : ℕ) ∧ (i 1 : ℕ) < win0_3.index t 1 * 256 + 256
    rw [hi.2.1]; omega
  | ⟨2, _⟩ =>
    show win0_3.index t 2 * 128 ≤ (i 2 : ℕ) ∧ (i 2 : ℕ) < win0_3.index t 2 * 128 + 128
    rw [hi.2.2]; omega

/-- So the array ends holding, slab by slab, each half's sums from zero. -/
theorem final3 (c : Dev nD) (γ : Fin 1000000 → Fin 256)
    (hγ : ∀ r : Fin 1000000, BV V c (ix2 r (0 : Fin 1)) = GraphNorm.gw (γ r)) :
    (dat0 (F := Ideal) V c).arrAt 3 cfg0.N = G3 V c γ :=
  (dat0 (F := Ideal) V c).arrAt_eq_of_cover 3 (G3 V c γ) (flushed3 V c γ hγ) (fun i => cover3 i)

/-- The accumulating pass's first result array: slab `k`, graph `g`, feature `d` holds, from zero, the sum over half
    `k`'s hundred tiles of the feature over the tile's rows of graph `g`. -/
theorem arr2 (c : Dev nD) (γ : Fin 1000000 → Fin 256)
    (hγ : ∀ r : Fin 1000000, BV V c (ix2 r (0 : Fin 1)) = GraphNorm.gw (γ r))
    (k : Fin 2) (g : Fin 256) (d : Fin 128) :
    ((dat0 (F := Ideal) V c).arrAt 2 cfg0.N : S2x256x128.Idx → EReal) (ix3 k g d)
      = GraphNorm.zero + GraphNorm.slab γ (fun r => XV V c (ix2 r d)) k g := by
  exact congrFun (final2 V c γ hγ) (ix3 k g d)

/-- The second result array: the same with the feature's square. -/
theorem arr3 (c : Dev nD) (γ : Fin 1000000 → Fin 256)
    (hγ : ∀ r : Fin 1000000, BV V c (ix2 r (0 : Fin 1)) = GraphNorm.gw (γ r))
    (k : Fin 2) (g : Fin 256) (d : Fin 128) :
    ((dat0 (F := Ideal) V c).arrAt 3 cfg0.N : S2x256x128.Idx → EReal) (ix3 k g d)
      = GraphNorm.zero + GraphNorm.slab γ (fun r => XV V c (ix2 r d) * XV V c (ix2 r d)) k g := by
  exact congrFun (final3 V c γ hγ) (ix3 k g d)

end Cert.KernelIdeal.R0

end
-- ==== Proof.KPay1.lean ====
import proofs.«418891_j10033043604048_3_alg».proof.Proof.Gen.KernelIdeal.Skeleton
import proofs.«418891_j10033043604048_3_alg».proof.Proof.Spec
import proofs.«418891_j10033043604048_3_alg».proof.Proof.LibColumns
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Pay1

open Cert.KernelIdeal Cert.KernelIdeal.Gen Idealize.ShloMosaic Idealize.ShloMosaic.ValueIdx

/-! ## The one-hot entry -/

/-- The bit of a comparison of two words for equality, widened to a word and read as a signed integer, is one where
    the two words are equal and zero where they differ. -/
private theorem onehot_scalar (a c : BitVec 32) :
    (FloatOps.sitofp (F := Ideal) .f32 ((IntOp.cmpi .eq a c).setWidth 32) : EReal)
      = if a = c then (1 : EReal) else 0 := by
  show ((((BitVec.ofBool (a == c)).setWidth 32).toInt : ℝ) : EReal) = _
  by_cases h : a = c
  · have hb : (a == c) = true := by simp [h]
    have h1 : ((BitVec.ofBool true).setWidth 32).toInt = 1 := by decide
    rw [hb, if_pos h, h1, Int.cast_one, EReal.coe_one]
  · have hb : (a == c) = false := by simp [h]
    have h0 : ((BitVec.ofBool false).setWidth 32).toInt = 0 := by decide
    rw [hb, if_neg h, h0, Int.cast_zero, EReal.coe_zero]

/-- A comparison of two arrays of words, read at an index, compares the two entries. -/
private theorem cmpi_apply {s : Shape} {w : Nat} (p : CmpIPredicate) (x y : IVec s w) (i : s.Idx) :
    cmpi p x y i = IntOp.cmpi p (x i) (y i) := rfl

/-- The one-hot matrix at row `r`, column `g`: one where the row's index word is the word of `g`, zero elsewhere. -/
private theorem onehot_apply (b : S4000x1.Idx → BitVec 32) (r : Fin 4000) (g : Fin 256) :
    (truncf .bf16 (sitofp (F := Ideal) .f32 (extui 32 (cmpi .eq
        (broadcastTo S4000x256 b broadcasts_S4000x1_S4000x256)
        (iota .tc S4000x256 32 [1] iota_S4000x256_d1_w32)) natLt_1_32)) bitsLt_bf16_f32
          : FVec Ideal S4000x256 .bf16) (ix2 r g)
      = if b (ix2 r (0 : Fin 1)) = BitVec.ofNat 32 g.val then (1 : EReal) else 0 := by
  rw [truncf_apply, sitofp_apply, extui_apply, cmpi_apply, Cert.Columns.broadcastTo_a1_ab_apply, iota_single_apply]
  exact onehot_scalar _ _

/-! ## The product's operand indices, axis by axis -/

/-- The left operand's row is the result's row. -/
private theorem lhs_ax0 (j : S4000x512.Idx) (k : dot_S4000x256_S256x512_S4000x512_1_0_0_1_n_n.contr.Idx) :
    (dot_S4000x256_S256x512_S4000x512_1_0_0_1_n_n.lhsIdx j k (0 : Fin S4000x256.rank) : ℕ) = (j (0 : Fin S4000x512.rank) : ℕ) := by
  unfold DotDims.lhsIdx
  rw [dif_neg (show ¬(0 : Fin S4000x256.rank) ∈ dot_S4000x256_S256x512_S4000x512_1_0_0_1_n_n.lhsBatch by decide),
    dif_pos (show (0 : Fin S4000x256.rank) ∈ dot_S4000x256_S256x512_S4000x512_1_0_0_1_n_n.lhsNonContracting by decide)]
  rfl

/-- The left operand's column is the summation position. -/
private theorem lhs_ax1 (j : S4000x512.Idx) (g : Fin 256) :
    (dot_S4000x256_S256x512_S4000x512_1_0_0_1_n_n.lhsIdx j ((contrEquiv1 dot_S4000x256_S256x512_S4000x512_1_0_0_1_n_n 256 rfl rfl).symm g) (1 : Fin S4000x256.rank) : ℕ) = g.val :=
  (dot_S4000x256_S256x512_S4000x512_1_0_0_1_n_n.lhsIdx_val_of_single (cl := (1 : Fin S4000x256.rank)) rfl j _).trans
    (contrEquiv1_symm_val dot_S4000x256_S256x512_S4000x512_1_0_0_1_n_n 256 rfl rfl g)

/-- The right operand's row is the summation position. -/
private theorem rhs_ax0 (j : S4000x512.Idx) (g : Fin 256) :
    (dot_S4000x256_S256x512_S4000x512_1_0_0_1_n_n.rhsIdx j ((contrEquiv1 dot_S4000x256_S256x512_S4000x512_1_0_0_1_n_n 256 rfl rfl).symm g) (0 : Fin S256x512.rank) : ℕ) = g.val :=
  (dot_S4000x256_S256x512_S4000x512_1_0_0_1_n_n.rhsIdx_val_of_single (cr := (0 : Fin S256x512.rank)) rfl j _).trans
    (contrEquiv1_symm_val dot_S4000x256_S256x512_S4000x512_1_0_0_1_n_n 256 rfl rfl g)

/-- The right operand's column is the result's column. -/
private theorem rhs_ax1 (j : S4000x512.Idx) (k : dot_S4000x256_S256x512_S4000x512_1_0_0_1_n_n.contr.Idx) :
    (dot_S4000x256_S256x512_S4000x512_1_0_0_1_n_n.rhsIdx j k (1 : Fin S256x512.rank) : ℕ) = (j (1 : Fin S4000x512.rank) : ℕ) := by
  unfold DotDims.rhsIdx
  rw [dif_neg (show ¬(1 : Fin S256x512.rank) ∈ dot_S4000x256_S256x512_S4000x512_1_0_0_1_n_n.rhsBatch by decide),
    dif_pos (show (1 : Fin S256x512.rank) ∈ dot_S4000x256_S256x512_S4000x512_1_0_0_1_n_n.rhsNonContracting by decide)]
  rfl

/-- The product into a zero accumulator, at row `r` and column `c`: the sum over the 256 summation positions of the
    left operand's row entry times the right operand's column entry. -/
private theorem dot_apply (A : FVec Ideal S4000x256 .bf16) (B : FVec Ideal S256x512 .bf16) (r : Fin 4000) (c : Fin 512) :
    matmul dot_S4000x256_S256x512_S4000x512_1_0_0_1_n_n none A B (constant (F := Ideal) S4000x512 .f32 0x00000000#32) (ix2 r c)
      = ∑ g : Fin 256, A (ix2 r g) * B (ix2 g c) := by
  refine (Ideal.matmul_constant_zero_apply dot_S4000x256_S256x512_S4000x512_1_0_0_1_n_n none A B (ix2 r c)).trans ?_
  refine (Equiv.sum_comp (contrEquiv1 dot_S4000x256_S256x512_S4000x512_1_0_0_1_n_n 256 rfl rfl).symm _).symm.trans ?_
  refine Finset.sum_congr rfl fun g _ => ?_
  have hl : dot_S4000x256_S256x512_S4000x512_1_0_0_1_n_n.lhsIdx (ix2 r c) ((contrEquiv1 dot_S4000x256_S256x512_S4000x512_1_0_0_1_n_n 256 rfl rfl).symm g) = ix2 r g :=
    Shape.idx_ext₂ (lhs_ax0 _ _) (lhs_ax1 _ g)
  have hr : dot_S4000x256_S256x512_S4000x512_1_0_0_1_n_n.rhsIdx (ix2 r c) ((contrEquiv1 dot_S4000x256_S256x512_S4000x512_1_0_0_1_n_n 256 rfl rfl).symm g) = ix2 g c :=
    Shape.idx_ext₂ (rhs_ax0 _ g) (rhs_ax1 _ _)
  rw [hl, hr]

/-! ## The slices, the sum of the two halves, and the affine step -/

/-- The sum of the left and the right half of a 512-column matrix, at `(r, c)`: its entries at columns `c` and
    `256 + c`. -/
private theorem halves_apply (M : FVec Ideal S4000x512 .f32) (r : Fin 4000) (c : Fin 256) (c0 c1 : Fin 512)
    (h0 : c0.val = 0 + c.val) (h1 : c1.val = 256 + c.val) :
    addf (extractStridedSlice S4000x256 ![0, 0] M slices_S4000x512_o0_0_S4000x256)
        (extractStridedSlice S4000x256 ![0, 256] M slices_S4000x512_o0_256_S4000x256) (ix2 r c)
      = M (ix2 r c0) + M (ix2 r c1) := by
  rw [addf_apply, slice2_axis1_apply 0 M _ r c c0 h0, slice2_axis1_apply 256 M _ r c c1 h1]

/-- The feature value times the first 128 columns of a 256-column matrix plus its last 128 columns, at `(r, d)`. -/
private theorem affine_apply (x : FVec Ideal S4000x128 .f32) (V : FVec Ideal S4000x256 .f32) (r : Fin 4000) (d : Fin 128)
    (c0 c1 : Fin 256) (h0 : c0.val = 0 + d.val) (h1 : c1.val = 128 + d.val) :
    addf (mulf x (extractStridedSlice S4000x128 ![0, 0] V slices_S4000x256_o0_0_S4000x128))
        (extractStridedSlice S4000x128 ![0, 128] V slices_S4000x256_o0_128_S4000x128) (ix2 r d)
      = x (ix2 r d) * V (ix2 r c0) + V (ix2 r c1) := by
  rw [addf_apply, mulf_apply, slice2_axis1_apply 0 V _ r d c0 h0, slice2_axis1_apply 128 V _ r d c1 h1]

/-- The whole chain after the product, over any 512-column matrix `M`: at `(r, d)` it reads `M` at the four columns
    `d`, `256 + d`, `128 + d`, `384 + d`. -/
private theorem body_apply (x : FVec Ideal S4000x128 .f32) (M : FVec Ideal S4000x512 .f32) (r : Fin 4000) (d : Fin 128) :
    addf (mulf x (extractStridedSlice S4000x128 ![0, 0]
          (addf (extractStridedSlice S4000x256 ![0, 0] M slices_S4000x512_o0_0_S4000x256)
            (extractStridedSlice S4000x256 ![0, 256] M slices_S4000x512_o0_256_S4000x256))
          slices_S4000x256_o0_0_S4000x128))
        (extractStridedSlice S4000x128 ![0, 128]
          (addf (extractStridedSlice S4000x256 ![0, 0] M slices_S4000x512_o0_0_S4000x256)
            (extractStridedSlice S4000x256 ![0, 256] M slices_S4000x512_o0_256_S4000x256))
          slices_S4000x256_o0_128_S4000x128) (ix2 r d)
      = x (ix2 r d) * (M (ix2 r ⟨d.val, by omega⟩) + M (ix2 r ⟨256 + d.val, by omega⟩))
          + (M (ix2 r ⟨128 + d.val, by omega⟩) + M (ix2 r ⟨384 + d.val, by omega⟩)) := by
  refine (affine_apply x _ r d ⟨d.val, by omega⟩ ⟨128 + d.val, by omega⟩ (Nat.zero_add _).symm rfl).trans ?_
  rw [halves_apply M r ⟨d.val, by omega⟩ ⟨d.val, by omega⟩ ⟨256 + d.val, by omega⟩ (Nat.zero_add _).symm rfl,
    halves_apply M r ⟨128 + d.val, by omega⟩ ⟨128 + d.val, by omega⟩ ⟨384 + d.val, by omega⟩ (Nat.zero_add _).symm
      (by show 384 + d.val = 256 + (128 + d.val); omega)]

/-! ## The gather as a one-hot product -/

/-- The one-hot matrix of the index column: row `r` has its one at the column whose word is the row's index word. -/
private abbrev oneHot (b : S4000x1.Idx → BitVec 32) : FVec Ideal S4000x256 .bf16 :=
  truncf .bf16 (sitofp (F := Ideal) .f32 (extui 32 (cmpi .eq
    (broadcastTo S4000x256 b broadcasts_S4000x1_S4000x256)
    (iota .tc S4000x256 32 [1] iota_S4000x256_d1_w32)) natLt_1_32)) bitsLt_bf16_f32

/-- Row `r` of the one-hot matrix times column `c` of the table is the gather of the table's column at the row's
    index word. -/
private theorem gat_eq (b : S4000x1.Idx → BitVec 32) (T : S256x512.Idx → EReal) (r : Fin 4000) (c : Fin 512) :
    ∑ g : Fin 256, oneHot b (ix2 r g) * T (ix2 g c) = GraphNorm.gat T (b (ix2 r (0 : Fin 1))) c := by
  unfold GraphNorm.gat
  exact Finset.sum_congr rfl fun g _ => congrArg (fun z : EReal => z * T (ix2 g c)) (onehot_apply b r g)

/-! ## The stored value -/

/-- What the normalising body stores, entry by entry: the row's feature value times the gathered scale plus the
    gathered shift, each gathered value the sum of a leading part and a remainder, each gather a one-hot product. -/
theorem pay1_apply (x : S4000x128.Idx → EReal) (b : S4000x1.Idx → BitVec 32) (T : S256x512.Idx → EReal)
    (r : Fin 4000) (d : Fin 128) :
    k1_pay1 (F := Ideal) x b T (ix2 r d) = GraphNorm.norm1 (x (ix2 r d)) (b (ix2 r (0 : Fin 1))) T d := by
  unfold k1_pay1
  simp only [shapeCast_self]
  refine (body_apply x (matmul dot_S4000x256_S256x512_S4000x512_1_0_0_1_n_n none (oneHot b) T
    (constant (F := Ideal) S4000x512 .f32 0x00000000#32)) r d).trans ?_
  rw [dot_apply (oneHot b) T r ⟨d.val, by omega⟩, dot_apply (oneHot b) T r ⟨256 + d.val, by omega⟩,
    dot_apply (oneHot b) T r ⟨128 + d.val, by omega⟩, dot_apply (oneHot b) T r ⟨384 + d.val, by omega⟩,
    gat_eq b T r ⟨d.val, by omega⟩, gat_eq b T r ⟨256 + d.val, by omega⟩,
    gat_eq b T r ⟨128 + d.val, by omega⟩, gat_eq b T r ⟨384 + d.val, by omega⟩]
  rfl

end Cert.KernelIdeal.Pay1

end
-- ==== Proof.KRegion1.lean ====
import proofs.«418891_j10033043604048_3_alg».proof.Proof.Gen.KernelIdeal.Frame
import proofs.«418891_j10033043604048_3_alg».proof.Proof.Spec
import proofs.«418891_j10033043604048_3_alg».proof.Proof.LibColumns
import proofs.«418891_j10033043604048_3_alg».proof.Proof.KPay1
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.R1

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-! ## The body's one store -/

/-- The zero offsets, however spelt. -/
private theorem zero_off : (![0, 0] : Fin 2 → Nat) = fun _ => 0 := funext fun a => by fin_cases a <;> rfl

/-- The body stores once, through the whole block, what it computes of its three whole loaded blocks: the block it
    leaves is that value. -/
private theorem stored_eq (x0 : Vec Ideal S4000x128 .f32) (x1 : Vec Ideal S4000x1 .i32) (x2 : Vec Ideal S256x512 .bf16) :
    out1_3 (F := Ideal) x0 x1 x2 = k1_pay1 (F := Ideal) x0 x1 x2 := by
  unfold out1_3
  rw [View.canon_unit_zero zero_off]
  simp only [View.ld_unit_zero (S := S4000x128) zero_off, View.ld_unit_zero (S := S4000x1) zero_off,
    View.ld_unit_zero (S := S256x512) zero_off]

/-! ## Where each window's block sits at grid point `t` -/

/-- The block indices over the 250 grid points: the rows' windows (features, index words, result) take block row `t`,
    the table's window the one block of the whole table. -/
private theorem block_index : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- The feature block at point `t` is rows `4000 t … 4000 t + 3999` of the feature array. -/
private theorem feat_block (c : Dev nD) (t : Fin cfg1.N) (y : S4000x128.Idx) (k : S1000000x128.Idx)
    (hk0 : (k 0).val = t.val * 4000 + (y 0).val) (hk1 : (k 1).val = (y 1).val) :
    (iblk1 (F := Ideal) V c 0 t : Vec Ideal S4000x128 .f32) y = (V c main_arg0 : S1000000x128.Idx → EReal) k := by
  obtain ⟨e0, e1, -⟩ := block_index t
  unfold iblk1
  rw [View.read_apply]
  show V c main_arg0 _ = V c main_arg0 _
  congr 1
  funext a
  apply Fin.ext
  match a with
  | ⟨0, _⟩ => show win1_0.index t (0 : Fin 2) * 4000 + 1 * (y 0).val = (k 0).val; rw [e0, hk0]; omega
  | ⟨1, _⟩ => show win1_0.index t (1 : Fin 2) * 128 + 1 * (y 1).val = (k 1).val; rw [e1, hk1]; omega

/-- The index-word block at point `t` is the same rows of the index-word column. -/
private theorem word_block (c : Dev nD) (t : Fin cfg1.N) (y : S4000x1.Idx) (k : S1000000x1.Idx)
    (hk0 : (k 0).val = t.val * 4000 + (y 0).val) (hk1 : (k 1).val = (y 1).val) :
    (iblk1 (F := Ideal) V c 1 t : Vec Ideal S4000x1 .i32) y = (V c main_v0 : S1000000x1.Idx → BitVec 32) k := by
  obtain ⟨-, -, e0, e1, -⟩ := block_index t
  unfold iblk1
  rw [View.read_apply]
  show V c main_v0 _ = V c main_v0 _
  congr 1
  funext a
  apply Fin.ext
  match a with
  | ⟨0, _⟩ => show win1_1.index t (0 : Fin 2) * 4000 + 1 * (y 0).val = (k 0).val; rw [e0, hk0]; omega
  | ⟨1, _⟩ => show win1_1.index t (1 : Fin 2) * 1 + 1 * (y 1).val = (k 1).val; rw [e1, hk1]; omega

/-- The table's block is the whole table at every point. -/
private theorem table_block (c : Dev nD) (t : Fin cfg1.N) :
    (iblk1 (F := Ideal) V c 2 t : Vec Ideal S256x512 .bf16) = (V c main_v47 : S256x512.Idx → EReal) := by
  obtain ⟨-, -, -, -, e0, e1, -⟩ := block_index t
  funext y
  unfold iblk1
  rw [View.read_apply]
  show V c main_v47 _ = V c main_v47 _
  congr 1
  funext a
  apply Fin.ext
  match a with
  | ⟨0, _⟩ => show win1_2.index t (0 : Fin 2) * 256 + 1 * (y 0).val = (y 0).val; rw [e0]; omega
  | ⟨1, _⟩ => show win1_2.index t (1 : Fin 2) * 512 + 1 * (y 1).val = (y 1).val; rw [e1]; omega

/-! ## The result array as one function of the three arrays -/

/-- Entry `(r, d)`: the row's feature value times the gathered scale plus the gathered shift. -/
private abbrev normArr (c : Dev nD) : S1000000x128.Idx → EReal := fun i =>
  GraphNorm.norm1 ((V c main_arg0 : S1000000x128.Idx → EReal) i)
    ((V c main_v0 : S1000000x1.Idx → BitVec 32) (ix2 (i 0) (0 : Fin 1)))
    (V c main_v47 : S256x512.Idx → EReal) (i 1)

/-- One stored entry, over blocks that are rows `4000 n …` of arrays `X`, `B` and a table block that is `T`:
    entry `(r, d)` of the block is the normalised value at the array index `i = (4000 n + r, d)`. -/
private theorem stored_entry (x : S4000x128.Idx → EReal) (b : S4000x1.Idx → BitVec 32) (T' T : S256x512.Idx → EReal)
    (X : S1000000x128.Idx → EReal) (B : S1000000x1.Idx → BitVec 32) (n : ℕ) (hT : T' = T)
    (hx : ∀ (y : S4000x128.Idx) (k : S1000000x128.Idx), (k 0).val = n * 4000 + (y 0).val → (k 1).val = (y 1).val → x y = X k)
    (hb : ∀ (y : S4000x1.Idx) (k : S1000000x1.Idx), (k 0).val = n * 4000 + (y 0).val → (k 1).val = (y 1).val → b y = B k)
    (r : Fin 4000) (d : Fin 128) (i : S1000000x128.Idx) (hi0 : (i 0).val = n * 4000 + r.val) (hi1 : (i 1).val = d.val) :
    k1_pay1 (F := Ideal) x b T' (ix2 r d) = GraphNorm.norm1 (X i) (B (ix2 (i 0) (0 : Fin 1))) T (i 1) := by
  subst hT
  rw [Pay1.pay1_apply x b T' r d]
  have h1 : x (ix2 r d) = X i := hx (ix2 r d) i hi0 hi1
  have h2 : b (ix2 r (0 : Fin 1)) = B (ix2 (i 0) (0 : Fin 1)) := hb (ix2 r (0 : Fin 1)) (ix2 (i 0) (0 : Fin 1)) hi0 rfl
  have h3 : d = i 1 := Fin.ext hi1.symm
  rw [h1, h2]
  exact congrArg _ h3

/-- The same at any index of the block. -/
private theorem stored_at (x : S4000x128.Idx → EReal) (b : S4000x1.Idx → BitVec 32) (T' T : S256x512.Idx → EReal)
    (X : S1000000x128.Idx → EReal) (B : S1000000x1.Idx → BitVec 32) (n : ℕ) (hT : T' = T)
    (hx : ∀ (y : S4000x128.Idx) (k : S1000000x128.Idx), (k 0).val = n * 4000 + (y 0).val → (k 1).val = (y 1).val → x y = X k)
    (hb : ∀ (y : S4000x1.Idx) (k : S1000000x1.Idx), (k 0).val = n * 4000 + (y 0).val → (k 1).val = (y 1).val → b y = B k)
    (j : S4000x128.Idx) (i : S1000000x128.Idx) (hi0 : (i 0).val = n * 4000 + (j 0).val) (hi1 : (i 1).val = (j 1).val) :
    k1_pay1 (F := Ideal) x b T' j = GraphNorm.norm1 (X i) (B (ix2 (i 0) (0 : Fin 1))) T (i 1) := by
  obtain ⟨r, d, rfl⟩ : ∃ (r : Fin 4000) (d : Fin 128), j = ix2 r d := ⟨j 0, j 1, eq_ix2 j⟩
  exact stored_entry x b T' T X B n hT hx hb r d i hi0 hi1

/-! ## What each point writes back, the cover, the array -/

/-- Point `t` writes back block `t` of `normArr`. -/
private theorem flushed_eq (c : Dev nD) (t : Fin cfg1.N) :
    (dat1 (F := Ideal) V c).flushed 3 t = ((cfg1.win 3).blk t).view.read (Elt Ideal) (normArr V c) := by
  show (cfg1.win 3).cut (grid1.coords t) ((dat1 (F := Ideal) V c).after 3 t) = _
  rw [after1_3, stored_eq]
  obtain ⟨-, -, -, -, -, -, e6, e7⟩ := block_index t
  funext j
  rw [View.read_apply]
  refine stored_at (iblk1 (F := Ideal) V c 0 t) (iblk1 (F := Ideal) V c 1 t) (iblk1 (F := Ideal) V c 2 t)
    (V c main_v47) (V c main_arg0) (V c main_v0) t.val (table_block V c t)
    (fun y k h0 h1 => feat_block V c t y k h0 h1) (fun y k h0 h1 => word_block V c t y k h0 h1)
    j (((cfg1.win 3).blk t).view.emb j) ?_ ?_
  · show win1_3.index t (0 : Fin 2) * 4000 + 1 * (j 0).val = t.val * 4000 + (j 0).val
    rw [e6]; omega
  · show win1_3.index t (1 : Fin 2) * 128 + 1 * (j 1).val = (j 1).val
    rw [e7]; omega

/-- An index of the array is in point `t`'s block iff each coordinate is in the block's range on its axis. -/
private theorem mem_block (t : Fin cfg1.N) (i : S1000000x128.Idx) :
    i ∈ ((cfg1.win 3).blk t).view.set ↔ ∀ a : Fin 2, win1_3.index t a * S4000x128.size a ≤ (i a).val
      ∧ (i a).val < win1_3.index t a * S4000x128.size a + S4000x128.size a := by
  show i ∈ ((View.whole main_v48).slice (win1_3.rect t)).set ↔ _
  rw [View.set_slice_whole, Rect.mem_set_unit]
  exact Iff.rfl

/-- Row `n` lies in the block of point `n / 4000`: the 250 blocks cover the array. -/
private theorem covered (i : S1000000x128.Idx) :
    ∃ t : Fin cfg1.N, (cfg1.win 3).flush t = true ∧ i ∈ ((cfg1.win 3).blk t).view.set := by
  have hi0 : (i 0).val < 1000000 := idx2_lt0 i
  have hi1 : (i 1).val < 128 := idx2_lt1 i
  have hN : cfg1.N = 250 := N_1
  obtain ⟨t, ht⟩ : ∃ t : Fin cfg1.N, t.val = (i 0).val / 4000 := ⟨⟨(i 0).val / 4000, by rw [hN]; omega⟩, rfl⟩
  obtain ⟨-, -, -, -, -, -, e6, e7⟩ := block_index t
  refine ⟨t, flush1_3 t, ?_⟩
  rw [mem_block]
  intro a
  match a with
  | ⟨0, _⟩ =>
    show win1_3.index t (0 : Fin 2) * 4000 ≤ (i 0).val ∧ (i 0).val < win1_3.index t (0 : Fin 2) * 4000 + 4000
    rw [e6, ht]; omega
  | ⟨1, _⟩ =>
    show win1_3.index t (1 : Fin 2) * 128 ≤ (i 1).val ∧ (i 1).val < win1_3.index t (1 : Fin 2) * 128 + 128
    rw [e7]; omega

/-- The result array after the pass is `normArr`. -/
private theorem final_arr (c : Dev nD) : (dat1 (F := Ideal) V c).arrAt 3 cfg1.N = normArr V c :=
  (dat1 (F := Ideal) V c).arrAt_eq_of_cover 3 (normArr V c) (fun t _ => flushed_eq V c t) covered

/-- The normalising pass's result array, entry by entry: row `r`, feature `d` holds the row's feature value times the
    gathered scale plus the gathered shift, the gather a one-hot product against the table. -/
theorem arr (c : Dev nD) (r : Fin 1000000) (d : Fin 128) :
    ((dat1 (F := Ideal) V c).arrAt 3 cfg1.N : S1000000x128.Idx → EReal) (ix2 r d)
      = GraphNorm.norm1 ((V c main_arg0 : S1000000x128.Idx → EReal) (ix2 r d))
          ((V c main_v0 : S1000000x1.Idx → BitVec 32) (ix2 r (0 : Fin 1)))
          (V c main_v47 : S256x512.Idx → EReal) d := by
  show ((dat1 (F := Ideal) V c).arrAt 3 cfg1.N : S1000000x128.Idx → EReal) (ix2 r d) = normArr V c (ix2 r d)
  rw [final_arr V c]

end Cert.KernelIdeal.R1

end
-- ==== Proof.LibScatterRows.lean ====
/-
  A host scatter-add whose index operand holds ONE row number per update row, read at an index.

  `segment_sum`-style accumulation: the update array has a leading axis of `N` rows, the index array is `[N, 1]`,
  the operand has a leading axis of `G` segments, and row `r` of the updates is added into segment `idx[r, 0]` of
  the operand (read as a signed integer; a row whose number is outside `[0, G)` contributes nothing). At the exact
  instance the result at segment `g` is the operand there plus the sum of the rows whose number is `g`.
-/
import Idealize.ShloMosaic.PureOps.Ideal
import Idealize.ShloMosaic.Lib.ValueIdx

noncomputable section

namespace Cert.ScatterRows

open Idealize.ShloMosaic Idealize.ShloMosaic.ValueIdx

/-! ## Rank-2 updates: the dimension numbers with their four lists written out -/

/-- The dimension numbers `update_window_dims = [1]`, `inserted_window_dims = [0]`,
    `scatter_dims_to_operand_dims = [0]`, `index_vector_dim = 1` over `[G, D]`, `[N, 1]`, `[N, D]`. -/
private abbrev d2 {N G D : ℕ} (wf : ScatterDims.WF ⟨2, ![G, D]⟩ ⟨2, ![N, 1]⟩ ⟨2, ![N, D]⟩ [1] [0] [0] 1) :
    ScatterDims ⟨2, ![G, D]⟩ ⟨2, ![N, 1]⟩ ⟨2, ![N, D]⟩ := ⟨[1], [0], [0], 1, wf⟩

/-- Update `(r, k')` reads its one start component at `(r, 0)` of the index array. -/
private theorem siIdx2 {N G D : ℕ} (wf : ScatterDims.WF ⟨2, ![G, D]⟩ ⟨2, ![N, 1]⟩ ⟨2, ![N, D]⟩ [1] [0] [0] 1)
    (r : Fin N) (k' : Fin D) (c) :
    (d2 wf).siIdx (ix2 r k') c = ix2 r (0 : Fin 1) := by
  funext b
  match b with
  | ⟨0, _⟩ =>
    apply Fin.ext
    rfl
  | ⟨1, _⟩ =>
    apply Fin.ext
    simp [ScatterDims.siIdx]

/-- On the segment axis the window starts at the row's number, read signed. -/
private theorem start2_0 {N G D w : ℕ} (wf : ScatterDims.WF ⟨2, ![G, D]⟩ ⟨2, ![N, 1]⟩ ⟨2, ![N, D]⟩ [1] [0] [0] 1)
    (r : Fin N) (k' : Fin D) (idx : IVec ⟨2, ![N, 1]⟩ w) :
    (d2 wf).start (ix2 r k') idx 0 = (idx (ix2 r (0 : Fin 1))).toInt := by
  unfold ScatterDims.start
  rw [dif_pos (of_decide_eq_true rfl)]
  rw [siIdx2]

/-- On the column axis the window starts at `0`. -/
private theorem start2_1 {N G D w : ℕ} (wf : ScatterDims.WF ⟨2, ![G, D]⟩ ⟨2, ![N, 1]⟩ ⟨2, ![N, D]⟩ [1] [0] [0] 1)
    (r : Fin N) (k' : Fin D) (idx : IVec ⟨2, ![N, 1]⟩ w) :
    (d2 wf).start (ix2 r k') idx 1 = 0 := by
  unfold ScatterDims.start
  rw [dif_neg (of_decide_eq_true rfl)]

/-- The segment axis is inserted: its window coordinate is `0`. -/
private theorem window2_0 {N G D : ℕ} (wf : ScatterDims.WF ⟨2, ![G, D]⟩ ⟨2, ![N, 1]⟩ ⟨2, ![N, D]⟩ [1] [0] [0] 1)
    (r : Fin N) (k' : Fin D) :
    (d2 wf).window (ix2 r k') 0 = 0 := by
  unfold ScatterDims.window
  rw [dif_neg (of_decide_eq_true rfl)]

/-- The column axis carries the update's column. -/
private theorem window2_1 {N G D : ℕ} (wf : ScatterDims.WF ⟨2, ![G, D]⟩ ⟨2, ![N, 1]⟩ ⟨2, ![N, D]⟩ [1] [0] [0] 1)
    (r : Fin N) (k' : Fin D) :
    (d2 wf).window (ix2 r k') 1 = k'.val := by
  unfold ScatterDims.window
  rw [dif_pos (of_decide_eq_true rfl)]
  rfl

/-- Update `(r, k')` lands at `(g, k)` exactly when row `r`'s number is `g` and the columns agree (a number outside
    `[0, G)` lands nowhere). -/
private theorem resultIdx2 {N G D w : ℕ} (wf : ScatterDims.WF ⟨2, ![G, D]⟩ ⟨2, ![N, 1]⟩ ⟨2, ![N, D]⟩ [1] [0] [0] 1)
    (r : Fin N) (k' : Fin D) (idx : IVec ⟨2, ![N, 1]⟩ w) (g : Fin G) (k : Fin D) :
    (d2 wf).resultIdx? (ix2 r k') idx = some (ix2 g k)
      ↔ (idx (ix2 r (0 : Fin 1))).toInt = (g.val : ℤ) ∧ k' = k := by
  have h0 : (d2 wf).start (ix2 r k') idx 0 + (d2 wf).window (ix2 r k') 0 = (idx (ix2 r (0 : Fin 1))).toInt := by
    rw [start2_0, window2_0]; simp
  have h1 : (d2 wf).start (ix2 r k') idx 1 + (d2 wf).window (ix2 r k') 1 = (k'.val : ℤ) := by
    rw [start2_1, window2_1]; simp
  unfold ScatterDims.resultIdx?
  split
  · rename_i h
    rw [Option.some.injEq]
    constructor
    · intro e
      have e0 : ((d2 wf).start (ix2 r k') idx 0 + (d2 wf).window (ix2 r k') 0).toNat = g.val :=
        congrArg (fun f => (f 0).val) e
      have e1 : ((d2 wf).start (ix2 r k') idx 1 + (d2 wf).window (ix2 r k') 1).toNat = k.val :=
        congrArg (fun f => (f 1).val) e
      have p0 := (h 0).1
      rw [h0] at e0 p0
      rw [h1] at e1
      exact ⟨by omega, Fin.ext (by omega)⟩
    · rintro ⟨hg, hk⟩
      funext a
      match a with
      | ⟨0, _⟩ =>
        apply Fin.ext
        show ((d2 wf).start (ix2 r k') idx 0 + (d2 wf).window (ix2 r k') 0).toNat = g.val
        rw [h0, hg]; simp
      | ⟨1, _⟩ =>
        apply Fin.ext
        show ((d2 wf).start (ix2 r k') idx 1 + (d2 wf).window (ix2 r k') 1).toNat = k.val
        rw [h1, hk]; simp
  · rename_i h
    constructor
    · intro e; exact absurd e (by simp)
    · rintro ⟨hg, hk⟩
      exfalso; apply h
      intro a
      match a with
      | ⟨0, _⟩ =>
        show 0 ≤ (d2 wf).start (ix2 r k') idx 0 + (d2 wf).window (ix2 r k') 0
          ∧ (d2 wf).start (ix2 r k') idx 0 + (d2 wf).window (ix2 r k') 0 < (G : ℤ)
        rw [h0, hg]
        have := g.isLt
        omega
      | ⟨1, _⟩ =>
        show 0 ≤ (d2 wf).start (ix2 r k') idx 1 + (d2 wf).window (ix2 r k') 1
          ∧ (d2 wf).start (ix2 r k') idx 1 + (d2 wf).window (ix2 r k') 1 < (D : ℤ)
        rw [h1]
        have := k'.isLt
        omega

/-- The scatter-add at `(g, k)` with the four lists written out: the filtered sum over update indices is the sum
    over rows of the rows numbered `g`, the inner sum over columns collapsing at `k`. -/
private theorem rows2 {N G D w : ℕ} (wf : ScatterDims.WF ⟨2, ![G, D]⟩ ⟨2, ![N, 1]⟩ ⟨2, ![N, D]⟩ [1] [0] [0] 1)
    (x : (⟨2, ![G, D]⟩ : Shape).Idx → EReal) (idx : IVec ⟨2, ![N, 1]⟩ w) (upd : (⟨2, ![N, D]⟩ : Shape).Idx → EReal)
    (g : Fin G) (k : Fin D) :
    Ideal.hostScatterAdd (d2 wf) x idx upd (ix2 g k)
      = x (ix2 g k) + ∑ r : Fin N, if (idx (ix2 r (0 : Fin 1))).toInt = (g.val : ℤ) then upd (ix2 r k) else 0 := by
  unfold Ideal.hostScatterAdd
  congr 1
  rw [Finset.sum_filter, sum_idx2]
  refine Finset.sum_congr rfl fun r _ => ?_
  simp only [resultIdx2]
  by_cases hg : (idx (ix2 r (0 : Fin 1))).toInt = (g.val : ℤ)
  · simp only [hg, true_and, if_true]
    rw [Finset.sum_ite_eq' Finset.univ k (fun b => upd (ix2 r b))]
    simp
  · simp [hg]

/-- Rank-2 updates `[N, D]` added by row into `[G, D]`: entry `(g, k)` gains the rows numbered `g`, at column `k`. -/
theorem scatterAdd_rows2 {N G D w : ℕ} (d : ScatterDims ⟨2, ![G, D]⟩ ⟨2, ![N, 1]⟩ ⟨2, ![N, D]⟩)
    (hu : d.updateWindowDims = [1]) (hi : d.insertedWindowDims = [0]) (hs : d.scatterDimsToOperandDims = [0])
    (hv : d.indexVectorDim = 1)
    (x : (⟨2, ![G, D]⟩ : Shape).Idx → EReal) (idx : IVec ⟨2, ![N, 1]⟩ w) (upd : (⟨2, ![N, D]⟩ : Shape).Idx → EReal)
    (g : Fin G) (k : Fin D) :
    Ideal.hostScatterAdd d x idx upd (ix2 g k)
      = x (ix2 g k) + ∑ r : Fin N, if (idx (ix2 r (0 : Fin 1))).toInt = (g.val : ℤ) then upd (ix2 r k) else 0 := by
  obtain ⟨uw, iw, sd, iv, wf⟩ := d
  dsimp only at hu hi hs hv
  subst hu hi hs hv
  exact rows2 wf x idx upd g k

/-! ## Rank-1 updates -/

/-- A sum over a rank-1 index set is the sum over its coordinate. -/
private theorem sum_idx1 {M : Type*} [AddCommMonoid M] {n : ℕ} (f : (⟨1, ![n]⟩ : Shape).Idx → M) :
    ∑ i, f i = ∑ a : Fin n, f (ix1 a) := by
  let e : (⟨1, ![n]⟩ : Shape).Idx ≃ Fin n :=
    ⟨fun i => i 0, ix1, fun i => (eq_ix1 i).symm, fun _ => rfl⟩
  exact (Equiv.sum_comp e.symm f).symm

/-- The dimension numbers `update_window_dims = []`, `inserted_window_dims = [0]`,
    `scatter_dims_to_operand_dims = [0]`, `index_vector_dim = 1` over `[G]`, `[N, 1]`, `[N]`. -/
private abbrev d1 {N G : ℕ} (wf : ScatterDims.WF ⟨1, ![G]⟩ ⟨2, ![N, 1]⟩ ⟨1, ![N]⟩ [] [0] [0] 1) :
    ScatterDims ⟨1, ![G]⟩ ⟨2, ![N, 1]⟩ ⟨1, ![N]⟩ := ⟨[], [0], [0], 1, wf⟩

/-- Update `r` reads its one start component at `(r, 0)` of the index array. -/
private theorem siIdx1 {N G : ℕ} (wf : ScatterDims.WF ⟨1, ![G]⟩ ⟨2, ![N, 1]⟩ ⟨1, ![N]⟩ [] [0] [0] 1)
    (r : Fin N) (c) :
    (d1 wf).siIdx (ix1 r) c = ix2 r (0 : Fin 1) := by
  funext b
  match b with
  | ⟨0, _⟩ =>
    apply Fin.ext
    rfl
  | ⟨1, _⟩ =>
    apply Fin.ext
    simp [ScatterDims.siIdx]

/-- The window starts at the row's number, read signed. -/
private theorem start1_0 {N G w : ℕ} (wf : ScatterDims.WF ⟨1, ![G]⟩ ⟨2, ![N, 1]⟩ ⟨1, ![N]⟩ [] [0] [0] 1)
    (r : Fin N) (idx : IVec ⟨2, ![N, 1]⟩ w) :
    (d1 wf).start (ix1 r) idx 0 = (idx (ix2 r (0 : Fin 1))).toInt := by
  unfold ScatterDims.start
  rw [dif_pos (of_decide_eq_true rfl)]
  rw [siIdx1]

/-- The one operand axis is inserted: its window coordinate is `0`. -/
private theorem window1_0 {N G : ℕ} (wf : ScatterDims.WF ⟨1, ![G]⟩ ⟨2, ![N, 1]⟩ ⟨1, ![N]⟩ [] [0] [0] 1)
    (r : Fin N) :
    (d1 wf).window (ix1 r) 0 = 0 := by
  unfold ScatterDims.window
  rw [dif_neg (of_decide_eq_true rfl)]

/-- Update `r` lands at `g` exactly when row `r`'s number is `g`. -/
private theorem resultIdx1 {N G w : ℕ} (wf : ScatterDims.WF ⟨1, ![G]⟩ ⟨2, ![N, 1]⟩ ⟨1, ![N]⟩ [] [0] [0] 1)
    (r : Fin N) (idx : IVec ⟨2, ![N, 1]⟩ w) (g : Fin G) :
    (d1 wf).resultIdx? (ix1 r) idx = some (ix1 g) ↔ (idx (ix2 r (0 : Fin 1))).toInt = (g.val : ℤ) := by
  have h0 : (d1 wf).start (ix1 r) idx 0 + (d1 wf).window (ix1 r) 0 = (idx (ix2 r (0 : Fin 1))).toInt := by
    rw [start1_0, window1_0]; simp
  unfold ScatterDims.resultIdx?
  split
  · rename_i h
    rw [Option.some.injEq]
    constructor
    · intro e
      have e0 : ((d1 wf).start (ix1 r) idx 0 + (d1 wf).window (ix1 r) 0).toNat = g.val :=
        congrArg (fun f => (f 0).val) e
      have p0 := (h 0).1
      rw [h0] at e0 p0
      omega
    · intro hg
      funext a
      match a with
      | ⟨0, _⟩ =>
        apply Fin.ext
        show ((d1 wf).start (ix1 r) idx 0 + (d1 wf).window (ix1 r) 0).toNat = g.val
        rw [h0, hg]; simp
  · rename_i h
    constructor
    · intro e; exact absurd e (by simp)
    · intro hg
      exfalso; apply h
      intro a
      match a with
      | ⟨0, _⟩ =>
        show 0 ≤ (d1 wf).start (ix1 r) idx 0 + (d1 wf).window (ix1 r) 0
          ∧ (d1 wf).start (ix1 r) idx 0 + (d1 wf).window (ix1 r) 0 < (G : ℤ)
        rw [h0, hg]
        have := g.isLt
        omega

/-- The scatter-add at `g` with the four lists written out. -/
private theorem rows1 {N G w : ℕ} (wf : ScatterDims.WF ⟨1, ![G]⟩ ⟨2, ![N, 1]⟩ ⟨1, ![N]⟩ [] [0] [0] 1)
    (x : (⟨1, ![G]⟩ : Shape).Idx → EReal) (idx : IVec ⟨2, ![N, 1]⟩ w) (upd : (⟨1, ![N]⟩ : Shape).Idx → EReal)
    (g : Fin G) :
    Ideal.hostScatterAdd (d1 wf) x idx upd (ix1 g)
      = x (ix1 g) + ∑ r : Fin N, if (idx (ix2 r (0 : Fin 1))).toInt = (g.val : ℤ) then upd (ix1 r) else 0 := by
  unfold Ideal.hostScatterAdd
  congr 1
  rw [Finset.sum_filter, sum_idx1]
  refine Finset.sum_congr rfl fun r _ => ?_
  simp only [resultIdx1]

/-- Rank-1 updates `[N]` added by row into `[G]`: entry `g` gains the rows numbered `g`. -/
theorem scatterAdd_rows1 {N G w : ℕ} (d : ScatterDims ⟨1, ![G]⟩ ⟨2, ![N, 1]⟩ ⟨1, ![N]⟩)
    (hu : d.updateWindowDims = []) (hi : d.insertedWindowDims = [0]) (hs : d.scatterDimsToOperandDims = [0])
    (hv : d.indexVectorDim = 1)
    (x : (⟨1, ![G]⟩ : Shape).Idx → EReal) (idx : IVec ⟨2, ![N, 1]⟩ w) (upd : (⟨1, ![N]⟩ : Shape).Idx → EReal)
    (g : Fin G) :
    Ideal.hostScatterAdd d x idx upd (ix1 g)
      = x (ix1 g) + ∑ r : Fin N, if (idx (ix2 r (0 : Fin 1))).toInt = (g.val : ℤ) then upd (ix1 r) else 0 := by
  obtain ⟨uw, iw, sd, iv, wf⟩ := d
  dsimp only at hu hi hs hv
  subst hu hi hs hv
  exact rows1 wf x idx upd g

/-! ## Over the host operation, with the row numbers given by a function -/

/-- The 32-bit word of a number below `G ≤ 2 ^ 31` reads, signed, as that number: it is `g`'s exactly when the
    numbers agree. -/
private theorem toInt_word_eq_iff {G : ℕ} (hG : G ≤ 2 ^ 31) (a g : Fin G) :
    (BitVec.ofNat 32 a.val).toInt = (g.val : ℤ) ↔ a = g := by
  have ha : a.val < 2 ^ 31 := lt_of_lt_of_le a.isLt hG
  have hn : (BitVec.ofNat 32 a.val).toNat = a.val := by
    rw [BitVec.toNat_ofNat]; exact Nat.mod_eq_of_lt (by omega)
  have ht : (BitVec.ofNat 32 a.val).toInt = (a.val : ℤ) := by
    rw [BitVec.toInt_eq_toNat_cond, hn, if_pos (by omega)]
  rw [ht]
  constructor
  · intro h; exact Fin.ext (by exact_mod_cast h)
  · intro h; rw [h]

/-- The host's accumulating scatter of rank-2 updates, the index array holding the words of a row → segment
    function `γ`: entry `(g, k)` gains column `k` of the rows of segment `g`. -/
theorem host_rows2 {N G D : ℕ} (d : ScatterDims ⟨2, ![G, D]⟩ ⟨2, ![N, 1]⟩ ⟨2, ![N, D]⟩)
    (hu : d.updateWindowDims = [1]) (hi : d.insertedWindowDims = [0]) (hs : d.scatterDimsToOperandDims = [0])
    (hv : d.indexVectorDim = 1)
    (x : FVec Ideal ⟨2, ![G, D]⟩ .f32) (idx : IVec ⟨2, ![N, 1]⟩ 32) (upd : FVec Ideal ⟨2, ![N, D]⟩ .f32)
    (γ : Fin N → Fin G) (hG : G ≤ 2 ^ 31)
    (hγ : ∀ r : Fin N, idx (ix2 r (0 : Fin 1)) = BitVec.ofNat 32 (γ r).val) (g : Fin G) (k : Fin D) :
    Host.scatterAdd (F := Ideal) d x idx upd (ix2 g k)
      = x (ix2 g k) + ∑ r : Fin N, if γ r = g then upd (ix2 r k) else 0 :=
  (scatterAdd_rows2 d hu hi hs hv x idx upd g k).trans
    (congrArg (fun t : EReal => x (ix2 g k) + t)
      (Finset.sum_congr rfl fun r _ =>
        if_congr ((congrArg (fun b : BitVec 32 => b.toInt = (g.val : ℤ)) (hγ r)).to_iff.trans
          (toInt_word_eq_iff hG (γ r) g)) rfl rfl))

/-- The host's accumulating scatter of rank-1 updates, the index array holding the words of a row → segment
    function `γ`: entry `g` gains the rows of segment `g`. -/
theorem host_rows1 {N G : ℕ} (d : ScatterDims ⟨1, ![G]⟩ ⟨2, ![N, 1]⟩ ⟨1, ![N]⟩)
    (hu : d.updateWindowDims = []) (hi : d.insertedWindowDims = [0]) (hs : d.scatterDimsToOperandDims = [0])
    (hv : d.indexVectorDim = 1)
    (x : FVec Ideal ⟨1, ![G]⟩ .f32) (idx : IVec ⟨2, ![N, 1]⟩ 32) (upd : FVec Ideal ⟨1, ![N]⟩ .f32)
    (γ : Fin N → Fin G) (hG : G ≤ 2 ^ 31)
    (hγ : ∀ r : Fin N, idx (ix2 r (0 : Fin 1)) = BitVec.ofNat 32 (γ r).val) (g : Fin G) :
    Host.scatterAdd (F := Ideal) d x idx upd (ix1 g)
      = x (ix1 g) + ∑ r : Fin N, if γ r = g then upd (ix1 r) else 0 :=
  (scatterAdd_rows1 d hu hi hs hv x idx upd g).trans
    (congrArg (fun t : EReal => x (ix1 g) + t)
      (Finset.sum_congr rfl fun r _ =>
        if_congr ((congrArg (fun b : BitVec 32 => b.toInt = (g.val : ℤ)) (hγ r)).to_iff.trans
          (toInt_word_eq_iff hG (γ r) g)) rfl rfl))

end Cert.ScatterRows

end
-- ==== Proof.LibGatherRows.lean ====
/-
  A host gather whose index operand holds ONE row number per gathered row, read at an index, and the link between a
  32-bit index word read as a signed integer and a small row number.

  `table[idx]`-style reading: the gathered row `r` is the table's row `idx[r, 0]` (the start index clamped into
  range, which is the identity on a row number already in range).
-/
import Idealize.ShloMosaic.PureOps.Ideal
import Idealize.ShloMosaic.Lib.ValueIdx

noncomputable section

namespace Cert.GatherRows

open Idealize.ShloMosaic Idealize.ShloMosaic.ValueIdx

/-- A 32-bit word read as a signed integer is the graph number `g < 256` exactly when it is that number's word. -/
theorem toInt_eq_iff (b : BitVec 32) (g : Fin 256) : b.toInt = (g.val : ℤ) ↔ b = BitVec.ofNat 32 g.val := by
  have hg := g.isLt
  have hb := b.isLt
  have hmod : g.val % 2 ^ 32 = g.val := Nat.mod_eq_of_lt (by omega)
  constructor
  · intro h
    apply BitVec.eq_of_toNat_eq
    rw [BitVec.toNat_ofNat, hmod]
    rw [BitVec.toInt_eq_toNat_cond] at h
    split at h <;> omega
  · intro h
    subst h
    rw [BitVec.toInt_eq_toNat_cond, BitVec.toNat_ofNat, hmod]
    split <;> omega

/-- Rows of a `[G, D]` table gathered by an `[N, 1]` index array whose entry for row `r` is the word of `γ r < G`:
    gathered entry `(r, k)` is the table's entry `(γ r, k)`. -/
theorem gather_rows {N G D w : ℕ} {α : Type} (d : GatherDims ⟨2, ![G, D]⟩ ⟨2, ![N, 1]⟩ ⟨2, ![N, D]⟩)
    (ho : d.offsetDims = [1]) (hc : d.collapsedSliceDims = [0]) (hb : d.operandBatchingDims = [])
    (hsb : d.startIndicesBatchingDims = []) (hm : d.startIndexMap = [0]) (hv : d.indexVectorDim = 1)
    (hsz : d.sliceSizes = ![1, D])
    (x : (⟨2, ![G, D]⟩ : Shape).Idx → α) (idx : IVec ⟨2, ![N, 1]⟩ w) (γ : Fin N → Fin G)
    (hγ : ∀ r : Fin N, (idx (ix2 r (0 : Fin 1))).toInt = ((γ r).val : ℤ)) (r : Fin N) (k : Fin D) :
    Host.gather d x idx (ix2 r k) = x (ix2 (γ r) k) := by
  obtain ⟨od, cd, ob, sb, sm, iv, ss, wf⟩ := d
  dsimp only at ho hc hb hsb hm hv hsz
  subst ho hc hb hsb hm hv hsz
  have hlt := (γ r).isLt
  have h10 : (1 : Fin 2) ≠ 0 := by decide
  -- the clamp of a row number already in range is that row number
  have key : ∀ p : (⟨2, ![N, 1]⟩ : Shape).Idx, p = ix2 r (0 : Fin 1) →
      min (idx p).toInt.toNat (G - 1) = (γ r).val := by
    intro p hp
    subst hp
    rw [hγ r, Int.toNat_natCast]
    omega
  unfold Host.gather
  congr 1
  funext a
  refine Fin.ext ?_
  match a with
  | ⟨0, _⟩ =>
    -- axis 0 is collapsed: no batching, no offset, the start is the clamped row number
    show GatherDims.start _ (ix2 r k) idx 0 + GatherDims.batchCoord _ (ix2 r k) 0 + GatherDims.offCoord _ (ix2 r k) 0 = (γ r).val
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (List.mem_singleton.mpr rfl)]
    refine key _ ?_
    funext b
    refine Fin.ext ?_
    match b with
    | ⟨0, _⟩ => rfl
    | ⟨1, _⟩ => rfl
  | ⟨1, _⟩ =>
    -- axis 1 is the offset axis: start 0, no batching, the offset is the column
    show GatherDims.start _ (ix2 r k) idx 1 + GatherDims.batchCoord _ (ix2 r k) 1 + GatherDims.offCoord _ (ix2 r k) 1 = k.val
    rw [GatherDims.batchCoord_eq_zero _ _ _ List.not_mem_nil]
    unfold GatherDims.start
    rw [dif_neg (fun h => absurd (List.mem_singleton.mp h) h10)]
    unfold GatherDims.offCoord
    rw [dif_pos ((GatherDims.mem_sKept _ _).mpr ⟨fun h => absurd (List.mem_singleton.mp h) h10, List.not_mem_nil⟩)]
    simp only [Nat.zero_add, Nat.add_zero]
    rfl

end Cert.GatherRows

end
-- ==== Proof.KHost.lean ====
import proofs.«418891_j10033043604048_3_alg».proof.Proof.Gen.KernelIdeal.Frame
import proofs.«418891_j10033043604048_3_alg».proof.Proof.Spec
import proofs.«418891_j10033043604048_3_alg».proof.Proof.LibColumns
import proofs.«418891_j10033043604048_3_alg».proof.Proof.LibScatterRows
import proofs.«418891_j10033043604048_3_alg».proof.Proof.LibGatherRows
import Idealize.ShloMosaic.Lib.Pipeline.Value
import Idealize.ShloMosaic.Lib.StableHlo.Run
import Idealize.ShloMosaic.Lib.ValueIdx
import Idealize.ShloMosaic.Lib.ValueLayout
import Idealize.ShloMosaic.PureOps.Ideal.Laws

noncomputable section

namespace Cert.KernelIdeal.Host

open Cert.KernelIdeal Cert.KernelIdeal.Gen Idealize.ShloMosaic Idealize.ShloMosaic.TcCoe Idealize.SL.Sem
open Idealize.ShloMosaic.ValueIdx

variable (m : (ℓ : Loc nD τ sig) → Buf (Elt Ideal) ℓ) (ρ : Dev nD → PrngReg)

/-- The five inputs as launched, at their literal types. -/
abbrev X (c : Dev nD) : S1000000x128.Idx → EReal := m ((c : Thread nD τ).loc main_arg0)
abbrev Bw (c : Dev nD) : S1000000.Idx → BitVec 32 := m ((c : Thread nD τ).loc main_arg1)
abbrev Wt (c : Dev nD) : S128.Idx → EReal := m ((c : Thread nD τ).loc main_arg2)
abbrev Bs (c : Dev nD) : S128.Idx → EReal := m ((c : Thread nD τ).loc main_arg3)
abbrev Cs (c : Dev nD) : S128.Idx → EReal := m ((c : Thread nD τ).loc main_arg4)

/-- The two accumulated arrays as the accumulating pass leaves them. -/
abbrev S2 (c : Dev nD) : S2x256x128.Idx → EReal := V2 m ρ c main_v1_0
abbrev Q2 (c : Dev nD) : S2x256x128.Idx → EReal := V2 m ρ c main_v1_1

/-! ## The buffers the host stretches leave alone -/

/-- A buffer the first stretch does not write is as launched. -/
private theorem W1_of_ne (c : Dev nD) (b : Ref sig .tc) (hb : b ≠ main_v0) :
    W1 m ρ c (Proc.devRef .tc b) = m ((c : Thread nD τ).loc b) :=
  StableHlo.after_of_forall_not_mem (b := Proc.devRef .tc b) _ _ (List.forall_iff_forall_mem.mp (by
    simp only [hostOps0, List.Forall, StableHlo.reshape_writes, Finset.mem_singleton]
    exact StableHlo.devRef_ne_of_ne hb))

/-- The index words cast to a column, as the first stretch leaves them, read the words. -/
private theorem W1_v0 (c : Dev nD) (r : Fin 1000000) :
    (W1 m ρ c (Proc.devRef .tc main_v0) : S1000000x1.Idx → BitVec 32) (ix2 r (0 : Fin 1)) = Bw m c (ix1 r) := by
  show StableHlo.after hostOps0 (W0 m ρ c) (Proc.devRef .tc main_v0) (ix2 r (0 : Fin 1)) = _
  after_results
  exact Cert.Columns.shapeCast_a_a1_apply _ _ r 0

/-- A reference no operation of the second stretch writes keeps its contents: the references are told apart one by one. -/
local macro "not_written1" : tactic =>
  `(tactic| (refine StableHlo.after_of_forall_not_mem _ _ (List.forall_iff_forall_mem.mp ?_)
             simp only [hostOps1, List.Forall, StableHlo.nullary_writes, StableHlo.unary_writes, StableHlo.binary_writes,
               StableHlo.ternary_writes, StableHlo.reshape_writes, Finset.mem_singleton]
             repeat' apply And.intro
             all_goals exact StableHlo.devRef_ne_of_ne (by decide)))

private theorem W3_arg0 (c : Dev nD) : W3 m ρ c (Proc.devRef .tc main_arg0) = W2 m ρ c (Proc.devRef .tc main_arg0) := by
  not_written1
private theorem W3_v0 (c : Dev nD) : W3 m ρ c (Proc.devRef .tc main_v0) = W2 m ρ c (Proc.devRef .tc main_v0) := by
  not_written1

/-! ## What each pass finds in its input arrays -/

theorem V1_arg0 (c : Dev nD) : (V1 m ρ c main_arg0 : S1000000x128.Idx → EReal) = X m c := by
  exact W1_of_ne m ρ c main_arg0 (by decide)
theorem V1_v0 (c : Dev nD) (r : Fin 1000000) :
    (V1 m ρ c main_v0 : S1000000x1.Idx → BitVec 32) (ix2 r (0 : Fin 1)) = Bw m c (ix1 r) := by
  exact W1_v0 m ρ c r
theorem V3_arg0 (c : Dev nD) : (V3 m ρ c main_arg0 : S1000000x128.Idx → EReal) = X m c := by
  exact (W3_arg0 m ρ c).trans (((W2_arr m ρ c 0).trans (((dat0 (V1 m ρ) c).arrAt_in 0 rfl _).trans (A_eq0 (V1 m ρ) c 0))).trans
    (W1_of_ne m ρ c main_arg0 (by decide)))
theorem V3_v0 (c : Dev nD) (r : Fin 1000000) :
    (V3 m ρ c main_v0 : S1000000x1.Idx → BitVec 32) (ix2 r (0 : Fin 1)) = Bw m c (ix1 r) := by
  have e : W3 m ρ c (Proc.devRef .tc main_v0) = W1 m ρ c (Proc.devRef .tc main_v0) :=
    (W3_v0 m ρ c).trans ((W2_arr m ρ c 1).trans (((dat0 (V1 m ρ) c).arrAt_in 1 rfl _).trans (A_eq0 (V1 m ρ) c 1)))
  exact (congrFun e (ix2 r (0 : Fin 1))).trans (W1_v0 m ρ c r)

/-! ## The second stretch of host operations as one term over what it reads -/

section Terms

variable (S Q : FVec Ideal S2x256x128 .f32) (B : IVec S1000000 32) (W Bi C : FVec Ideal S128 .f32)

/-- The two halves of an accumulated array added, from zero. -/
abbrev tSum : FVec Ideal S256x128 .f32 :=
  Host.reduceAdd (F := Ideal) S (constant (F := Ideal) S_ .f32 0x00000000#32) reducesTo_S2x256x128_S256x128_d0 h_S_
/-- Rows per graph, from zero. -/
abbrev tCnt : FVec Ideal S256 .f32 :=
  Host.scatterAdd (F := Ideal) scatter_S256_S1000000x1_S1000000_n_0_0_1
    (broadcastInDim S256 ![] bcast_S_S256 (constant (F := Ideal) S_ .f32 0x00000000#32))
    (broadcastInDim S1000000x1 ![0] bcast_S1000000_S1000000x1_0 B)
    (broadcastInDim S1000000 ![] bcast_S_S1000000 (constant (F := Ideal) S_ .f32 0x3F800000#32))
/-- The divisor: the count, at least one. -/
abbrev tN : FVec Ideal S256 .f32 :=
  maximumf (tCnt B) (broadcastInDim S256 ![] bcast_S_S256 (constant (F := Ideal) S_ .f32 0x3F800000#32))
/-- The divisor as a column, over the features. -/
abbrev tNb : FVec Ideal S256x128 .f32 :=
  broadcastInDim S256x128 ![0, 1] bcast_S256x1_S256x128_0_1 (shapeCast S256x1 (tN B) shapeCasts_S256_S256x1)
abbrev tMean : FVec Ideal S256x128 .f32 := Host.divf (tSum S) (tNb B)
abbrev tEx2 : FVec Ideal S256x128 .f32 := Host.divf (tSum Q) (tNb B)
/-- A feature vector as one row. -/
abbrev tC1 (x : FVec Ideal S128 .f32) : FVec Ideal S1x128 .f32 := shapeCast S1x128 x shapeCasts_S128_S1x128
/-- A feature vector as one row, over the graphs. -/
abbrev tRow (x : FVec Ideal S128 .f32) : FVec Ideal S256x128 .f32 :=
  broadcastInDim S256x128 ![0, 1] bcast_S1x128_S256x128_0_1 (tC1 x)
/-- The factor `c² − 2c`, over the graphs. -/
abbrev tCcB : FVec Ideal S256x128 .f32 :=
  broadcastInDim S256x128 ![0, 1] bcast_S1x128_S256x128_0_1
    (subf (mulf (tC1 C) (tC1 C))
      (mulf (broadcastInDim S1x128 ![] bcast_S_S1x128 (constant (F := Ideal) S_ .f32 0x40000000#32)) (tC1 C)))
abbrev tVar : FVec Ideal S256x128 .f32 :=
  maximumf (addf (tEx2 Q B) (mulf (mulf (tMean S B) (tMean S B)) (tCcB C)))
    (broadcastInDim S256x128 ![] bcast_S_S256x128 (constant (F := Ideal) S_ .f32 0x00000000#32))
abbrev tIstd : FVec Ideal S256x128 .f32 :=
  Host.divf (broadcastInDim S256x128 ![] bcast_S_S256x128 (constant (F := Ideal) S_ .f32 0x3F800000#32))
    (Host.sqrt (addf (tVar S Q B C)
      (broadcastInDim S256x128 ![] bcast_S_S256x128 (constant (F := Ideal) S_ .f32 0x358637BD#32))))
abbrev tA : FVec Ideal S256x128 .f32 := mulf (tRow W) (tIstd S Q B C)
abbrev tB : FVec Ideal S256x128 .f32 :=
  subf (tRow Bi) (mulf (mulf (tRow W) (mulf (tMean S B) (tRow C))) (tIstd S Q B C))
abbrev tAB : FVec Ideal S256x256 .f32 :=
  concatenate S256x256 1 [⟨S256x128, tA S Q B W C⟩, ⟨S256x128, tB S Q B W Bi C⟩] concatenates_S256x128_S256x128_S256x256_d1
abbrev tHi : FVec Ideal S256x256 .bf16 := truncf .bf16 (tAB S Q B W Bi C) bitsLt_bf16_f32
abbrev tLo : FVec Ideal S256x256 .bf16 :=
  truncf .bf16 (subf (tAB S Q B W Bi C) (extf .f32 (tHi S Q B W Bi C) bitsLt_bf16_f32)) bitsLt_bf16_f32
abbrev tTab : FVec Ideal S256x512 .bf16 :=
  concatenate S256x512 1 [⟨S256x256, tHi S Q B W Bi C⟩, ⟨S256x256, tLo S Q B W Bi C⟩] concatenates_S256x256_S256x256_S256x512_d1

/-! ### The sum of the two halves -/

private theorem drop_ix3 (k : Fin 2) (g : Fin 256) (d : Fin 128) :
    reducesTo_S2x256x128_S256x128_d0.drop (ix3 k g d) = ix2 g d := by
  funext b
  match b with
  | ⟨0, _⟩ => rfl
  | ⟨1, _⟩ => rfl

/-- The two indices that drop to `(g, d)`. -/
private def halfEmb (g : Fin 256) (d : Fin 128) : Fin 2 ↪ S2x256x128.Idx :=
  ⟨fun k => ix3 k g d, fun k k' h => by have := congrFun h 0; exact this⟩

private theorem filter_drop (g : Fin 256) (d : Fin 128) :
    Finset.univ.filter (fun i : S2x256x128.Idx => reducesTo_S2x256x128_S256x128_d0.drop i = ix2 g d)
      = Finset.univ.map (halfEmb g d) := by
  ext i
  simp only [Finset.mem_filter, Finset.mem_univ, true_and, Finset.mem_map, halfEmb, Function.Embedding.coeFn_mk]
  constructor
  · intro h
    refine ⟨i 0, ?_⟩
    funext a
    match a with
    | ⟨0, _⟩ => rfl
    | ⟨1, _⟩ => exact (congrFun h 0).symm
    | ⟨2, _⟩ => exact (congrFun h 1).symm
  · rintro ⟨k, rfl⟩
    exact drop_ix3 k g d

theorem tSum_apply (g : Fin 256) (d : Fin 128) : tSum S (ix2 g d) = GraphNorm.sumK S g d := by
  show Ideal.hostReduceAdd _ S _ (ix2 g d) = _
  unfold Ideal.hostReduceAdd
  rw [filter_drop, Finset.sum_map, Fin.sum_univ_two]
  rfl

/-! ### The count and the divisor -/

/-- The scatter of rows into graphs at a graph: what was there plus the rows numbered by it. -/
theorem cnt_core (x : FVec Ideal S256 .f32) (idx : IVec S1000000x1 32) (upd : FVec Ideal S1000000 .f32) (g : Fin 256) :
    Host.scatterAdd (F := Ideal) scatter_S256_S1000000x1_S1000000_n_0_0_1 x idx upd (ix1 g)
      = x (ix1 g) + ∑ r : Fin 1000000, if (idx (ix2 r (0 : Fin 1))).toInt = (g.val : ℤ) then upd (ix1 r) else 0 :=
  Cert.ScatterRows.scatterAdd_rows1 (N := 1000000) (G := 256) scatter_S256_S1000000x1_S1000000_n_0_0_1
    rfl rfl rfl rfl x idx upd g

/-- A literal broadcast from the scalar shape reads the literal everywhere. -/
theorem lit_apply (t : Shape) (dims : Fin S_.rank → Fin t.rank) (h : S_.BroadcastsInDim t dims) (b : BitVec 32) (j : t.Idx) :
    broadcastInDim t dims h (constant (F := Ideal) S_ .f32 b) j = Ideal.ofBits .f32 b := rfl

/-- The index words as a column read the words. -/
theorem idx_col (r : Fin 1000000) :
    broadcastInDim S1000000x1 ![0] bcast_S1000000_S1000000x1_0 B (ix2 r (0 : Fin 1)) = B (ix1 r) := by
  refine broadcastInDim_apply ![0] bcast_S1000000_S1000000x1_0 B (ix2 r (0 : Fin 1)) (ix1 r) ?_
  intro a
  match a with
  | ⟨0, _⟩ =>
    show r.val = if (1000000 : ℕ) = 1 then 0 else r.val
    rw [if_neg (by decide)]

/-- A column broadcast over the features reads the column at the graph. -/
theorem col_apply (v : FVec Ideal S256x1 .f32) (g : Fin 256) (d : Fin 128) :
    broadcastInDim S256x128 ![0, 1] bcast_S256x1_S256x128_0_1 v (ix2 g d) = v (ix2 g (0 : Fin 1)) := by
  refine broadcastInDim_apply ![0, 1] bcast_S256x1_S256x128_0_1 v (ix2 g d) (ix2 g (0 : Fin 1)) ?_
  intro a
  match a with
  | ⟨0, _⟩ =>
    show g.val = if (256 : ℕ) = 1 then 0 else g.val
    rw [if_neg (by decide)]
  | ⟨1, _⟩ =>
    show (0 : ℕ) = if (1 : ℕ) = 1 then 0 else d.val
    rw [if_pos rfl]

/-- A per-graph vector as a column reads the vector at the graph. -/
theorem tN1_apply (x : FVec Ideal S256 .f32) (g : Fin 256) :
    shapeCast S256x1 x shapeCasts_S256_S256x1 (ix2 g (0 : Fin 1)) = x (ix1 g) :=
  Cert.Columns.shapeCast_a_a1_apply x shapeCasts_S256_S256x1 g 0

section Count
variable (γ : Fin 1000000 → Fin 256) (hγ : ∀ r : Fin 1000000, B (ix1 r) = GraphNorm.gw (γ r))
include hγ

theorem cnt_key (g : Fin 256) (r : Fin 1000000) : (B (ix1 r)).toInt = (g.val : ℤ) ↔ γ r = g := by
  rw [hγ r, (Cert.GatherRows.toInt_eq_iff (GraphNorm.gw (γ r)) (γ r)).mpr rfl]
  constructor
  · intro h; exact Fin.ext (by exact_mod_cast h)
  · intro h; rw [h]

theorem tCnt_apply (g : Fin 256) : tCnt B (ix1 g) = GraphNorm.cnt γ g := by
  refine (cnt_core _ _ _ g).trans ?_
  unfold GraphNorm.cnt GraphNorm.segSum GraphNorm.zero GraphNorm.one
  refine congrArg₂ (· + ·) (lit_apply _ _ _ _ _) (Finset.sum_congr rfl fun r _ => ?_)
  rw [idx_col B r]
  exact if_congr (cnt_key B γ hγ g r) (lit_apply _ _ _ _ _) rfl

theorem tN_apply (g : Fin 256) : tN B (ix1 g) = GraphNorm.nOf γ g := by
  unfold tN GraphNorm.nOf GraphNorm.one
  rw [maximumf_apply, tCnt_apply B γ hγ g, lit_apply]

theorem tNb_apply (g : Fin 256) (d : Fin 128) : tNb B (ix2 g d) = GraphNorm.nOf γ g :=
  (col_apply (shapeCast S256x1 (tN B) shapeCasts_S256_S256x1) g d).trans
    ((tN1_apply (tN B) g).trans (tN_apply B γ hγ g))
end Count

/-! ### Rows broadcast over the graphs -/

/-- One row broadcast over the graphs reads the row. -/
theorem row_apply (v : FVec Ideal S1x128 .f32) (g : Fin 256) (d : Fin 128) :
    broadcastInDim S256x128 ![0, 1] bcast_S1x128_S256x128_0_1 v (ix2 g d) = v (ix2 (0 : Fin 1) d) := by
  refine broadcastInDim_apply ![0, 1] bcast_S1x128_S256x128_0_1 v (ix2 g d) (ix2 (0 : Fin 1) d) ?_
  intro a
  match a with
  | ⟨0, _⟩ =>
    show (0 : ℕ) = if (1 : ℕ) = 1 then 0 else g.val
    rw [if_pos rfl]
  | ⟨1, _⟩ =>
    show d.val = if (128 : ℕ) = 1 then 0 else d.val
    rw [if_neg (by decide)]

theorem tC1_apply (x : FVec Ideal S128 .f32) (d : Fin 128) : tC1 x (ix2 (0 : Fin 1) d) = x (ix1 d) :=
  shapeCast_a_1a_apply x shapeCasts_S128_S1x128 0 d

theorem tRow_apply (x : FVec Ideal S128 .f32) (g : Fin 256) (d : Fin 128) : tRow x (ix2 g d) = x (ix1 d) :=
  (row_apply (tC1 x) g d).trans (tC1_apply x d)

theorem tCcB_apply (g : Fin 256) (d : Fin 128) :
    tCcB C (ix2 g d) = C (ix1 d) * C (ix1 d) - GraphNorm.two * C (ix1 d) := by
  unfold tCcB GraphNorm.two
  rw [row_apply, subf_apply, mulf_apply, mulf_apply, lit_apply, tC1_apply C d]

/-! ### The scale and the shift -/

/-- The host's quotient and square root read at an index. -/
theorem hostDivf_apply {s : Shape} (a b : FVec Ideal s .f32) (i : s.Idx) : Host.divf a b i = Ideal.div (a i) (b i) := rfl
theorem hostSqrt_apply {s : Shape} (a : FVec Ideal s .f32) (i : s.Idx) : Host.sqrt a i = Ideal.sqrt (a i) := rfl

section Scalars
variable (γ : Fin 1000000 → Fin 256) (hγ : ∀ r : Fin 1000000, B (ix1 r) = GraphNorm.gw (γ r))
include hγ

theorem tMean_apply (g : Fin 256) (d : Fin 128) :
    tMean S B (ix2 g d) = GraphNorm.meanK (GraphNorm.sumK S g d) (GraphNorm.nOf γ g) := by
  unfold tMean GraphNorm.meanK
  rw [hostDivf_apply, tSum_apply S g d, tNb_apply B γ hγ g d]

theorem tIstd_apply (g : Fin 256) (d : Fin 128) :
    tIstd S Q B C (ix2 g d)
      = GraphNorm.istdK (GraphNorm.sumK S g d) (GraphNorm.sumK Q g d) (GraphNorm.nOf γ g) (C (ix1 d)) := by
  unfold tIstd tVar tEx2 GraphNorm.istdK GraphNorm.varK GraphNorm.one GraphNorm.zero GraphNorm.eps
  rw [hostDivf_apply, hostSqrt_apply, addf_apply, maximumf_apply, addf_apply, mulf_apply, mulf_apply, hostDivf_apply,
    lit_apply, lit_apply, lit_apply, tSum_apply Q g d, tNb_apply B γ hγ g d, tMean_apply S B γ hγ g d, tCcB_apply C g d]

theorem tA_apply (g : Fin 256) (d : Fin 128) :
    tA S Q B W C (ix2 g d)
      = GraphNorm.aK (GraphNorm.sumK S g d) (GraphNorm.sumK Q g d) (GraphNorm.nOf γ g) (W (ix1 d)) (C (ix1 d)) := by
  unfold tA GraphNorm.aK
  rw [mulf_apply, tRow_apply W g d, tIstd_apply S Q B C γ hγ g d]

theorem tB_apply (g : Fin 256) (d : Fin 128) :
    tB S Q B W Bi C (ix2 g d)
      = GraphNorm.bK (GraphNorm.sumK S g d) (GraphNorm.sumK Q g d) (GraphNorm.nOf γ g) (W (ix1 d)) (Bi (ix1 d))
          (C (ix1 d)) := by
  unfold tB GraphNorm.bK
  rw [subf_apply, mulf_apply, mulf_apply, mulf_apply, tRow_apply Bi g d, tRow_apply W g d, tRow_apply C g d,
    tMean_apply S B γ hγ g d, tIstd_apply S Q B C γ hγ g d]
end Scalars

/-! ### The two concatenations -/

theorem tAB_left (g : Fin 256) (col : Fin 256) (d : Fin 128) (h : col.val = d.val) :
    tAB S Q B W Bi C (ix2 g col) = tA S Q B W C (ix2 g d) := by
  refine concatenate_pair_apply_left (t := S256x256) (s₁ := S256x128) (s₂ := S256x128) 1 _ _
    concatenates_S256x128_S256x128_S256x256_d1 (ix2 g col) rfl (ix2 g d) ?_
  intro b
  match b with
  | ⟨0, _⟩ => rfl
  | ⟨1, _⟩ => exact h.symm

theorem tAB_right (g : Fin 256) (col : Fin 256) (d : Fin 128) (h : col.val = 128 + d.val) :
    tAB S Q B W Bi C (ix2 g col) = tB S Q B W Bi C (ix2 g d) := by
  refine concatenate_pair_apply_right (t := S256x256) (s₁ := S256x128) (s₂ := S256x128) 1 _ _
    concatenates_S256x128_S256x128_S256x256_d1 (ix2 g col) rfl rfl (ix2 g d) ?_ ?_
  · intro b hb
    match b with
    | ⟨0, _⟩ => rfl
    | ⟨1, _⟩ => exact absurd rfl hb
  · show d.val + 128 = col.val
    omega

theorem tHi_apply (i : S256x256.Idx) : tHi S Q B W Bi C i = tAB S Q B W Bi C i := by
  unfold tHi
  rw [truncf_apply]

theorem tLo_apply (i : S256x256.Idx) : tLo S Q B W Bi C i = tAB S Q B W Bi C i - tAB S Q B W Bi C i := by
  unfold tLo tHi
  rw [truncf_apply, subf_apply, extf_apply, truncf_apply]

theorem tTab_hi (g : Fin 256) (col : Fin 512) (k : Fin 256) (h : col.val = k.val) :
    tTab S Q B W Bi C (ix2 g col) = tAB S Q B W Bi C (ix2 g k) := by
  refine (concatenate_pair_apply_left (t := S256x512) (s₁ := S256x256) (s₂ := S256x256) 1 _ _
    concatenates_S256x256_S256x256_S256x512_d1 (ix2 g col) rfl (ix2 g k) ?_).trans (tHi_apply S Q B W Bi C (ix2 g k))
  intro b
  match b with
  | ⟨0, _⟩ => rfl
  | ⟨1, _⟩ => exact h.symm

theorem tTab_lo (g : Fin 256) (col : Fin 512) (k : Fin 256) (h : col.val = 256 + k.val) :
    tTab S Q B W Bi C (ix2 g col) = tAB S Q B W Bi C (ix2 g k) - tAB S Q B W Bi C (ix2 g k) := by
  refine (concatenate_pair_apply_right (t := S256x512) (s₁ := S256x256) (s₂ := S256x256) 1 _ _
    concatenates_S256x256_S256x256_S256x512_d1 (ix2 g col) rfl rfl (ix2 g k) ?_ ?_).trans (tLo_apply S Q B W Bi C (ix2 g k))
  · intro b hb
    match b with
    | ⟨0, _⟩ => rfl
    | ⟨1, _⟩ => exact absurd rfl hb
  · show k.val + 256 = col.val
    omega

end Terms

/-! ## The table as the second stretch's term -/

/-- An argument's buffer at the accumulating pass's exit is the argument as launched. -/
private theorem W2_arg1 (c : Dev nD) : W2 m ρ c (Proc.devRef .tc main_arg1) = m ((c : Thread nD τ).loc main_arg1) :=
  (W2_of_ne m ρ c main_arg1 (by decide)).trans (W1_of_ne m ρ c main_arg1 (by decide))
private theorem W2_arg2 (c : Dev nD) : W2 m ρ c (Proc.devRef .tc main_arg2) = m ((c : Thread nD τ).loc main_arg2) :=
  (W2_of_ne m ρ c main_arg2 (by decide)).trans (W1_of_ne m ρ c main_arg2 (by decide))
private theorem W2_arg3 (c : Dev nD) : W2 m ρ c (Proc.devRef .tc main_arg3) = m ((c : Thread nD τ).loc main_arg3) :=
  (W2_of_ne m ρ c main_arg3 (by decide)).trans (W1_of_ne m ρ c main_arg3 (by decide))
private theorem W2_arg4 (c : Dev nD) : W2 m ρ c (Proc.devRef .tc main_arg4) = m ((c : Thread nD τ).loc main_arg4) :=
  (W2_of_ne m ρ c main_arg4 (by decide)).trans (W1_of_ne m ρ c main_arg4 (by decide))

set_option maxHeartbeats 4000000 in
/-- The table is the second stretch's term over the two accumulated arrays and what the arguments' buffers hold. -/
private theorem V3_v47 (c : Dev nD) :
    (V3 m ρ c main_v47 : S256x512.Idx → EReal)
      = tTab (S2 m ρ c) (Q2 m ρ c) (W2 m ρ c (Proc.devRef .tc main_arg1)) (W2 m ρ c (Proc.devRef .tc main_arg2))
          (W2 m ρ c (Proc.devRef .tc main_arg3)) (W2 m ρ c (Proc.devRef .tc main_arg4)) := by
  show StableHlo.after hostOps1 (W2 m ρ c) (Proc.devRef .tc main_v47) = _
  after_results
  rfl

/-- The same over the arguments as launched. -/
theorem V3_tab (c : Dev nD) :
    (V3 m ρ c main_v47 : S256x512.Idx → EReal)
      = tTab (S2 m ρ c) (Q2 m ρ c) (Bw m c) (Wt m c) (Bs m c) (Cs m c) := by
  have e := V3_v47 m ρ c
  rw [W2_arg1 m ρ c, W2_arg2 m ρ c, W2_arg3 m ρ c, W2_arg4 m ρ c] at e
  exact e

/-! ## The table the normalising pass is given, column range by column range -/

section Table
variable (c : Dev nD) (γ : Fin 1000000 → Fin 256) (hγ : ∀ r : Fin 1000000, Bw m c (ix1 r) = GraphNorm.gw (γ r))
include hγ

/-- Columns `[0, 128)`: the scale `a`. -/
theorem table_a (g : Fin 256) (d : Fin 128) :
    (V3 m ρ c main_v47 : S256x512.Idx → EReal) (ix2 g (⟨d.val, by omega⟩ : Fin 512))
      = GraphNorm.aK (GraphNorm.sumK (S2 m ρ c) g d) (GraphNorm.sumK (Q2 m ρ c) g d) (GraphNorm.nOf γ g)
          (Wt m c (ix1 d)) (Cs m c (ix1 d)) := by
  exact (congrFun (V3_tab m ρ c) _).trans
    ((tTab_hi (S2 m ρ c) (Q2 m ρ c) (Bw m c) (Wt m c) (Bs m c) (Cs m c) g _ ⟨d.val, by omega⟩ rfl).trans
      ((tAB_left (S2 m ρ c) (Q2 m ρ c) (Bw m c) (Wt m c) (Bs m c) (Cs m c) g _ d rfl).trans
        (tA_apply (S2 m ρ c) (Q2 m ρ c) (Bw m c) (Wt m c) (Cs m c) γ hγ g d)))
/-- Columns `[128, 256)`: the shift `b`. -/
theorem table_b (g : Fin 256) (d : Fin 128) :
    (V3 m ρ c main_v47 : S256x512.Idx → EReal) (ix2 g (⟨128 + d.val, by omega⟩ : Fin 512))
      = GraphNorm.bK (GraphNorm.sumK (S2 m ρ c) g d) (GraphNorm.sumK (Q2 m ρ c) g d) (GraphNorm.nOf γ g)
          (Wt m c (ix1 d)) (Bs m c (ix1 d)) (Cs m c (ix1 d)) := by
  exact (congrFun (V3_tab m ρ c) _).trans
    ((tTab_hi (S2 m ρ c) (Q2 m ρ c) (Bw m c) (Wt m c) (Bs m c) (Cs m c) g _ ⟨128 + d.val, by omega⟩ rfl).trans
      ((tAB_right (S2 m ρ c) (Q2 m ρ c) (Bw m c) (Wt m c) (Bs m c) (Cs m c) g _ d rfl).trans
        (tB_apply (S2 m ρ c) (Q2 m ρ c) (Bw m c) (Wt m c) (Bs m c) (Cs m c) γ hγ g d)))
/-- Columns `[256, 384)`: the scale's remainder `a − a`. -/
theorem table_a_lo (g : Fin 256) (d : Fin 128) :
    (V3 m ρ c main_v47 : S256x512.Idx → EReal) (ix2 g (⟨256 + d.val, by omega⟩ : Fin 512))
      = GraphNorm.aK (GraphNorm.sumK (S2 m ρ c) g d) (GraphNorm.sumK (Q2 m ρ c) g d) (GraphNorm.nOf γ g)
          (Wt m c (ix1 d)) (Cs m c (ix1 d))
        - GraphNorm.aK (GraphNorm.sumK (S2 m ρ c) g d) (GraphNorm.sumK (Q2 m ρ c) g d) (GraphNorm.nOf γ g)
          (Wt m c (ix1 d)) (Cs m c (ix1 d)) := by
  have e : tAB (S2 m ρ c) (Q2 m ρ c) (Bw m c) (Wt m c) (Bs m c) (Cs m c) (ix2 g (⟨d.val, by omega⟩ : Fin 256))
      = GraphNorm.aK (GraphNorm.sumK (S2 m ρ c) g d) (GraphNorm.sumK (Q2 m ρ c) g d) (GraphNorm.nOf γ g)
          (Wt m c (ix1 d)) (Cs m c (ix1 d)) :=
    (tAB_left (S2 m ρ c) (Q2 m ρ c) (Bw m c) (Wt m c) (Bs m c) (Cs m c) g _ d rfl).trans
      (tA_apply (S2 m ρ c) (Q2 m ρ c) (Bw m c) (Wt m c) (Cs m c) γ hγ g d)
  refine (congrFun (V3_tab m ρ c) _).trans
    ((tTab_lo (S2 m ρ c) (Q2 m ρ c) (Bw m c) (Wt m c) (Bs m c) (Cs m c) g _ ⟨d.val, by omega⟩ rfl).trans ?_)
  rw [e]
/-- Columns `[384, 512)`: the shift's remainder `b − b`. -/
theorem table_b_lo (g : Fin 256) (d : Fin 128) :
    (V3 m ρ c main_v47 : S256x512.Idx → EReal) (ix2 g (⟨384 + d.val, by omega⟩ : Fin 512))
      = GraphNorm.bK (GraphNorm.sumK (S2 m ρ c) g d) (GraphNorm.sumK (Q2 m ρ c) g d) (GraphNorm.nOf γ g)
          (Wt m c (ix1 d)) (Bs m c (ix1 d)) (Cs m c (ix1 d))
        - GraphNorm.bK (GraphNorm.sumK (S2 m ρ c) g d) (GraphNorm.sumK (Q2 m ρ c) g d) (GraphNorm.nOf γ g)
          (Wt m c (ix1 d)) (Bs m c (ix1 d)) (Cs m c (ix1 d)) := by
  have e : tAB (S2 m ρ c) (Q2 m ρ c) (Bw m c) (Wt m c) (Bs m c) (Cs m c) (ix2 g (⟨128 + d.val, by omega⟩ : Fin 256))
      = GraphNorm.bK (GraphNorm.sumK (S2 m ρ c) g d) (GraphNorm.sumK (Q2 m ρ c) g d) (GraphNorm.nOf γ g)
          (Wt m c (ix1 d)) (Bs m c (ix1 d)) (Cs m c (ix1 d)) :=
    (tAB_right (S2 m ρ c) (Q2 m ρ c) (Bw m c) (Wt m c) (Bs m c) (Cs m c) g _ d rfl).trans
      (tB_apply (S2 m ρ c) (Q2 m ρ c) (Bw m c) (Wt m c) (Bs m c) (Cs m c) γ hγ g d)
  refine (congrFun (V3_tab m ρ c) _).trans
    ((tTab_lo (S2 m ρ c) (Q2 m ρ c) (Bw m c) (Wt m c) (Bs m c) (Cs m c) g _ ⟨128 + d.val, by omega⟩
      (by show 384 + d.val = 256 + (128 + d.val); omega)).trans ?_)
  rw [e]
end Table

end Cert.KernelIdeal.Host

end
-- ==== Proof.RefValue.lean ====
import proofs.«418891_j10033043604048_3_alg».proof.Proof.Gen.ReferenceIdeal.Run
import proofs.«418891_j10033043604048_3_alg».proof.Proof.Gen.ReferenceIdeal.Read
import proofs.«418891_j10033043604048_3_alg».proof.Proof.Spec
import proofs.«418891_j10033043604048_3_alg».proof.Proof.AlgBasics
import proofs.«418891_j10033043604048_3_alg».proof.Proof.LibScatterRows
import proofs.«418891_j10033043604048_3_alg».proof.Proof.LibGatherRows
import Idealize.ShloMosaic.Lib.Pipeline.Value
import Idealize.ShloMosaic.Lib.ValueIdx
import Idealize.ShloMosaic.Lib.ValueLayout
import Idealize.ShloMosaic.PureOps.Ideal.Laws

noncomputable section

namespace Cert.ReferenceIdeal.RefValue

open Cert.ReferenceIdeal Cert.ReferenceIdeal.Gen Idealize.ShloMosaic Idealize.ShloMosaic.TcCoe Idealize.SL.Sem
open Idealize.ShloMosaic.ValueIdx

/-! ## Index maps at coordinates -/

private theorem idx4 (r : Fin 1000000) : Cert.ReferenceIdeal.Read.idx_main_v4 (ix2 r (0 : Fin 1)) = ix1 r := by
  funext a; match a with | ⟨0, _⟩ => rfl

private theorem idx10 (r : Fin 1000000) : Cert.ReferenceIdeal.Read.idx_main_v10 (ix2 r (0 : Fin 1)) = ix1 r := by
  funext a; match a with | ⟨0, _⟩ => rfl

private theorem idx27 (r : Fin 1000000) : Cert.ReferenceIdeal.Read.idx_main_v27 (ix2 r (0 : Fin 1)) = ix1 r := by
  funext a; match a with | ⟨0, _⟩ => rfl

private theorem idx19 (r : Fin 1000000) : Cert.ReferenceIdeal.Read.idx_main_v19 (ix2 r (0 : Fin 1)) = ix1 r := by
  funext a; match a with | ⟨0, _⟩ => rfl

private theorem idx42 (r : Fin 1000000) : Cert.ReferenceIdeal.Read.idx_main_v42 (ix2 r (0 : Fin 1)) = ix1 r := by
  funext a; match a with | ⟨0, _⟩ => rfl

private theorem idx8 (g : Fin 256) : Cert.ReferenceIdeal.Read.idx_main_v8 (ix2 g (0 : Fin 1)) = ix1 g := by
  funext a; match a with | ⟨0, _⟩ => rfl

private theorem idx12 (g : Fin 256) (d : Fin 128) : Cert.ReferenceIdeal.Read.idx_main_v12 (ix2 g d) = ix2 g (0 : Fin 1) := by
  funext a; match a with | ⟨0, _⟩ => rfl | ⟨1, _⟩ => rfl

private theorem idx29 (g : Fin 256) (d : Fin 128) : Cert.ReferenceIdeal.Read.idx_main_v29 (ix2 g d) = ix2 g (0 : Fin 1) := by
  funext a; match a with | ⟨0, _⟩ => rfl | ⟨1, _⟩ => rfl

private theorem idx22 (r : Fin 1000000) (d : Fin 128) : Cert.ReferenceIdeal.Read.idx_main_v22 (ix2 r d) = ix2 (0 : Fin 1) d := by
  funext a; match a with | ⟨0, _⟩ => rfl | ⟨1, _⟩ => rfl

private theorem idx35 (r : Fin 1000000) (d : Fin 128) : Cert.ReferenceIdeal.Read.idx_main_v35 (ix2 r d) = ix2 (0 : Fin 1) d := by
  funext a; match a with | ⟨0, _⟩ => rfl | ⟨1, _⟩ => rfl

private theorem idx46 (r : Fin 1000000) (d : Fin 128) : Cert.ReferenceIdeal.Read.idx_main_v46 (ix2 r d) = ix2 (0 : Fin 1) d := by
  funext a; match a with | ⟨0, _⟩ => rfl | ⟨1, _⟩ => rfl

private theorem idx21 (d : Fin 128) : Cert.ReferenceIdeal.Read.idx_main_v21 (ix2 (0 : Fin 1) d) = ix1 d := by
  funext a; match a with | ⟨0, _⟩ => rfl

private theorem idx34 (d : Fin 128) : Cert.ReferenceIdeal.Read.idx_main_v34 (ix2 (0 : Fin 1) d) = ix1 d := by
  funext a; match a with | ⟨0, _⟩ => rfl

private theorem idx45 (d : Fin 128) : Cert.ReferenceIdeal.Read.idx_main_v45 (ix2 (0 : Fin 1) d) = ix1 d := by
  funext a; match a with | ⟨0, _⟩ => rfl

/-! ## The index words -/

/-- The word of graph number `g`, read as a signed integer, is `g`. -/
private theorem gw_toInt (g : Fin 256) : (GraphNorm.gw g).toInt = (g.val : ℤ) :=
  (Cert.GatherRows.toInt_eq_iff _ g).mpr rfl

/-- The word of a row's graph, read as a signed integer, is graph number `g` exactly when the row's graph is `g`. -/
private theorem gw_toInt_iff (γ : Fin 1000000 → Fin 256) (r : Fin 1000000) (g : Fin 256) :
    (GraphNorm.gw (γ r)).toInt = (g.val : ℤ) ↔ γ r = g := by
  rw [Cert.GatherRows.toInt_eq_iff]
  exact ⟨fun h => GraphNorm.gw_injective h, fun h => by rw [h]⟩

/-- A graph number's word is not negative, so "add 256 where negative" leaves it as it is. -/
private theorem wrap_word (g : Fin 256) (y : BitVec 32) :
    Scalar.select (IntOp.cmpi .slt (GraphNorm.gw g) 0#32) y (GraphNorm.gw g) = GraphNorm.gw g := by
  have hlt : (GraphNorm.gw g).slt 0#32 = false := by
    rw [Bool.eq_false_iff]; intro h
    rw [BitVec.slt_iff_toInt_lt, gw_toInt, BitVec.toInt_zero] at h
    omega
  have h0 : IntOp.cmpi .slt (GraphNorm.gw g) 0#32 = 0#1 := by
    show BitVec.ofBool ((GraphNorm.gw g).slt 0#32) = 0#1
    rw [hlt]; rfl
  rw [h0]; exact select_zero _ _

private theorem word_v4 (x1 : S1000000.Idx → BitVec 32) (γ : Fin 1000000 → Fin 256)
    (hγ : ∀ r : Fin 1000000, x1 (ix1 r) = GraphNorm.gw (γ r)) (r : Fin 1000000) :
    Cert.ReferenceIdeal.Read.val_main_v4 (F := Ideal) x1 (ix2 r (0 : Fin 1)) = GraphNorm.gw (γ r) := by
  rw [Cert.ReferenceIdeal.Read.val_main_v4_apply, idx4]
  exact hγ r

private theorem word_v10 (x1 : S1000000.Idx → BitVec 32) (γ : Fin 1000000 → Fin 256)
    (hγ : ∀ r : Fin 1000000, x1 (ix1 r) = GraphNorm.gw (γ r)) (r : Fin 1000000) :
    Cert.ReferenceIdeal.Read.val_main_v10 (F := Ideal) x1 (ix2 r (0 : Fin 1)) = GraphNorm.gw (γ r) := by
  rw [Cert.ReferenceIdeal.Read.val_main_v10_apply, idx10]
  exact hγ r

private theorem word_v27 (x1 : S1000000.Idx → BitVec 32) (γ : Fin 1000000 → Fin 256)
    (hγ : ∀ r : Fin 1000000, x1 (ix1 r) = GraphNorm.gw (γ r)) (r : Fin 1000000) :
    Cert.ReferenceIdeal.Read.val_main_v27 (F := Ideal) x1 (ix2 r (0 : Fin 1)) = GraphNorm.gw (γ r) := by
  rw [Cert.ReferenceIdeal.Read.val_main_v27_apply, idx27]
  exact hγ r

private theorem word_v19 (x1 : S1000000.Idx → BitVec 32) (γ : Fin 1000000 → Fin 256)
    (hγ : ∀ r : Fin 1000000, x1 (ix1 r) = GraphNorm.gw (γ r)) (r : Fin 1000000) :
    Cert.ReferenceIdeal.Read.val_main_v19 (F := Ideal) x1 (ix2 r (0 : Fin 1)) = GraphNorm.gw (γ r) := by
  rw [Cert.ReferenceIdeal.Read.val_main_v19_apply, idx19, Cert.ReferenceIdeal.Read.val_main_v18_apply, Cert.ReferenceIdeal.Read.val_main_v15_apply,
    Cert.ReferenceIdeal.Read.val_main_v14_apply, Cert.ReferenceIdeal.Read.val_main_c_apply, hγ r]
  exact wrap_word (γ r) _

private theorem word_v42 (x1 : S1000000.Idx → BitVec 32) (γ : Fin 1000000 → Fin 256)
    (hγ : ∀ r : Fin 1000000, x1 (ix1 r) = GraphNorm.gw (γ r)) (r : Fin 1000000) :
    Cert.ReferenceIdeal.Read.val_main_v42 (F := Ideal) x1 (ix2 r (0 : Fin 1)) = GraphNorm.gw (γ r) := by
  rw [Cert.ReferenceIdeal.Read.val_main_v42_apply, idx42, Cert.ReferenceIdeal.Read.val_main_v41_apply, Cert.ReferenceIdeal.Read.val_main_v38_apply,
    Cert.ReferenceIdeal.Read.val_main_v37_apply, Cert.ReferenceIdeal.Read.val_main_c_6_apply, hγ r]
  exact wrap_word (γ r) _

/-! ## The literals -/

private theorem zero_v3 (g : Fin 256) : Cert.ReferenceIdeal.Read.val_main_v3 (F := Ideal) (ix1 g) = GraphNorm.zero := by
  rw [Cert.ReferenceIdeal.Read.val_main_v3_apply, Cert.ReferenceIdeal.Read.val_main_cst_0_apply, Ideal.ofBits_def]; rfl

private theorem one_v2 (r : Fin 1000000) : Cert.ReferenceIdeal.Read.val_main_v2 (F := Ideal) (ix1 r) = GraphNorm.one := by
  rw [Cert.ReferenceIdeal.Read.val_main_v2_apply, Cert.ReferenceIdeal.Read.val_main_cst_apply, Ideal.ofBits_def]; rfl

private theorem one_v6 (g : Fin 256) : Cert.ReferenceIdeal.Read.val_main_v6 (F := Ideal) (ix1 g) = GraphNorm.one := by
  rw [Cert.ReferenceIdeal.Read.val_main_v6_apply, Cert.ReferenceIdeal.Read.val_main_cst_1_apply, Ideal.ofBits_def]; rfl

private theorem zero_v9 (g : Fin 256) (d : Fin 128) : Cert.ReferenceIdeal.Read.val_main_v9 (F := Ideal) (ix2 g d) = GraphNorm.zero := by
  rw [Cert.ReferenceIdeal.Read.val_main_v9_apply, Cert.ReferenceIdeal.Read.val_main_cst_2_apply, Ideal.ofBits_def]; rfl

private theorem zero_v26 (g : Fin 256) (d : Fin 128) : Cert.ReferenceIdeal.Read.val_main_v26 (F := Ideal) (ix2 g d) = GraphNorm.zero := by
  rw [Cert.ReferenceIdeal.Read.val_main_v26_apply, Cert.ReferenceIdeal.Read.val_main_cst_4_apply, Ideal.ofBits_def]; rfl

private theorem eps_v31 (g : Fin 256) (d : Fin 128) : Cert.ReferenceIdeal.Read.val_main_v31 (F := Ideal) (ix2 g d) = GraphNorm.eps := by
  rw [Cert.ReferenceIdeal.Read.val_main_v31_apply, Cert.ReferenceIdeal.Read.val_main_cst_5_apply, Ideal.ofBits_def]; rfl

/-! ## The stages, bottom-up -/

/-- At the exact instance a host scatter-add is the exact accumulation (for any shapes). -/
private theorem hostScatterAdd_eq {s si su : Shape} {w : Nat} (d : ScatterDims s si su) (x : s.Idx → EReal)
    (idx : IVec si w) (upd : su.Idx → EReal) :
    Host.scatterAdd (F := Ideal) (φ := .f32) d x idx upd = Ideal.hostScatterAdd d x idx upd := rfl

private theorem v5_def (x1 : S1000000.Idx → BitVec 32) :
    Cert.ReferenceIdeal.Read.val_main_v5 (F := Ideal) x1
      = Host.scatterAdd (F := Ideal) (φ := .f32) scatter_S256_S1000000x1_S1000000_n_0_0_1 (Cert.ReferenceIdeal.Read.val_main_v3 (F := Ideal))
          (Cert.ReferenceIdeal.Read.val_main_v4 (F := Ideal) x1) (Cert.ReferenceIdeal.Read.val_main_v2 (F := Ideal)) := rfl

/-- The count scatter-add at a graph: the operand there plus the updates of the rows whose word reads as that graph. -/
private theorem v5_raw (x1 : S1000000.Idx → BitVec 32) (g : Fin 256) :
    Cert.ReferenceIdeal.Read.val_main_v5 (F := Ideal) x1 (ix1 g)
      = Cert.ReferenceIdeal.Read.val_main_v3 (F := Ideal) (ix1 g) + ∑ r : Fin 1000000,
          if (Cert.ReferenceIdeal.Read.val_main_v4 (F := Ideal) x1 (ix2 r (0 : Fin 1))).toInt = (g.val : ℤ)
            then Cert.ReferenceIdeal.Read.val_main_v2 (F := Ideal) (ix1 r) else 0 :=
  (congrFun (v5_def x1) (ix1 g)).trans ((congrFun (hostScatterAdd_eq _ _ _ _) (ix1 g)).trans
    (Cert.ScatterRows.scatterAdd_rows1 scatter_S256_S1000000x1_S1000000_n_0_0_1 rfl rfl rfl rfl _ _ _ g))

/-- The counts: the scatter-add of ones is the number of rows per graph, from zero. -/
private theorem v5_apply (x1 : S1000000.Idx → BitVec 32) (γ : Fin 1000000 → Fin 256)
    (hγ : ∀ r : Fin 1000000, x1 (ix1 r) = GraphNorm.gw (γ r)) (g : Fin 256) :
    Cert.ReferenceIdeal.Read.val_main_v5 (F := Ideal) x1 (ix1 g) = GraphNorm.cnt γ g := by
  refine (v5_raw x1 g).trans ?_
  unfold GraphNorm.cnt GraphNorm.segSum
  refine congrArg₂ (· + ·) (zero_v3 g) (Finset.sum_congr rfl fun r _ => ?_)
  rw [word_v4 x1 γ hγ r, one_v2 r]
  exact if_congr (gw_toInt_iff γ r g) rfl rfl

/-- The divisor: the count, at least one. -/
private theorem v8_apply (x1 : S1000000.Idx → BitVec 32) (γ : Fin 1000000 → Fin 256)
    (hγ : ∀ r : Fin 1000000, x1 (ix1 r) = GraphNorm.gw (γ r)) (g : Fin 256) :
    Cert.ReferenceIdeal.Read.val_main_v8 (F := Ideal) x1 (ix2 g (0 : Fin 1)) = GraphNorm.nOf γ g := by
  rw [Cert.ReferenceIdeal.Read.val_main_v8_apply, idx8, Cert.ReferenceIdeal.Read.val_main_v7_apply, v5_apply x1 γ hγ g, one_v6 g]
  rfl

private theorem v11_def (x0 : S1000000x128.Idx → EReal) (x1 : S1000000.Idx → BitVec 32) :
    Cert.ReferenceIdeal.Read.val_main_v11 (F := Ideal) x0 x1
      = Host.scatterAdd (F := Ideal) (φ := .f32) scatter_S256x128_S1000000x1_S1000000x128_1_0_0_1 (Cert.ReferenceIdeal.Read.val_main_v9 (F := Ideal))
          (Cert.ReferenceIdeal.Read.val_main_v10 (F := Ideal) x1) x0 := rfl

private theorem v11_raw (x0 : S1000000x128.Idx → EReal) (x1 : S1000000.Idx → BitVec 32) (g : Fin 256) (d : Fin 128) :
    Cert.ReferenceIdeal.Read.val_main_v11 (F := Ideal) x0 x1 (ix2 g d)
      = Cert.ReferenceIdeal.Read.val_main_v9 (F := Ideal) (ix2 g d) + ∑ r : Fin 1000000,
          if (Cert.ReferenceIdeal.Read.val_main_v10 (F := Ideal) x1 (ix2 r (0 : Fin 1))).toInt = (g.val : ℤ)
            then x0 (ix2 r d) else 0 :=
  (congrFun (v11_def x0 x1) (ix2 g d)).trans ((congrFun (hostScatterAdd_eq _ _ _ _) (ix2 g d)).trans
    (Cert.ScatterRows.scatterAdd_rows2 scatter_S256x128_S1000000x1_S1000000x128_1_0_0_1 rfl rfl rfl rfl _ _ _ g d))

/-- The per-graph sums of the features. -/
private theorem v11_apply (x0 : S1000000x128.Idx → EReal) (x1 : S1000000.Idx → BitVec 32) (γ : Fin 1000000 → Fin 256)
    (hγ : ∀ r : Fin 1000000, x1 (ix1 r) = GraphNorm.gw (γ r)) (g : Fin 256) (d : Fin 128) :
    Cert.ReferenceIdeal.Read.val_main_v11 (F := Ideal) x0 x1 (ix2 g d) = GraphNorm.sumX x0 γ g d := by
  refine (v11_raw x0 x1 g d).trans ?_
  unfold GraphNorm.sumX GraphNorm.segSum
  refine congrArg₂ (· + ·) (zero_v9 g d) (Finset.sum_congr rfl fun r _ => ?_)
  rw [word_v10 x1 γ hγ r]
  exact if_congr (gw_toInt_iff γ r g) rfl rfl

/-- The per-graph means. -/
private theorem v13_apply (x0 : S1000000x128.Idx → EReal) (x1 : S1000000.Idx → BitVec 32) (γ : Fin 1000000 → Fin 256)
    (hγ : ∀ r : Fin 1000000, x1 (ix1 r) = GraphNorm.gw (γ r)) (g : Fin 256) (d : Fin 128) :
    Cert.ReferenceIdeal.Read.val_main_v13 (F := Ideal) x0 x1 (ix2 g d) = GraphNorm.meanR x0 γ g d := by
  rw [Cert.ReferenceIdeal.Read.val_main_v13_apply, v11_apply x0 x1 γ hγ g d, Cert.ReferenceIdeal.Read.val_main_v12_apply, idx12, v8_apply x1 γ hγ g]
  rfl

/-- The wrapped index word, read as a signed integer, is the row's graph number. -/
private theorem v19_toInt (x1 : S1000000.Idx → BitVec 32) (γ : Fin 1000000 → Fin 256)
    (hγ : ∀ r : Fin 1000000, x1 (ix1 r) = GraphNorm.gw (γ r)) (r : Fin 1000000) :
    (Cert.ReferenceIdeal.Read.val_main_v19 (F := Ideal) x1 (ix2 r (0 : Fin 1))).toInt = ((γ r).val : ℤ) := by
  rw [word_v19 x1 γ hγ r]; exact gw_toInt (γ r)

private theorem v42_toInt (x1 : S1000000.Idx → BitVec 32) (γ : Fin 1000000 → Fin 256)
    (hγ : ∀ r : Fin 1000000, x1 (ix1 r) = GraphNorm.gw (γ r)) (r : Fin 1000000) :
    (Cert.ReferenceIdeal.Read.val_main_v42 (F := Ideal) x1 (ix2 r (0 : Fin 1))).toInt = ((γ r).val : ℤ) := by
  rw [word_v42 x1 γ hγ r]; exact gw_toInt (γ r)

private theorem v20_def (x0 : S1000000x128.Idx → EReal) (x1 : S1000000.Idx → BitVec 32) :
    Cert.ReferenceIdeal.Read.val_main_v20 (F := Ideal) x0 x1
      = Host.gather gather_S256x128_S1000000x1_S1000000x128_1_0_n_n_0_1_1128 (Cert.ReferenceIdeal.Read.val_main_v13 (F := Ideal) x0 x1) (Cert.ReferenceIdeal.Read.val_main_v19 (F := Ideal) x1) := rfl

/-- The first gather reads each row's own graph's mean. -/
private theorem v20_apply (x0 : S1000000x128.Idx → EReal) (x1 : S1000000.Idx → BitVec 32) (γ : Fin 1000000 → Fin 256)
    (hγ : ∀ r : Fin 1000000, x1 (ix1 r) = GraphNorm.gw (γ r)) (r : Fin 1000000) (d : Fin 128) :
    Cert.ReferenceIdeal.Read.val_main_v20 (F := Ideal) x0 x1 (ix2 r d) = GraphNorm.meanR x0 γ (γ r) d :=
  (congrFun (v20_def x0 x1) (ix2 r d)).trans
    ((Cert.GatherRows.gather_rows gather_S256x128_S1000000x1_S1000000x128_1_0_n_n_0_1_1128 rfl rfl rfl rfl rfl rfl rfl _ _ γ (v19_toInt x1 γ hγ) r d).trans
      (v13_apply x0 x1 γ hγ (γ r) d))

/-- The centred features. -/
private theorem v24_apply (x0 : S1000000x128.Idx → EReal) (x1 : S1000000.Idx → BitVec 32) (γ : Fin 1000000 → Fin 256)
    (hγ : ∀ r : Fin 1000000, x1 (ix1 r) = GraphNorm.gw (γ r)) (x4 : S128.Idx → EReal) (r : Fin 1000000) (d : Fin 128) :
    Cert.ReferenceIdeal.Read.val_main_v24 (F := Ideal) x0 x1 x4 (ix2 r d) = GraphNorm.subR x0 γ x4 r d := by
  rw [Cert.ReferenceIdeal.Read.val_main_v24_apply, Cert.ReferenceIdeal.Read.val_main_v23_apply, v20_apply x0 x1 γ hγ r d, Cert.ReferenceIdeal.Read.val_main_v22_apply, idx22,
    Cert.ReferenceIdeal.Read.val_main_v21_apply, idx21]
  rfl

private theorem v28_def (x0 : S1000000x128.Idx → EReal) (x1 : S1000000.Idx → BitVec 32) (x4 : S128.Idx → EReal) :
    Cert.ReferenceIdeal.Read.val_main_v28 (F := Ideal) x0 x1 x4
      = Host.scatterAdd (F := Ideal) (φ := .f32) scatter_S256x128_S1000000x1_S1000000x128_1_0_0_1 (Cert.ReferenceIdeal.Read.val_main_v26 (F := Ideal))
          (Cert.ReferenceIdeal.Read.val_main_v27 (F := Ideal) x1) (Cert.ReferenceIdeal.Read.val_main_v25 (F := Ideal) x0 x1 x4) := rfl

private theorem v28_raw (x0 : S1000000x128.Idx → EReal) (x1 : S1000000.Idx → BitVec 32) (x4 : S128.Idx → EReal) (g : Fin 256) (d : Fin 128) :
    Cert.ReferenceIdeal.Read.val_main_v28 (F := Ideal) x0 x1 x4 (ix2 g d)
      = Cert.ReferenceIdeal.Read.val_main_v26 (F := Ideal) (ix2 g d) + ∑ r : Fin 1000000,
          if (Cert.ReferenceIdeal.Read.val_main_v27 (F := Ideal) x1 (ix2 r (0 : Fin 1))).toInt = (g.val : ℤ)
            then Cert.ReferenceIdeal.Read.val_main_v25 (F := Ideal) x0 x1 x4 (ix2 r d) else 0 :=
  (congrFun (v28_def x0 x1 x4) (ix2 g d)).trans ((congrFun (hostScatterAdd_eq _ _ _ _) (ix2 g d)).trans
    (Cert.ScatterRows.scatterAdd_rows2 scatter_S256x128_S1000000x1_S1000000x128_1_0_0_1 rfl rfl rfl rfl _ _ _ g d))

/-- A squared centred feature. -/
private theorem v25_apply (x0 : S1000000x128.Idx → EReal) (x1 : S1000000.Idx → BitVec 32) (γ : Fin 1000000 → Fin 256)
    (hγ : ∀ r : Fin 1000000, x1 (ix1 r) = GraphNorm.gw (γ r)) (x4 : S128.Idx → EReal) (r : Fin 1000000) (d : Fin 128) :
    Cert.ReferenceIdeal.Read.val_main_v25 (F := Ideal) x0 x1 x4 (ix2 r d) = GraphNorm.subR x0 γ x4 r d * GraphNorm.subR x0 γ x4 r d := by
  rw [Cert.ReferenceIdeal.Read.val_main_v25_apply, v24_apply x0 x1 γ hγ x4 r d]
  rfl

/-- The per-graph sums of the squared centred features. -/
private theorem v28_apply (x0 : S1000000x128.Idx → EReal) (x1 : S1000000.Idx → BitVec 32) (γ : Fin 1000000 → Fin 256)
    (hγ : ∀ r : Fin 1000000, x1 (ix1 r) = GraphNorm.gw (γ r)) (x4 : S128.Idx → EReal) (g : Fin 256) (d : Fin 128) :
    Cert.ReferenceIdeal.Read.val_main_v28 (F := Ideal) x0 x1 x4 (ix2 g d) = GraphNorm.sqR x0 γ x4 g d := by
  refine (v28_raw x0 x1 x4 g d).trans ?_
  unfold GraphNorm.sqR GraphNorm.segSum
  refine congrArg₂ (· + ·) (zero_v26 g d) (Finset.sum_congr rfl fun r _ => ?_)
  rw [word_v27 x1 γ hγ r, v25_apply x0 x1 γ hγ x4 r d]
  exact if_congr (gw_toInt_iff γ r g) rfl rfl

/-- The per-graph variances of the centred features. -/
private theorem v30_apply (x0 : S1000000x128.Idx → EReal) (x1 : S1000000.Idx → BitVec 32) (γ : Fin 1000000 → Fin 256)
    (hγ : ∀ r : Fin 1000000, x1 (ix1 r) = GraphNorm.gw (γ r)) (x4 : S128.Idx → EReal) (g : Fin 256) (d : Fin 128) :
    Cert.ReferenceIdeal.Read.val_main_v30 (F := Ideal) x0 x1 x4 (ix2 g d) = GraphNorm.varR x0 γ x4 g d := by
  rw [Cert.ReferenceIdeal.Read.val_main_v30_apply, v28_apply x0 x1 γ hγ x4 g d, Cert.ReferenceIdeal.Read.val_main_v29_apply, idx29, v8_apply x1 γ hγ g]
  rfl

/-- The per-graph standard deviations. -/
private theorem v33_apply (x0 : S1000000x128.Idx → EReal) (x1 : S1000000.Idx → BitVec 32) (γ : Fin 1000000 → Fin 256)
    (hγ : ∀ r : Fin 1000000, x1 (ix1 r) = GraphNorm.gw (γ r)) (x4 : S128.Idx → EReal) (g : Fin 256) (d : Fin 128) :
    Cert.ReferenceIdeal.Read.val_main_v33 (F := Ideal) x0 x1 x4 (ix2 g d) = GraphNorm.stdR x0 γ x4 g d := by
  rw [Cert.ReferenceIdeal.Read.val_main_v33_apply, Cert.ReferenceIdeal.Read.val_main_v32_apply, v30_apply x0 x1 γ hγ x4 g d, eps_v31 g d,
    Ideal.hostUnary_sqrt_def, Ideal.addf_def]
  unfold GraphNorm.stdR
  rfl

private theorem v43_def (x0 : S1000000x128.Idx → EReal) (x1 : S1000000.Idx → BitVec 32) (x4 : S128.Idx → EReal) :
    Cert.ReferenceIdeal.Read.val_main_v43 (F := Ideal) x0 x1 x4
      = Host.gather gather_S256x128_S1000000x1_S1000000x128_1_0_n_n_0_1_1128 (Cert.ReferenceIdeal.Read.val_main_v33 (F := Ideal) x0 x1 x4) (Cert.ReferenceIdeal.Read.val_main_v42 (F := Ideal) x1) := rfl

/-- The second gather reads each row's own graph's standard deviation. -/
private theorem v43_apply (x0 : S1000000x128.Idx → EReal) (x1 : S1000000.Idx → BitVec 32) (γ : Fin 1000000 → Fin 256)
    (hγ : ∀ r : Fin 1000000, x1 (ix1 r) = GraphNorm.gw (γ r)) (x4 : S128.Idx → EReal) (r : Fin 1000000) (d : Fin 128) :
    Cert.ReferenceIdeal.Read.val_main_v43 (F := Ideal) x0 x1 x4 (ix2 r d) = GraphNorm.stdR x0 γ x4 (γ r) d :=
  (congrFun (v43_def x0 x1 x4) (ix2 r d)).trans
    ((Cert.GatherRows.gather_rows gather_S256x128_S1000000x1_S1000000x128_1_0_n_n_0_1_1128 rfl rfl rfl rfl rfl rfl rfl _ _ γ (v42_toInt x1 γ hγ) r d).trans
      (v33_apply x0 x1 γ hγ x4 (γ r) d))

/-- The reference's result, entry by entry, is the two-pass normalisation of the specification, once every row's
    index word is known to be a graph number's word. -/
theorem ref_apply (x0 : S1000000x128.Idx → EReal) (x1 : S1000000.Idx → BitVec 32) (x2 x3 x4 : S128.Idx → EReal)
    (γ : Fin 1000000 → Fin 256) (hγ : ∀ r : Fin 1000000, x1 (ix1 r) = GraphNorm.gw (γ r))
    (r : Fin 1000000) (d : Fin 128) :
    Cert.ReferenceIdeal.Read.val_main_v47 (F := Ideal) x0 x1 x2 x3 x4 (ix2 r d) = GraphNorm.refOut x0 γ x2 x3 x4 r d := by
  rw [Cert.ReferenceIdeal.Read.val_main_v47_apply, Cert.ReferenceIdeal.Read.val_main_v44_apply, Cert.ReferenceIdeal.Read.val_main_v36_apply, Cert.ReferenceIdeal.Read.val_main_v35_apply, idx35,
    Cert.ReferenceIdeal.Read.val_main_v34_apply, idx34, v24_apply x0 x1 γ hγ x4 r d, v43_apply x0 x1 γ hγ x4 r d,
    Cert.ReferenceIdeal.Read.val_main_v46_apply, idx46, Cert.ReferenceIdeal.Read.val_main_v45_apply, idx45]
  rfl

end Cert.ReferenceIdeal.RefValue

end
-- ==== Proof.PreFacts.lean ====
import proofs.«418891_j10033043604048_3_alg».proof.Defs
import proofs.«418891_j10033043604048_3_alg».proof.Proof.Gen.Pre_finite_inputs
import proofs.«418891_j10033043604048_3_alg».proof.Proof.Spec
import Idealize.ShloMosaic.Lib.ReduceAll
import Idealize.ShloMosaic.Lib.StableHlo.Predicate
import Idealize.ShloMosaic.Lib.ValueIdx
import Idealize.ShloMosaic.PureOps.Ideal.Laws

noncomputable section

namespace Cert.PreFacts

open Idealize.ShloMosaic Idealize.SL.Sem Idealize.ShloMosaic.ValueIdx

/-- The scalar shape has one index. -/
private instance subsingletonScalarIdx : Subsingleton Cert.Pre_finite_inputs.S_.Idx :=
  ⟨fun a b => funext fun d => d.elim0⟩

/-- A value whose absolute value lies strictly below `+∞` is a real number: `⊥` and `⊤` both have absolute value `⊤`. -/
private theorem real_of_abs_lt (x : EReal)
    (h : Ideal.cmp .olt (max x (-x)) (Ideal.ofBits .f32 0x7F800000#32) = 1#1) : ∃ v : ℝ, x = (v : EReal) := by
  have htop : Ideal.ofBits .f32 0x7F800000#32 = ⊤ := by simp [Ideal.ofBits, Ideal.ieee]
  rw [htop] at h
  unfold Ideal.cmp at h
  induction x using EReal.rec with
  | bot => simp at h
  | coe v => exact ⟨v, rfl⟩
  | top => simp at h

/-- `all (|x| < +∞)` over an array of any shape, read back: every entry is a real number. -/
private theorem real_of_all {s : Shape} {axes : List (Fin s.rank)} (x : s.Idx → EReal)
    (hb : Cert.Pre_finite_inputs.S_.BroadcastsInDim s (![] : Fin 0 → Fin s.rank))
    (hr : s.ReducesTo axes Cert.Pre_finite_inputs.S_) (hu : 0 < Cert.Pre_finite_inputs.S_.numel)
    (e : Host.reduce IntOp.andi
        (cmpf (F := Ideal) (φ := .f32) .olt (Host.absf (F := Ideal) (φ := .f32) x)
          (broadcastInDim s ![] hb (constant (F := Ideal) Cert.Pre_finite_inputs.S_ .f32 0x7F800000#32)))
        (constantI Cert.Pre_finite_inputs.S_ 1 1#1) hr hu ix0 = 1#1) (i : s.Idx) : ∃ v : ℝ, x i = (v : EReal) := by
  have hi := Host.reduce_andi_all _ _ hr hu ix0 e i
  exact real_of_abs_lt (x i) hi

/-- A 32-bit word whose signed value lies in `[0, 256)` is the word of a number below 256. -/
private theorem word_of_range (w : BitVec 32) (h0 : (0#32 : BitVec 32).toInt ≤ w.toInt) (h1 : w.toInt < (256#32 : BitVec 32).toInt) :
    w.toNat < 256 ∧ w = BitVec.ofNat 32 w.toNat := by
  have e0 : (0#32 : BitVec 32).toInt = 0 := by decide
  have e1 : (256#32 : BitVec 32).toInt = 256 := by decide
  rw [e0] at h0
  rw [e1] at h1
  have hw := w.isLt
  refine ⟨?_, BitVec.eq_of_toNat_eq ?_⟩
  · rw [BitVec.toInt_eq_toNat_cond] at h0 h1
    split at h0 <;> omega
  · rw [BitVec.toNat_ofNat]
    exact (Nat.mod_eq_of_lt hw).symm

/-- What the precondition says of five arrays: each float entry is a real number, and each index word is the word of
    a graph number below 256 (so the rows have a graph function `γ`). -/
theorem of_fn (x0 : Cert.Pre_finite_inputs.S1000000x128.Idx → EReal) (x1 : Cert.Pre_finite_inputs.S1000000.Idx → BitVec 32)
    (x2 x3 x4 : Cert.Pre_finite_inputs.S128.Idx → EReal)
    (h : Cert.Pre_finite_inputs.fn (F := Ideal) x0 x1 x2 x3 x4 = fun _ => 1#1) :
    (∀ i, ∃ v : ℝ, x0 i = (v : EReal)) ∧ (∀ i, ∃ v : ℝ, x2 i = (v : EReal)) ∧ (∀ i, ∃ v : ℝ, x3 i = (v : EReal))
      ∧ (∀ i, ∃ v : ℝ, x4 i = (v : EReal))
      ∧ ∃ γ : Fin 1000000 → Fin 256, ∀ r : Fin 1000000, x1 (ix1 r) = GraphNorm.gw (γ r) := by
  have h0 := congrFun h ValueIdx.ix0
  dsimp only [Cert.Pre_finite_inputs.fn, Cert.Pre_finite_inputs.fn_part1] at h0
  obtain ⟨h1234, h5⟩ := IntOp.andi_eq_one.1 h0
  obtain ⟨h123, h4⟩ := IntOp.andi_eq_one.1 h1234
  obtain ⟨h12, h3⟩ := IntOp.andi_eq_one.1 h123
  obtain ⟨h1, h2⟩ := IntOp.andi_eq_one.1 h12
  refine ⟨real_of_all x0 _ _ _ h1, real_of_all x2 _ _ _ h2, real_of_all x3 _ _ _ h3, real_of_all x4 _ _ _ h4, ?_⟩
  have hrow : ∀ r : Fin 1000000, (x1 (ix1 r)).toNat < 256 ∧ x1 (ix1 r) = BitVec.ofNat 32 (x1 (ix1 r)).toNat := by
    intro r
    have hr := Host.reduce_andi_all _ _ _ _ ix0 h5 (ix1 r)
    obtain ⟨hge, hlt⟩ := IntOp.andi_eq_one.1 hr
    exact word_of_range _ (IntOp.cmpi_sge.1 hge) (IntOp.cmpi_slt.1 hlt)
  exact ⟨fun r => ⟨(x1 (ix1 r)).toNat, (hrow r).1⟩, fun r => (hrow r).2⟩

end Cert.PreFacts

end
-- ==== Proof.lean ====
/-
  GraphNorm by per-graph statistics: a two-pass reference (per-graph mean, centred features, per-graph variance of
  the centred features, then `w · (x − m c) / √(var + ε) + β`) against a kernel that accumulates per-graph sums and
  sums of squares tile by tile with a one-hot product, forms the variance in one pass as `E[x²] + m² (c² − 2c)`
  clamped at zero, folds weight, bias and scale into an affine pair `(a, b)` per graph and feature, splits each
  table entry into a leading part and a remainder, gathers the pair per row with a second one-hot product and
  stores `x · a + b`.

  Over the extended reals, for finite inputs and index words that are graph numbers below 256, the two results agree
  entry by entry: the one-hot products are sums over a graph's rows, the two halves of the rows add up to all rows,
  the expanded square gives the one-pass variance (non-negative, so the clamp is the identity), and the affine form is
  the quotient form because the standard deviation is a positive real. The three runs terminate without fault and
  leave their arguments unchanged; the idealization rewrote nothing.
-/
import proofs.«418891_j10033043604048_3_alg».proof.Defs
import proofs.«418891_j10033043604048_3_alg».proof.Proof.Gen.Kernel
import proofs.«418891_j10033043604048_3_alg».proof.Proof.Gen.Kernel.Frame
import proofs.«418891_j10033043604048_3_alg».proof.Proof.Gen.KernelIdeal
import proofs.«418891_j10033043604048_3_alg».proof.Proof.Gen.KernelIdeal.Frame
import proofs.«418891_j10033043604048_3_alg».proof.Proof.Gen.ReferenceIdeal
import proofs.«418891_j10033043604048_3_alg».proof.Proof.Gen.ReferenceIdeal.Run
import proofs.«418891_j10033043604048_3_alg».proof.Proof.Gen.ReferenceIdeal.Read
import proofs.«418891_j10033043604048_3_alg».proof.Proof.Gen.Pre_finite_inputs
import proofs.«418891_j10033043604048_3_alg».proof.Proof.Spec
import proofs.«418891_j10033043604048_3_alg».proof.Proof.AlgBasics
import proofs.«418891_j10033043604048_3_alg».proof.Proof.Algebra
import proofs.«418891_j10033043604048_3_alg».proof.Proof.KRun
import proofs.«418891_j10033043604048_3_alg».proof.Proof.KRegion0
import proofs.«418891_j10033043604048_3_alg».proof.Proof.KRegion1
import proofs.«418891_j10033043604048_3_alg».proof.Proof.KHost
import proofs.«418891_j10033043604048_3_alg».proof.Proof.RefValue
import proofs.«418891_j10033043604048_3_alg».proof.Proof.PreFacts
import Idealize.ShloMosaic.Adequacy
import Idealize.ShloMosaic.Init

noncomputable section

namespace Cert.Proof

open Idealize.ShloMosaic Idealize.ShloMosaic.TcCoe Idealize.SL.Sem Idealize.ShloMosaic.ValueIdx

/-! ## The kernel's result array is the reference's stage of the same arguments -/

section KernelValue

open Cert.KernelIdeal Cert.KernelIdeal.Gen Cert.KernelIdeal.Host

variable (m : (ℓ : Loc nD τ sig) → Buf (Elt Ideal) ℓ) (ρ : Dev nD → PrngReg)

/-- The per-graph sums the table is built from are the whole-array sums: each half's accumulated slab is, from zero,
    that half's tiles, and the two halves are all the rows. -/
theorem sumK_S2 (c : Dev nD) (γ : Fin 1000000 → Fin 256) (hγ : ∀ r : Fin 1000000, Bw m c (ix1 r) = GraphNorm.gw (γ r))
    (g : Fin 256) (d : Fin 128) :
    GraphNorm.sumK (S2 m ρ c) g d = GraphNorm.sumX (X m c) γ g d := by
  have hγ1 : ∀ r : Fin 1000000, Cert.KernelIdeal.R0.BV (V1 m ρ) c (ix2 r (0 : Fin 1)) = GraphNorm.gw (γ r) :=
    fun r => (V1_v0 m ρ c r).trans (hγ r)
  have e0 := Cert.KernelIdeal.R0.arr2 (V1 m ρ) c γ hγ1 0 g d
  have e1 := Cert.KernelIdeal.R0.arr2 (V1 m ρ) c γ hγ1 1 g d
  have hx : Cert.KernelIdeal.R0.XV (V1 m ρ) c = X m c := V1_arg0 m ρ c
  rw [hx] at e0 e1
  have hS : (S2 m ρ c) = ((dat0 (F := Ideal) (V1 m ρ) c).arrAt 2 cfg0.N : S2x256x128.Idx → EReal) := (hF0 m ρ c 2).symm
  unfold GraphNorm.sumK GraphNorm.sumX
  rw [hS, e0, e1, GraphNorm.zero_eq]
  simp only [zero_add]
  exact GraphNorm.slab_add γ _ g

theorem sumK_Q2 (c : Dev nD) (γ : Fin 1000000 → Fin 256) (hγ : ∀ r : Fin 1000000, Bw m c (ix1 r) = GraphNorm.gw (γ r))
    (g : Fin 256) (d : Fin 128) :
    GraphNorm.sumK (Q2 m ρ c) g d = GraphNorm.sumXX (X m c) γ g d := by
  have hγ1 : ∀ r : Fin 1000000, Cert.KernelIdeal.R0.BV (V1 m ρ) c (ix2 r (0 : Fin 1)) = GraphNorm.gw (γ r) :=
    fun r => (V1_v0 m ρ c r).trans (hγ r)
  have e0 := Cert.KernelIdeal.R0.arr3 (V1 m ρ) c γ hγ1 0 g d
  have e1 := Cert.KernelIdeal.R0.arr3 (V1 m ρ) c γ hγ1 1 g d
  have hx : Cert.KernelIdeal.R0.XV (V1 m ρ) c = X m c := V1_arg0 m ρ c
  rw [hx] at e0 e1
  have hQ : (Q2 m ρ c) = ((dat0 (F := Ideal) (V1 m ρ) c).arrAt 3 cfg0.N : S2x256x128.Idx → EReal) := (hF0 m ρ c 3).symm
  unfold GraphNorm.sumK GraphNorm.sumXX
  rw [hQ, e0, e1, GraphNorm.zero_eq]
  simp only [zero_add]
  exact GraphNorm.slab_add γ _ g

/-- The kernel's result array, entry by entry, is the one-pass form of the specification. -/
theorem result_apply (c : Dev nD) (γ : Fin 1000000 → Fin 256) (hγ : ∀ r : Fin 1000000, Bw m c (ix1 r) = GraphNorm.gw (γ r))
    (r : Fin 1000000) (d : Fin 128) :
    (W4 m ρ c (Proc.devRef .tc main_v48) : S1000000x128.Idx → EReal) (ix2 r d)
      = GraphNorm.kernOut (X m c) γ (Wt m c) (Bs m c) (Cs m c) r d := by
  have hA : (W4 m ρ c (Proc.devRef .tc main_v48) : S1000000x128.Idx → EReal)
      = ((dat1 (F := Ideal) (V3 m ρ) c).arrAt 3 cfg1.N : S1000000x128.Idx → EReal) := W4_arr m ρ c 3
  rw [hA, Cert.KernelIdeal.R1.arr (V3 m ρ) c r d, V3_arg0 m ρ c, V3_v0 m ρ c r, hγ r]
  unfold GraphNorm.norm1 GraphNorm.kernOut
  dsimp only
  rw [GraphNorm.gat_gw, GraphNorm.gat_gw, GraphNorm.gat_gw, GraphNorm.gat_gw,
    table_a m ρ c γ hγ (γ r) d, table_b m ρ c γ hγ (γ r) d, table_a_lo m ρ c γ hγ (γ r) d, table_b_lo m ρ c γ hγ (γ r) d,
    sumK_S2 m ρ c γ hγ (γ r) d, sumK_Q2 m ρ c γ hγ (γ r) d]

end KernelValue

/-! ## The claims -/

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- At the exact instance the kernel's result array ends at the one-pass form and the reference's at the two-pass
    form of arguments that agree: one function of finite inputs and in-range graph numbers. -/
theorem algebraic : Cert.algebraic_KernelIdeal_ReferenceIdeal := by
  intro m ρ m' ρ' hpre hagree
  refine ⟨fun c => Cert.KernelIdeal.Gen.W4 m ρ c (Proc.devRef .tc Cert.KernelIdeal.main_v48),
    Cert.KernelIdeal.RunV.run (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v47_eq, (hagree c).1, (hagree c).2.1, (hagree c).2.2.1, (hagree c).2.2.2.1,
    (hagree c).2.2.2.2]
  obtain ⟨hX, hW, hBi, hC, γ, hγ⟩ := Cert.PreFacts.of_fn _ _ _ _ _ (hpre c)
  funext i
  obtain ⟨r, d, rfl⟩ : ∃ (r : Fin 1000000) (d : Fin 128), i = ix2 r d := ⟨i 0, i 1, eq_ix2 i⟩
  rw [Cert.ReferenceIdeal.RefValue.ref_apply _ _ _ _ _ γ hγ r d, ← GraphNorm.kernOut_eq_refOut _ γ _ _ _ hX hW hBi hC r d]
  exact (result_apply m ρ c γ hγ r d).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
